-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x32 : Shape := ⟨2, ![65536, 32]⟩
abbrev S14848x128 : Shape := ⟨2, ![14848, 128]⟩
abbrev S32x128 : Shape := ⟨2, ![32, 128]⟩
abbrev S32 : Shape := ⟨1, ![32]⟩
abbrev S32x64 : Shape := ⟨2, ![32, 64]⟩
abbrev S1x64 : Shape := ⟨2, ![1, 64]⟩
abbrev S_ : Shape := ⟨0, ![]⟩
abbrev S65536x29 : Shape := ⟨2, ![65536, 29]⟩

class Facts : Prop where
  bcast_S_S14848x128 : S_.BroadcastsInDim S14848x128 (![] : Fin 0 → Fin S14848x128.rank)
  reducesTo_S14848x128_S_d0_1 : S14848x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S1x64 : S_.BroadcastsInDim S1x64 (![] : Fin 0 → Fin S1x64.rank)
  reducesTo_S1x64_S_d0_1 : S1x64.ReducesTo [0, 1] S_
  slices_S65536x32_S65536x29_0_0 : S65536x32.Slices ![0, 0] S65536x29
  bcast_S_S65536x29 : S_.BroadcastsInDim S65536x29 (![] : Fin 0 → Fin S65536x29.rank)
  reducesTo_S65536x29_S_d0_1 : S65536x29.ReducesTo [0, 1] S_

variable [Facts]

def fn_part2 {F : FTy → Type} [FloatOps F] (main_arg0 : IVec S65536x32 32) (main_v33 : IVec S_ 1) : IVec S_ 1 :=
  let main_v34 : IVec S65536x29 32 := (extractStridedSlice S65536x29 ![0, 0] · slices_S65536x32_S65536x29_0_0) main_arg0
  let main_c_12 : IVec S_ 32 := constantI S_ 32 14848#32
  let main_v35 : IVec S65536x29 32 := broadcastInDim S65536x29 ![] bcast_S_S65536x29 main_c_12
  let main_v36 : IVec S65536x29 1 := cmpi .slt main_v34 main_v35
  let main_c_13 : IVec S_ 1 := constantI S_ 1 1#1
  let main_v37 : IVec S_ 1 := (fun x v => Host.reduce IntOp.andi x v reducesTo_S65536x29_S_d0_1 h_S_) main_v36 main_c_13
  let main_v38 : IVec S_ 1 := andi main_v33 main_v37
  main_v38

def fn_part1 {F : FTy → Type} [FloatOps F] (main_arg0 : IVec S65536x32 32) (main_arg5 : FVec F S32 .f32) (main_arg6 : FVec F S1x64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1x64 .f32 := Host.absf main_arg6
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : IVec S65536x29 32 := (extractStridedSlice S65536x29 ![0, 0] · slices_S65536x32_S65536x29_0_0) main_arg0
  let main_c_10 : IVec S_ 32 := constantI S_ 32 0#32
  let main_v30 : IVec S65536x29 32 := broadcastInDim S65536x29 ![] bcast_S_S65536x29 main_c_10
  let main_v31 : IVec S65536x29 1 := cmpi .sge main_v29 main_v30
  let main_c_11 : IVec S_ 1 := constantI S_ 1 1#1
  let main_v32 : IVec S_ 1 := (fun x v => Host.reduce IntOp.andi x v reducesTo_S65536x29_S_d0_1 h_S_) main_v31 main_c_11
  let main_v33 : IVec S_ 1 := andi main_v28 main_v32
  fn_part2 (F := F) main_arg0 main_v33

def fn {F : FTy → Type} [FloatOps F] (main_arg0 : IVec S65536x32 32) (main_arg1 : FVec F S14848x128 .f32) (main_arg2 : FVec F S32x128 .f32) (main_arg3 : FVec F S32 .f32) (main_arg4 : FVec F S32x64 .f32) (main_arg5 : FVec F S32 .f32) (main_arg6 : FVec F S1x64 .f32) : IVec S_ 1 :=
  let main_v0 : FVec F S14848x128 .f32 := Host.absf main_arg1
  let main_cst : FVec F S_ .f32 := constant S_ .f32 0x7F800000#32
  let main_v1 : FVec F S14848x128 .f32 := broadcastInDim S14848x128 ![] bcast_S_S14848x128 main_cst
  let main_v2 : IVec S14848x128 1 := cmpf .olt main_v0 main_v1
  let main_c : IVec S_ 1 := constantI S_ 1 1#1
  let main_v3 : IVec S_ 1 := (fun x v => Host.reduce IntOp.andi x v reducesTo_S14848x128_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg0 main_arg5 main_arg6 main_v13 main_v16
-- ==== Kernel.lean ====
abbrev S65536x32 : Shape := ⟨2, ![65536, 32]⟩
abbrev S14848x128 : Shape := ⟨2, ![14848, 128]⟩
abbrev S32x128 : Shape := ⟨2, ![32, 128]⟩
abbrev S32 : Shape := ⟨1, ![32]⟩
abbrev S32x64 : Shape := ⟨2, ![32, 64]⟩
abbrev S1x64 : Shape := ⟨2, ![1, 64]⟩
abbrev S1x65536 : Shape := ⟨2, ![1, 65536]⟩
abbrev S256x32 : Shape := ⟨2, ![256, 32]⟩
abbrev S1x256 : Shape := ⟨2, ![1, 256]⟩
abbrev S256x29 : Shape := ⟨2, ![256, 29]⟩
abbrev S1x128 : Shape := ⟨2, ![1, 128]⟩
abbrev S256x128 : Shape := ⟨2, ![256, 128]⟩
abbrev S256x1 : Shape := ⟨2, ![256, 1]⟩
abbrev S256x512 : Shape := ⟨2, ![256, 512]⟩
abbrev S512x128 : Shape := ⟨2, ![512, 128]⟩
abbrev S128x32 : Shape := ⟨2, ![128, 32]⟩
abbrev S1x32 : Shape := ⟨2, ![1, 32]⟩
abbrev S256x64 : Shape := ⟨2, ![256, 64]⟩
abbrev S64x32 : Shape := ⟨2, ![64, 32]⟩
abbrev S65536x1 : Shape := ⟨2, ![65536, 1]⟩

abbrev nBuf : Space → Nat
  | .hbm => 13
  | .vmem => 11
  | .smem => 0
  | _ => 0

abbrev bufTy : (tb : Table) → Fin (tcTables nBuf tb) → BufTy
  | .hbm, ⟨0, _⟩ => ⟨S65536x32, .i32⟩
  | .hbm, ⟨1, _⟩ => ⟨S14848x128, .f32⟩
  | .hbm, ⟨2, _⟩ => ⟨S32x128, .f32⟩
  | .hbm, ⟨3, _⟩ => ⟨S32, .f32⟩
  | .hbm, ⟨4, _⟩ => ⟨S32x64, .f32⟩
  | .hbm, ⟨5, _⟩ => ⟨S32, .f32⟩
  | .hbm, ⟨6, _⟩ => ⟨S1x64, .f32⟩
  | .hbm, ⟨7, _⟩ => ⟨S14848x128, .bf16⟩
  | .hbm, ⟨8, _⟩ => ⟨S14848x128, .f32⟩
  | .hbm, ⟨9, _⟩ => ⟨S14848x128, .f32⟩
  | .hbm, ⟨10, _⟩ => ⟨S14848x128, .bf16⟩
  | .hbm, ⟨11, _⟩ => ⟨S1x65536, .f32⟩
  | .hbm, ⟨12, _⟩ => ⟨S65536x1, .f32⟩
  | .local _ .vmem, ⟨0, _⟩ => ⟨S256x32, .i32⟩
  | .local _ .vmem, ⟨1, _⟩ => ⟨S256x32, .i32⟩
  | .local _ .vmem, ⟨2, _⟩ => ⟨S14848x128, .bf16⟩
  | .local _ .vmem, ⟨3, _⟩ => ⟨S14848x128, .bf16⟩
  | .local _ .vmem, ⟨4, _⟩ => ⟨S32x128, .f32⟩
  | .local _ .vmem, ⟨5, _⟩ => ⟨S32, .f32⟩
  | .local _ .vmem, ⟨6, _⟩ => ⟨S32x64, .f32⟩
  | .local _ .vmem, ⟨7, _⟩ => ⟨S32, .f32⟩
  | .local _ .vmem, ⟨8, _⟩ => ⟨S1x64, .f32⟩
  | .local _ .vmem, ⟨9, _⟩ => ⟨S1x256, .f32⟩
  | .local _ .vmem, ⟨10, _⟩ => ⟨S1x256, .f32⟩
  | _, _ => ⟨S65536x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![256], ![false]⟩

@[reducible] def k0_t1_loop : Scf.Loop 32 :=
  let c0_i32 : BitVec 32 := 0#32
  let c29_i32 : BitVec 32 := 29#32
  let v4 : BitVec 32 := Scalar.addi c0_i32 c29_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v41 : BitVec 32 := Scalar.muli arg10 c512_i32
  v41
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32 : BitVec 32 := 512#32
  let v41 : BitVec 32 := Scalar.muli arg10 c512_i32
  let v42 : BitVec 32 := v41
  let v872 : Index := Scalar.indexCast v42
  let c0_141 : Index := 0#32
  ![v872.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S14848x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S14848x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  slices_S256x32_o0_0_S256x29 : S256x32.Slices ![0, 0] S256x29
  iota_S1x128_d1_w32 : S1x128.Iotas .tc 32 [1]
  slices_S256x29_o0_0_S256x1 : S256x29.Slices ![0, 0] S256x1
  broadcasts_S256x1_S256x128 : S256x1.Broadcasts S256x128
  broadcasts_S1x128_S256x128 : S1x128.Broadcasts S256x128
  slices_S256x29_o0_1_S256x1 : S256x29.Slices ![0, 1] S256x1
  slices_S256x29_o0_2_S256x1 : S256x29.Slices ![0, 2] S256x1
  slices_S256x29_o0_3_S256x1 : S256x29.Slices ![0, 3] S256x1
  slices_S256x29_o0_4_S256x1 : S256x29.Slices ![0, 4] S256x1
  slices_S256x29_o0_5_S256x1 : S256x29.Slices ![0, 5] S256x1
  slices_S256x29_o0_6_S256x1 : S256x29.Slices ![0, 6] S256x1
  slices_S256x29_o0_7_S256x1 : S256x29.Slices ![0, 7] S256x1
  slices_S256x29_o0_8_S256x1 : S256x29.Slices ![0, 8] S256x1
  slices_S256x29_o0_9_S256x1 : S256x29.Slices ![0, 9] S256x1
  slices_S256x29_o0_10_S256x1 : S256x29.Slices ![0, 10] S256x1
  slices_S256x29_o0_11_S256x1 : S256x29.Slices ![0, 11] S256x1
  slices_S256x29_o0_12_S256x1 : S256x29.Slices ![0, 12] S256x1
  slices_S256x29_o0_13_S256x1 : S256x29.Slices ![0, 13] S256x1
  slices_S256x29_o0_14_S256x1 : S256x29.Slices ![0, 14] S256x1
  slices_S256x29_o0_15_S256x1 : S256x29.Slices ![0, 15] S256x1
  slices_S256x29_o0_16_S256x1 : S256x29.Slices ![0, 16] S256x1
  slices_S256x29_o0_17_S256x1 : S256x29.Slices ![0, 17] S256x1
  slices_S256x29_o0_18_S256x1 : S256x29.Slices ![0, 18] S256x1
  slices_S256x29_o0_19_S256x1 : S256x29.Slices ![0, 19] S256x1
  slices_S256x29_o0_20_S256x1 : S256x29.Slices ![0, 20] S256x1
  slices_S256x29_o0_21_S256x1 : S256x29.Slices ![0, 21] S256x1
  slices_S256x29_o0_22_S256x1 : S256x29.Slices ![0, 22] S256x1
  slices_S256x29_o0_23_S256x1 : S256x29.Slices ![0, 23] S256x1
  slices_S256x29_o0_24_S256x1 : S256x29.Slices ![0, 24] S256x1
  slices_S256x29_o0_25_S256x1 : S256x29.Slices ![0, 25] S256x1
  slices_S256x29_o0_26_S256x1 : S256x29.Slices ![0, 26] S256x1
  slices_S256x29_o0_27_S256x1 : S256x29.Slices ![0, 27] S256x1
  slices_S256x29_o0_28_S256x1 : S256x29.Slices ![0, 28] S256x1
  concatenates_S256x128_S256x128_S256x128_S256x128_S256x512_d1 : Shape.Concatenates [S256x128, S256x128, S256x128, S256x128] S256x512 1
  h_S512x128 : 0 < S512x128.numel
  shapeCasts_S512x128_S512x128 : S512x128.ShapeCasts S512x128
  inb_S32x128_S32x128_0_0 : ∀ a, (![0, 0] : Fin 2 → Nat) a + S32x128.size a ≤ S32x128.size a
  h_S32x128 : 0 < S32x128.numel
  transposes_S32x128_p1_0_S128x32 : S32x128.Transposes [1, 0] S128x32
  inb_S32_S32_0 : ∀ a, (![0] : Fin 1 → Nat) a + S32.size a ≤ S32.size a
  h_S32 : 0 < S32.numel
  shapeCasts_S32_S1x32 : S32.ShapeCasts S1x32
  broadcasts_S1x32_S256x32 : S1x32.Broadcasts S256x32
  concatenates_S256x32_S256x32_S256x64_d1 : Shape.Concatenates [S256x32, S256x32] S256x64 1
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S1x64_S1x64_0_0 : ∀ a, (![0, 0] : Fin 2 → Nat) a + S1x64.size a ≤ S1x64.size a
  h_S1x64 : 0 < S1x64.numel
  inb_S1x256_S1x256_0_0 : ∀ a, (![0, 0] : Fin 2 → Nat) a + S1x256.size a ≤ S1x256.size a
  h_S1x256 : 0 < S1x256.numel
  shapeCasts_S1x65536_S65536x1 : S1x65536.ShapeCasts S65536x1
  dot_S256x512_S512x128_S256x128_1_0_0_1_n_n_wf : DotDims.WF S256x512 S512x128 S256x128 [1] [0] [0] [1] [] []
  dot_S256x128_S128x32_S256x32_1_0_0_1_n_n_wf : DotDims.WF S256x128 S128x32 S256x32 [1] [0] [0] [1] [] []
  dot_S256x64_S64x32_S256x32_1_0_0_1_n_n_wf : DotDims.WF S256x64 S64x32 S256x32 [1] [0] [0] [1] [] []
  dot_S1x64_S256x64_S1x256_1_1_0_0_n_n_wf : DotDims.WF S1x64 S256x64 S1x256 [1] [1] [0] [0] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x128.size a ≤ S14848x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S65536x32.size a
  hwx0_0 : ∀ i : grid0.Coords, EltTy.bits .i32 = 32 ∨ (Rect.block (s := S65536x32) S256x32.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S14848x128.size a ≤ S14848x128.size a
  hwx0_1 : ∀ i : grid0.Coords, EltTy.bits .bf16 = 32 ∨ (Rect.block (s := S14848x128) S14848x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S14848x128.size a ≤ S14848x128.size a
  hwx0_2 : ∀ i : grid0.Coords, EltTy.bits .bf16 = 32 ∨ (Rect.block (s := S14848x128) S14848x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x65536.size a
  hwx0_8 : ∀ i : grid0.Coords, EltTy.bits .f32 = 32 ∨ (Rect.block (s := S1x65536) S1x256.size (cc0_transform_8 i) (hinb0_8 i)).WholeWords (EltTy.packing .f32)

variable [Facts₀]

def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S256x128_S128x32_S256x32_1_0_0_1_n_n : DotDims S256x128 S128x32 S256x32 where
  lhsContracting := [1]
  rhsContracting := [0]
  lhsNonContracting := [0]
  rhsNonContracting := [1]
  lhsBatch := []
  rhsBatch := []
  wf := dot_S256x128_S128x32_S256x32_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S1x64_S256x64_S1x256_1_1_0_0_n_n : DotDims S1x64 S256x64 S1x256 where
  lhsContracting := [1]
  rhsContracting := [1]
  lhsNonContracting := [0]
  rhsNonContracting := [0]
  lhsBatch := []
  rhsBatch := []
  wf := dot_S1x64_S256x64_S1x256_1_1_0_0_n_n_wf

abbrev win0_0 : Pipeline.Window sig grid0 :=
  Pipeline.Window.ofSpec (Memref.whole main_arg0) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S14848x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S14848x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x32 : Shape := ⟨2, ![65536, 32]⟩
abbrev S14848x128 : Shape := ⟨2, ![14848, 128]⟩
abbrev S32x128 : Shape := ⟨2, ![32, 128]⟩
abbrev S32 : Shape := ⟨1, ![32]⟩
abbrev S32x64 : Shape := ⟨2, ![32, 64]⟩
abbrev S1x64 : Shape := ⟨2, ![1, 64]⟩
abbrev S65536x29 : Shape := ⟨2, ![65536, 29]⟩
abbrev S_ : Shape := ⟨0, ![]⟩
abbrev S65536x29x1 : Shape := ⟨3, ![65536, 29, 1]⟩
abbrev S65536x29x128 : Shape := ⟨3, ![65536, 29, 128]⟩
abbrev S65536x128 : Shape := ⟨2, ![65536, 128]⟩
abbrev S128x32 : Shape := ⟨2, ![128, 32]⟩
abbrev S1x32 : Shape := ⟨2, ![1, 32]⟩
abbrev S65536x64 : Shape := ⟨2, ![65536, 64]⟩
abbrev S64x32 : Shape := ⟨2, ![64, 32]⟩
abbrev S64x1 : Shape := ⟨2, ![64, 1]⟩
abbrev S65536x1 : Shape := ⟨2, ![65536, 1]⟩

abbrev nBuf : Space → Nat
  | .hbm => 44
  | .vmem => 0
  | .smem => 0
  | _ => 0

abbrev bufTy : (tb : Table) → Fin (tcTables nBuf tb) → BufTy
  | .hbm, ⟨0, _⟩ => ⟨S65536x32, .i32⟩
  | .hbm, ⟨1, _⟩ => ⟨S14848x128, .f32⟩
  | .hbm, ⟨2, _⟩ => ⟨S32x128, .f32⟩
  | .hbm, ⟨3, _⟩ => ⟨S32, .f32⟩
  | .hbm, ⟨4, _⟩ => ⟨S32x64, .f32⟩
  | .hbm, ⟨5, _⟩ => ⟨S32, .f32⟩
  | .hbm, ⟨6, _⟩ => ⟨S1x64, .f32⟩
  | .hbm, ⟨7, _⟩ => ⟨S65536x29, .i32⟩
  | .hbm, ⟨8, _⟩ => ⟨S_, .i32⟩
  | .hbm, ⟨9, _⟩ => ⟨S65536x29, .i32⟩
  | .hbm, ⟨10, _⟩ => ⟨S65536x29, .i1⟩
  | .hbm, ⟨11, _⟩ => ⟨S_, .i32⟩
  | .hbm, ⟨12, _⟩ => ⟨S65536x29, .i32⟩
  | .hbm, ⟨13, _⟩ => ⟨S65536x29, .i32⟩
  | .hbm, ⟨14, _⟩ => ⟨S65536x29, .i32⟩
  | .hbm, ⟨15, _⟩ => ⟨S65536x29x1, .i32⟩
  | .hbm, ⟨16, _⟩ => ⟨S65536x29x128, .f32⟩
  | .hbm, ⟨17, _⟩ => ⟨S_, .f32⟩
  | .hbm, ⟨18, _⟩ => ⟨S65536x128, .f32⟩
  | .hbm, ⟨19, _⟩ => ⟨S_, .f32⟩
  | .hbm, ⟨20, _⟩ => ⟨S65536x128, .f32⟩
  | .hbm, ⟨21, _⟩ => ⟨S65536x128, .f32⟩
  | .hbm, ⟨22, _⟩ => ⟨S128x32, .f32⟩
  | .hbm, ⟨23, _⟩ => ⟨S65536x32, .f32⟩
  | .hbm, ⟨24, _⟩ => ⟨S1x32, .f32⟩
  | .hbm, ⟨25, _⟩ => ⟨S65536x32, .f32⟩
  | .hbm, ⟨26, _⟩ => ⟨S65536x32, .f32⟩
  | .hbm, ⟨27, _⟩ => ⟨S65536x32, .f32⟩
  | .hbm, ⟨28, _⟩ => ⟨S65536x64, .f32⟩
  | .hbm, ⟨29, _⟩ => ⟨S_, .f32⟩
  | .hbm, ⟨30, _⟩ => ⟨S65536x64, .f32⟩
  | .hbm, ⟨31, _⟩ => ⟨S65536x64, .f32⟩
  | .hbm, ⟨32, _⟩ => ⟨S64x32, .f32⟩
  | .hbm, ⟨33, _⟩ => ⟨S65536x32, .f32⟩
  | .hbm, ⟨34, _⟩ => ⟨S1x32, .f32⟩
  | .hbm, ⟨35, _⟩ => ⟨S65536x32, .f32⟩
  | .hbm, ⟨36, _⟩ => ⟨S65536x32, .f32⟩
  | .hbm, ⟨37, _⟩ => ⟨S65536x32, .f32⟩
  | .hbm, ⟨38, _⟩ => ⟨S65536x64, .f32⟩
  | .hbm, ⟨39, _⟩ => ⟨S_, .f32⟩
  | .hbm, ⟨40, _⟩ => ⟨S65536x64, .f32⟩
  | .hbm, ⟨41, _⟩ => ⟨S65536x64, .f32⟩
  | .hbm, ⟨42, _⟩ => ⟨S64x1, .f32⟩
  | .hbm, ⟨43, _⟩ => ⟨S65536x1, .f32⟩
  | _, _ => ⟨S65536x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_call0_cst : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_cst : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call2_cst : Ref sig .tc := ⟨.hbm, 39, rfl⟩
abbrev main_call2_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  slices_S65536x32_S65536x29_0_0 : S65536x32.Slices ![0, 0] S65536x29
  bcast_S_S65536x29 : S_.BroadcastsInDim S65536x29 (![] : Fin 0 → Fin S65536x29.rank)
  bcast_S65536x29_S65536x29x1_0_1 : S65536x29.BroadcastsInDim S65536x29x1 (![0, 1] : Fin 2 → Fin S65536x29x1.rank)
  reducesTo_S65536x29x128_S65536x128_d1 : S65536x29x128.ReducesTo [1] S65536x128
  h_S_ : 0 < S_.numel
  bcast_S_S65536x128 : S_.BroadcastsInDim S65536x128 (![] : Fin 0 → Fin S65536x128.rank)
  transposes_S32x128_S128x32_1_0 : S32x128.Transposes [1, 0] S128x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  concatenates_S65536x32_S65536x32_S65536x64_d1 : Shape.Concatenates [S65536x32, S65536x32] S65536x64 1
  bcast_S_S65536x64 : S_.BroadcastsInDim S65536x64 (![] : Fin 0 → Fin S65536x64.rank)
  transposes_S32x64_S64x32_1_0 : S32x64.Transposes [1, 0] S64x32
  transposes_S1x64_S64x1_1_0 : S1x64.Transposes [1, 0] S64x1
  gather_S14848x128_S65536x29x1_S65536x29x128_2_0_n_n_0_2_1128_wf : GatherDims.WF S14848x128 S65536x29x1 S65536x29x128 [2] [0] [] [0] [] 2 ![1, 128]
  dot_S65536x128_S128x32_S65536x32_1_0_0_1_n_n_wf : DotDims.WF S65536x128 S128x32 S65536x32 [1] [0] [0] [1] [] []
  dot_S65536x64_S64x32_S65536x32_1_0_0_1_n_n_wf : DotDims.WF S65536x64 S64x32 S65536x32 [1] [0] [0] [1] [] []
  dot_S65536x64_S64x1_S65536x1_1_0_0_1_n_n_wf : DotDims.WF S65536x64 S64x1 S65536x1 [1] [0] [0] [1] [] []

variable [Facts₀]

def gather_S14848x128_S65536x29x1_S65536x29x128_2_0_n_n_0_2_1128 : GatherDims S14848x128 S65536x29x1 S65536x29x128 where
  offsetDims := [2]
  collapsedSliceDims := [0]
  operandBatchingDims := []
  startIndicesBatchingDims := []
  startIndexMap := [0]
  indexVectorDim := 2
  sliceSizes := ![1, 128]
  wf := gather_S14848x128_S65536x29x1_S65536x29x128_2_0_n_n_0_2_1128_wf
def dot_S65536x128_S128x32_S65536x32_1_0_0_1_n_n : DotDims S65536x128 S128x32 S65536x32 where
  lhsContracting := [1]
  rhsContracting := [0]
  lhsNonContracting := [0]
  rhsNonContracting := [1]
  lhsBatch := []
  rhsBatch := []
  wf := dot_S65536x128_S128x32_S65536x32_1_0_0_1_n_n_wf
def dot_S65536x64_S64x32_S65536x32_1_0_0_1_n_n : DotDims S65536x64 S64x32 S65536x32 where
  lhsContracting := [1]
  rhsContracting := [0]
  lhsNonContracting := [0]
  rhsNonContracting := [1]
  lhsBatch := []
  rhsBatch := []
  wf := dot_S65536x64_S64x32_S65536x32_1_0_0_1_n_n_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf

class Facts : Prop extends Facts₀ where

variable [Facts]
-- ==== Proof.KDefs.lean ====
/-
  The kernel body's pure data flow, named: for trip k of the chunk loop, the four 128-wide strips of the count
  matrix (how often each of the chunk's 512 row numbers occurs among a batch row's 29 indices), their
  concatenation, the 512 table rows the trip reads, and the accumulator after n trips. All over the generated
  payloads, for any float instance.
-/
import proofs.«420469_j76742475645269_2_alg».proof.Proof.Gen.KernelIdeal.Skeleton
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

/-- The lane numbers 0…127 of a strip. -/
abbrev lanes : IVec S1x128 32 := iota .tc S1x128 32 [1] iota_S1x128_d1_w32

/-- The first table row of trip k's chunk, as the kernel computes it: k · 512. -/
abbrev chunkBase (k : Fin k0_t1_loop.trips) : BitVec 32 := Scalar.muli (Scf.iv 0#32 1#32 k) 512#32

section Strips
variable (v0 : Vec F S256x32 .i32) (v2 : IVec S1x128 32) (k : Fin k0_t1_loop.trips)

/-- Counts against row numbers base + 0 … base + 127. -/
def strip0 : FVec F S256x128 .bf16 :=
  k0_pay13
    (k0_pay10 (k0_pay37 v0) (k0_pay2 v2 0#32 1#32 k)
      (k0_pay8 (k0_pay37 v0) (k0_pay2 v2 0#32 1#32 k)
        (k0_pay5 (k0_pay37 v0) (k0_pay2 v2 0#32 1#32 k) (k0_pay3 (k0_pay37 v0) v2 0#32 1#32 k) (k0_pay4 (k0_pay37 v0)))
        (k0_pay6 (k0_pay37 v0) (k0_pay2 v2 0#32 1#32 k)) k0_pay7)
      (k0_pay9 (k0_pay37 v0)))
    (k0_pay11 (k0_pay37 v0) (k0_pay2 v2 0#32 1#32 k)) k0_pay12

/-- Counts against row numbers base + 128 … base + 255. -/
def strip1 : FVec F S256x128 .bf16 :=
  k0_pay20 (k0_pay37 v0) (k0_pay14 v2 (chunkBase k))
    (k0_pay18 (k0_pay37 v0) (k0_pay14 v2 (chunkBase k))
      (k0_pay17 (k0_pay37 v0) (k0_pay14 v2 (chunkBase k)) (k0_pay15 (k0_pay37 v0) v2 (chunkBase k)) (k0_pay16 (k0_pay37 v0) v2 (chunkBase k))))
    (k0_pay19 (k0_pay37 v0) (k0_pay14 v2 (chunkBase k)))

/-- Counts against row numbers base + 256 … base + 383. -/
def strip2 : FVec F S256x128 .bf16 :=
  k0_pay30 (k0_pay37 v0) (k0_pay21 v2 (chunkBase k))
    (k0_pay27 (k0_pay37 v0) (k0_pay21 v2 (chunkBase k))
      (k0_pay25 (k0_pay37 v0) (k0_pay21 v2 (chunkBase k)) (k0_pay22 (k0_pay37 v0) v2 (chunkBase k)) (k0_pay23 (k0_pay37 v0) v2 (chunkBase k)) k0_pay24)
      (k0_pay26 (k0_pay37 v0)))
    (k0_pay28 (k0_pay37 v0) (k0_pay21 v2 (chunkBase k))) k0_pay29

/-- The row numbers base + 384 … base + 511 of the last strip. -/
def ids3 : IVec S1x128 32 := k0_pay31 v2 (Scalar.addi (chunkBase k) 384#32)

/-- The last strip's counts over the indices handled before the concatenation's payload. -/
def strip3part : FVec F S256x128 .bf16 :=
  k0_pay35 (k0_pay37 v0) (ids3 v2 k)
    (k0_pay33 (k0_pay37 v0) (ids3 v2 k) (k0_pay32 (k0_pay37 v0) v2 (Scalar.addi (chunkBase k) 384#32)))
    (k0_pay34 (k0_pay37 v0) (ids3 v2 k))

/-- The chunk's whole [256 × 512] count matrix. -/
def countFull : FVec F S256x512 .bf16 :=
  k0_pay36 (k0_pay37 v0) (strip0 v0 v2 k) (strip1 v0 v2 k) (strip2 v0 v2 k) (ids3 v2 k) (strip3part v0 v2 k)

end Strips

/-- The 29 index words of batch row r of a block. -/
def rowWords (x0 : Vec F S256x32 .i32) (r : Fin 256) : Fin 29 → BitVec 32 :=
  fun j => x0 (ix2 r ⟨j.val, by have := j.isLt; omega⟩)

/-- Column d of a [14848 × 128] table over the extended reals, indexed by plain naturals (zero past the end). -/
def tabCol (X : Vec Ideal S14848x128 .bf16) (d : Fin 128) : ℕ → EReal :=
  fun v => if h : v < 14848 then X (ix2 ⟨v, h⟩ d) else 0

/-- Rows 512·k … 512·k + 511 of a [14848 × 128] table. -/
def rows512 (X : Vec F S14848x128 .bf16) (k : Fin k0_t1_loop.trips) : Vec F S512x128 .bf16 :=
  fun y => X (ix2 ⟨512 * k.val + (y 0).val, by
      have h1 : k.val < 29 := Nat.lt_of_lt_of_le k.isLt k0_t1_abs.2.1
      have h2 : (y 0).val < 512 := idx2_lt0 y
      omega⟩
    ⟨(y 1).val, idx2_lt1 y⟩)

/-- The accumulator after n trips: from the zero block, each trip adds the chunk's counts times the chunk's rows of
    both tables. -/
def accAfter (x0 : Vec F S256x32 .i32) (x1 x2 : Vec F S14848x128 .bf16) : ℕ → FVec F S256x128 .f32
  | 0 => k0_pay38
  | n + 1 =>
    if h : n < k0_t1_loop.trips then
      k0_pay39 (accAfter x0 x1 x2 n) (countFull x0 lanes ⟨n, h⟩) (rows512 x1 ⟨n, h⟩) (rows512 x2 ⟨n, h⟩)
    else accAfter x0 x1 x2 n

end Cert.KernelIdeal.Hand

end
-- ==== Proof.Blocks.lean ====
/-
  The blocks the kernel body reads at grid point t, identified with the program's argument arrays: the index
  block is rows 256·t … 256·t + 255 of the index array; every other operand is staged whole; the two tables the
  body multiplies the counts with are made by the host before the launch — the table itself (a change of format
  is the identity on the extended reals) and the table minus itself.
-/
import proofs.«420469_j76742475645269_2_alg».proof.Proof.Gen.KernelIdeal.Frame
import proofs.«420469_j76742475645269_2_alg».proof.Proof.KDefs
import Idealize.ShloMosaic.Lib.StableHlo.Run
import Idealize.ShloMosaic.Lib.Pipeline.Value

set_option maxRecDepth 16384

noncomputable section

namespace Cert.KernelIdeal.Hand

open Idealize.ShloMosaic Idealize.ShloMosaic.ValueIdx Idealize.ShloMosaic.TcCoe Idealize.ShloMosaic.StableHlo Idealize.SL.Sem
open Cert.KernelIdeal Cert.KernelIdeal.Gen

variable (m : (ℓ : Loc nD τ sig) → Buf (Elt Ideal) ℓ)

/-- The printed index maps over the grid: the index window and the output window move with the point, every other
    window stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = 0 ∧ win0_8.index t (1 : Fin 2) = t.val :=
  (by decide +kernel : ∀ t : Fin grid0.N, _)

/-- The blocks at point t, at their literal types. -/
abbrev xblk (c : Dev nD) (t : Fin cfg0.N) : Vec Ideal S256x32 .i32 := iblk m c 0 t
abbrev hiblk (c : Dev nD) (t : Fin cfg0.N) : Vec Ideal S14848x128 .bf16 := iblk m c 1 t
abbrev loblk (c : Dev nD) (t : Fin cfg0.N) : Vec Ideal S14848x128 .bf16 := iblk m c 2 t
abbrev w2blk (c : Dev nD) (t : Fin cfg0.N) : Vec Ideal S32x128 .f32 := iblk m c 3 t
abbrev b2blk (c : Dev nD) (t : Fin cfg0.N) : Vec Ideal S32 .f32 := iblk m c 4 t
abbrev w3blk (c : Dev nD) (t : Fin cfg0.N) : Vec Ideal S32x64 .f32 := iblk m c 5 t
abbrev b3blk (c : Dev nD) (t : Fin cfg0.N) : Vec Ideal S32 .f32 := iblk m c 6 t
abbrev w4blk (c : Dev nD) (t : Fin cfg0.N) : Vec Ideal S1x64 .f32 := iblk m c 7 t

/-- The argument arrays at their literal types. -/
abbrev xarr (c : Dev nD) : Vec Ideal S65536x32 .i32 := m ((c : Thread nD τ).loc main_arg0)
abbrev embarr (c : Dev nD) : Vec Ideal S14848x128 .f32 := m ((c : Thread nD τ).loc main_arg1)
abbrev w2arr (c : Dev nD) : Vec Ideal S32x128 .f32 := m ((c : Thread nD τ).loc main_arg2)
abbrev b2arr (c : Dev nD) : Vec Ideal S32 .f32 := m ((c : Thread nD τ).loc main_arg3)
abbrev w3arr (c : Dev nD) : Vec Ideal S32x64 .f32 := m ((c : Thread nD τ).loc main_arg4)
abbrev b3arr (c : Dev nD) : Vec Ideal S32 .f32 := m ((c : Thread nD τ).loc main_arg5)
abbrev w4arr (c : Dev nD) : Vec Ideal S1x64 .f32 := m ((c : Thread nD τ).loc main_arg6)

/-- Row r of the index block at point t is row 256·t + r of the index array. -/
theorem xblk_apply (c : Dev nD) (t : Fin cfg0.N) (r : Fin 256) (j : Fin 32) :
    xblk m c t (ix2 r j) = xarr m c (ix2 ⟨256 * t.val + r.val, by have := t.isLt; have h : cfg0.N = 256 := N_0; omega⟩ j) := by
  obtain ⟨e0, e1, -⟩ := idx_facts t
  show V m c main_arg0 (((cfg0.win 0).blk t).view.emb (ix2 r j)) = _
  rw [V_main_arg0]
  refine congrArg (m ((c : Thread nD τ).loc main_arg0)) (funext fun a => Fin.ext ?_)
  match a with
  | ⟨0, _⟩ => show win0_0.index t (0 : Fin 2) * 256 + 1 * r.val = 256 * t.val + r.val; omega
  | ⟨1, _⟩ => show win0_0.index t (1 : Fin 2) * 32 + 1 * j.val = j.val; omega

/-- A window whose one block is its whole array reads its array. -/
theorem hiblk_eq (c : Dev nD) (t : Fin cfg0.N) : hiblk m c t = (V m c main_v0 : Vec Ideal S14848x128 .bf16) := by
  have hf := idx_facts t
  funext y
  show V m c main_v0 (((cfg0.win 1).blk t).view.emb y) = V m c main_v0 y
  refine congrArg (V m c main_v0) (funext fun a => Fin.ext ?_)
  match a with
  | ⟨0, _⟩ => show win0_1.index t (0 : Fin 2) * 14848 + 1 * (y 0).val = (y 0).val; omega
  | ⟨1, _⟩ => show win0_1.index t (1 : Fin 2) * 128 + 1 * (y 1).val = (y 1).val; omega

theorem loblk_eq (c : Dev nD) (t : Fin cfg0.N) : loblk m c t = (V m c main_v3 : Vec Ideal S14848x128 .bf16) := by
  have hf := idx_facts t
  funext y
  show V m c main_v3 (((cfg0.win 2).blk t).view.emb y) = V m c main_v3 y
  refine congrArg (V m c main_v3) (funext fun a => Fin.ext ?_)
  match a with
  | ⟨0, _⟩ => show win0_2.index t (0 : Fin 2) * 14848 + 1 * (y 0).val = (y 0).val; omega
  | ⟨1, _⟩ => show win0_2.index t (1 : Fin 2) * 128 + 1 * (y 1).val = (y 1).val; omega

theorem w2blk_eq (c : Dev nD) (t : Fin cfg0.N) : w2blk m c t = (V m c main_arg2 : Vec Ideal S32x128 .f32) := by
  have hf := idx_facts t
  funext y
  show V m c main_arg2 (((cfg0.win 3).blk t).view.emb y) = V m c main_arg2 y
  refine congrArg (V m c main_arg2) (funext fun a => Fin.ext ?_)
  match a with
  | ⟨0, _⟩ => show win0_3.index t (0 : Fin 2) * 32 + 1 * (y 0).val = (y 0).val; omega
  | ⟨1, _⟩ => show win0_3.index t (1 : Fin 2) * 128 + 1 * (y 1).val = (y 1).val; omega

theorem b2blk_eq (c : Dev nD) (t : Fin cfg0.N) : b2blk m c t = (V m c main_arg3 : Vec Ideal S32 .f32) := by
  have hf := idx_facts t
  funext y
  show V m c main_arg3 (((cfg0.win 4).blk t).view.emb y) = V m c main_arg3 y
  refine congrArg (V m c main_arg3) (funext fun a => Fin.ext ?_)
  match a with
  | ⟨0, _⟩ => show win0_4.index t (0 : Fin 1) * 32 + 1 * (y 0).val = (y 0).val; omega

theorem w3blk_eq (c : Dev nD) (t : Fin cfg0.N) : w3blk m c t = (V m c main_arg4 : Vec Ideal S32x64 .f32) := by
  have hf := idx_facts t
  funext y
  show V m c main_arg4 (((cfg0.win 5).blk t).view.emb y) = V m c main_arg4 y
  refine congrArg (V m c main_arg4) (funext fun a => Fin.ext ?_)
  match a with
  | ⟨0, _⟩ => show win0_5.index t (0 : Fin 2) * 32 + 1 * (y 0).val = (y 0).val; omega
  | ⟨1, _⟩ => show win0_5.index t (1 : Fin 2) * 64 + 1 * (y 1).val = (y 1).val; omega

theorem b3blk_eq (c : Dev nD) (t : Fin cfg0.N) : b3blk m c t = (V m c main_arg5 : Vec Ideal S32 .f32) := by
  have hf := idx_facts t
  funext y
  show V m c main_arg5 (((cfg0.win 6).blk t).view.emb y) = V m c main_arg5 y
  refine congrArg (V m c main_arg5) (funext fun a => Fin.ext ?_)
  match a with
  | ⟨0, _⟩ => show win0_6.index t (0 : Fin 1) * 32 + 1 * (y 0).val = (y 0).val; omega

theorem w4blk_eq (c : Dev nD) (t : Fin cfg0.N) : w4blk m c t = (V m c main_arg6 : Vec Ideal S1x64 .f32) := by
  have hf := idx_facts t
  funext y
  show V m c main_arg6 (((cfg0.win 7).blk t).view.emb y) = V m c main_arg6 y
  refine congrArg (V m c main_arg6) (funext fun a => Fin.ext ?_)
  match a with
  | ⟨0, _⟩ => show win0_7.index t (0 : Fin 2) * 1 + 1 * (y 0).val = (y 0).val; omega
  | ⟨1, _⟩ => show win0_7.index t (1 : Fin 2) * 64 + 1 * (y 1).val = (y 1).val; omega

/-- The leading table the host hands to the kernel is the argument table in the narrower format: on the extended
    reals, the table itself. -/
theorem V_hi_apply (c : Dev nD) (i : S14848x128.Idx) : V m c main_v0 i = embarr m c i := by
  have e : (V m c main_v0 : S14848x128.Idx → EReal)
      = (truncf .bf16 (embarr m c) bitsLt_bf16_f32 : FVec Ideal S14848x128 .bf16) := by
    show StableHlo.after hostOps0 (fun b => m (c, b)) (Proc.devRef .tc main_v0) = _
    after_results
  exact congrFun e i

/-- The remainder table is the argument table minus its narrowed-and-widened self, narrowed: on the extended reals,
    the table minus itself. -/
theorem V_lo_apply (c : Dev nD) (i : S14848x128.Idx) : V m c main_v3 i = embarr m c i - embarr m c i := by
  have e : (V m c main_v3 : S14848x128.Idx → EReal)
      = (truncf .bf16 (subf (embarr m c) (extf .f32 (truncf .bf16 (embarr m c) bitsLt_bf16_f32 : FVec Ideal S14848x128 .bf16) bitsLt_bf16_f32 : FVec Ideal S14848x128 .f32)) bitsLt_bf16_f32 : FVec Ideal S14848x128 .bf16) := by
    show StableHlo.after hostOps0 (fun b => m (c, b)) (Proc.devRef .tc main_v3) = _
    after_results
  exact congrFun e i

theorem hiblk_apply (c : Dev nD) (t : Fin cfg0.N) (i : S14848x128.Idx) : hiblk m c t i = embarr m c i := by
  rw [hiblk_eq]; exact V_hi_apply m c i

theorem loblk_apply (c : Dev nD) (t : Fin cfg0.N) (i : S14848x128.Idx) : loblk m c t i = embarr m c i - embarr m c i := by
  rw [loblk_eq]; exact V_lo_apply m c i

end Cert.KernelIdeal.Hand

end
-- ==== Proof.Trip.lean ====
/-
  One trip of the chunk loop as a pure function of the carried block, and the block the body stores: the last
  layer applied to the two hidden layers applied to the accumulator after all trips.
-/
import proofs.«420469_j76742475645269_2_alg».proof.Proof.Gen.KernelIdeal.Frame
import proofs.«420469_j76742475645269_2_alg».proof.Proof.KDefs
import Idealize.ShloMosaic.Lib.Pipeline.Value

noncomputable section

namespace Cert.KernelIdeal.Hand

open Idealize.ShloMosaic Idealize.ShloMosaic.ValueIdx Cert.KernelIdeal Cert.KernelIdeal.Gen
open scoped BigOperators
open Idealize.ShloMosaic.Tactic

variable {F : FTy → Type} [FloatOps F]

/-- The loop runs 29 trips. -/
theorem trips_eq : k0_t1_loop.trips = 29 := by
  decide

/-- Trip k reads both tables through the rectangle of 512 rows and all 128 columns that starts at row 512·k: what such a
    read sees of a table X is rows 512·k … 512·k + 511 of X. -/
theorem ld_tripRect (X : Vec F S14848x128 .bf16) (k : Fin k0_t1_loop.trips) :
    View.ld X (Rect.unit (s := S14848x128) (k0_off1 k) S512x128.size (k0_off1_inb k)) = rows512 X k := by
  funext y
  show X _ = X _
  congr 1
  apply Shape.idx_ext₂
  · rw [LoadRect.idx_apply]; simp [Rect.unit, k0_off1_eq k]
  · rw [LoadRect.idx_apply]; simp [Rect.unit, k0_off1_eq k]

/-- The same read, through a whole buffer whose contents are X. -/
theorem readAt_tripRect (arg : Memref sig .tc .vmem S14848x128 .bf16) (harg : arg.IsWhole) (X : Vec F S14848x128 .bf16)
    (k : Fin k0_t1_loop.trips) :
    View.readAt (Elt F) arg.view (Rect.unit (s := S14848x128) (k0_off1 k) S512x128.size (k0_off1_inb k)).toLoadRect (harg.unread X)
      = rows512 X k := by
  rw [View.readAt_eq_ld, harg.read_unread]
  exact ld_tripRect X k

/-- One trip as a function of the carried block: from acc, trip k yields acc plus the chunk's count matrix times the chunk's
    rows of the first table plus the same count matrix times the chunk's rows of the second table. -/
theorem tripR_eq (𝒱 : Variants) (bd : Option 𝒱.V) (c : Dev nD) (i : grid0.Coords) (arg1 : Memref sig .tc .vmem S256x32 .i32) (harg1 : arg1.IsWhole) (arg2 : Memref sig .tc .vmem S14848x128 .bf16) (harg2 : arg2.IsWhole) (arg3 : Memref sig .tc .vmem S14848x128 .bf16) (harg3 : arg3.IsWhole) (arg4 : Memref sig .tc .vmem S32x128 .f32) (harg4 : arg4.IsWhole) (arg5 : Memref sig .tc .vmem S32 .f32) (harg5 : arg5.IsWhole) (arg6 : Memref sig .tc .vmem S32x64 .f32) (harg6 : arg6.IsWhole) (arg7 : Memref sig .tc .vmem S32 .f32) (harg7 : arg7.IsWhole) (arg8 : Memref sig .tc .vmem S1x64 .f32) (harg8 : arg8.IsWhole) (arg9 : Memref sig .tc .vmem S1x256 .f32) (harg9 : arg9.IsWhole)
    (v0 : Vec F S256x32 .i32) (v2 : IVec S1x128 32) (x1 x2 : Vec F S14848x128 .bf16) (k : Fin k0_t1_loop.trips) (acc : FVec F S256x128 .f32) :
    tripR_k0_t1 (F := F) 𝒱 c bd i arg1 harg1 arg2 harg2 arg3 harg3 arg4 harg4 arg5 harg5 arg6 harg6 arg7 harg7 arg8 harg8 arg9 harg9 v0 v2 (harg2.unread x1) (harg3.unread x2) k acc
      = k0_pay39 acc (countFull v0 v2 k) (rows512 x1 k) (rows512 x2 k) := by
  rw [← readAt_tripRect arg2 harg2 x1 k, ← readAt_tripRect arg3 harg3 x2 k]
  unfold tripR_k0_t1
  unfold trip_k0_t1
  dsimp only
  sl_unfold_words
  rfl

/-- The carried block before trip n is the accumulator after n trips — for every n: past the last trip both stay as they are. -/
theorem st_eq (𝒱 : Variants) (bd : Option 𝒱.V) (c : Dev nD) (i : grid0.Coords) (arg1 : Memref sig .tc .vmem S256x32 .i32) (harg1 : arg1.IsWhole) (arg2 : Memref sig .tc .vmem S14848x128 .bf16) (harg2 : arg2.IsWhole) (arg3 : Memref sig .tc .vmem S14848x128 .bf16) (harg3 : arg3.IsWhole) (arg4 : Memref sig .tc .vmem S32x128 .f32) (harg4 : arg4.IsWhole) (arg5 : Memref sig .tc .vmem S32 .f32) (harg5 : arg5.IsWhole) (arg6 : Memref sig .tc .vmem S32x64 .f32) (harg6 : arg6.IsWhole) (arg7 : Memref sig .tc .vmem S32 .f32) (harg7 : arg7.IsWhole) (arg8 : Memref sig .tc .vmem S1x64 .f32) (harg8 : arg8.IsWhole) (arg9 : Memref sig .tc .vmem S1x256 .f32) (harg9 : arg9.IsWhole)
    (x0 : Vec F S256x32 .i32) (x1 x2 : Vec F S14848x128 .bf16) :
    ∀ n : ℕ, st_k0_t1 (F := F) 𝒱 c bd i arg1 harg1 arg2 harg2 arg3 harg3 arg4 harg4 arg5 harg5 arg6 harg6 arg7 harg7 arg8 harg8 arg9 harg9 x0 lanes (harg2.unread x1) (harg3.unread x2) k0_pay38 n
      = accAfter x0 x1 x2 n
  | 0 => rfl
  | n + 1 => by
    rw [st_k0_t1.eq_2, accAfter]
    unfold st_k0_t1Step
    by_cases h : n < k0_t1_loop.trips
    · rw [dif_pos h, dif_pos h, tripR_eq, st_eq 𝒱 bd c i arg1 harg1 arg2 harg2 arg3 harg3 arg4 harg4 arg5 harg5 arg6 harg6 arg7 harg7 arg8 harg8 arg9 harg9 x0 x1 x2 n]
    · rw [dif_neg h, dif_neg h, st_eq 𝒱 bd c i arg1 harg1 arg2 harg2 arg3 harg3 arg4 harg4 arg5 harg5 arg6 harg6 arg7 harg7 arg8 harg8 arg9 harg9 x0 x1 x2 n]

/-- What the body leaves in the output block, as a pure function of the input blocks. -/
theorem out_eq (c : Dev nD) (i : grid0.Coords) (arg1 : Memref sig .tc .vmem S256x32 .i32) (harg1 : arg1.IsWhole) (arg2 : Memref sig .tc .vmem S14848x128 .bf16) (harg2 : arg2.IsWhole) (arg3 : Memref sig .tc .vmem S14848x128 .bf16) (harg3 : arg3.IsWhole) (arg4 : Memref sig .tc .vmem S32x128 .f32) (harg4 : arg4.IsWhole) (arg5 : Memref sig .tc .vmem S32 .f32) (harg5 : arg5.IsWhole) (arg6 : Memref sig .tc .vmem S32x64 .f32) (harg6 : arg6.IsWhole) (arg7 : Memref sig .tc .vmem S32 .f32) (harg7 : arg7.IsWhole) (arg8 : Memref sig .tc .vmem S1x64 .f32) (harg8 : arg8.IsWhole) (arg9 : Memref sig .tc .vmem S1x256 .f32) (harg9 : arg9.IsWhole)
    (x0 : Vec F S256x32 .i32) (x1 : Vec F S14848x128 .bf16) (x2 : Vec F S14848x128 .bf16) (x3 : Vec F S32x128 .f32) (x4 : Vec F S32 .f32) (x5 : Vec F S32x64 .f32) (x6 : Vec F S32 .f32) (x7 : Vec F S1x64 .f32) :
    out0_A_8 (F := F) c i arg1 harg1 arg2 harg2 arg3 harg3 arg4 harg4 arg5 harg5 arg6 harg6 arg7 harg7 arg8 harg8 arg9 harg9 x0 x1 x2 x3 x4 x5 x6 x7
      = k0_pay1 (k0_pay40 (accAfter x0 x1 x2 k0_t1_loop.trips) x3 x4 x5 x6) x7 := by
  have hz2 : (![0, 0] : Fin 2 → Nat) = fun _ => 0 := by funext a; fin_cases a <;> rfl
  have hz1 : (![0] : Fin 1 → Nat) = fun _ => 0 := by funext a; fin_cases a; rfl
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  unfold kernelRun0_A
  dsimp only
  sl_unfold_words
  rw [View.canon_unit_zero (S := S1x256) hz2]
  simp only [View.readAt_eq_ld, harg1.read_unread, harg4.read_unread, harg5.read_unread, harg6.read_unread,
    harg7.read_unread, harg8.read_unread, View.ld_unit_zero (S := S256x32) hz2, View.ld_unit_zero (S := S32x128) hz2,
    View.ld_unit_zero (S := S32) hz1, View.ld_unit_zero (S := S32x64) hz2, View.ld_unit_zero (S := S1x64) hz2]
  rw [st_eq]

end Cert.KernelIdeal.Hand

end
-- ==== Proof.Spec.lean ====
/-
  The mathematics both programs compute, stated once over plain index types, with no program in sight.

  For one batch row: 29 table indices pick 29 rows of a [14848 × 128] table; the rows are summed entry by entry
  (`embSum`), clipped below at zero (`relu`), sent through two affine layers, each followed by the map
  g ↦ relu (g, −g) that doubles the width (`pm32`), and finally paired with one weight row (`tail`).
  `cnt` counts how often a word occurs among a row's 29 index words: the kernel reaches the same row sum as
  the sum over all table rows of (count of the row's number) × (table row).
-/
import Idealize.ShloMosaic.PureOps.Ideal
import Idealize.ShloMosaic.Lib.ValueIdx

noncomputable section

namespace Cert.Spec

open scoped BigOperators
open Idealize.ShloMosaic

/-- How many of the 29 index words of a row equal the word `w`, as an extended real. -/
def cnt (ξ : Fin 29 → BitVec 32) (w : BitVec 32) : EReal :=
  (((Finset.univ.filter fun j : Fin 29 => ξ j = w).card : ℝ) : EReal)

/-- The running count: how many of the first n index words of a row equal `w` (n past 29 adds nothing). This is
    the value the kernel's chain of compare-and-select steps holds after n steps. -/
def cntTo (ξ : Fin 29 → BitVec 32) (w : BitVec 32) : ℕ → EReal
  | 0 => 0
  | n + 1 => if h : n < 29 then (if ξ ⟨n, h⟩ = w then cntTo ξ w n + 1 else cntTo ξ w n) else cntTo ξ w n

/-- Clipping below at zero. -/
def relu (a : EReal) : EReal := max a 0

/-- One affine layer: output `o` is the inner product of the input with weight row `o`, plus the bias. -/
def lin {K N : ℕ} (h : Fin K → EReal) (w : Fin N → Fin K → EReal) (b : Fin N → EReal) (o : Fin N) : EReal :=
  (∑ d : Fin K, h d * w o d) + b o

/-- The width-doubling map: entries 0…31 are relu g, entries 32…63 are relu (−g). -/
def pm32 (g : Fin 32 → EReal) (q : Fin 64) : EReal :=
  if h : q.val < 32 then relu (g ⟨q.val, h⟩) else relu (-(g ⟨q.val - 32, by omega⟩))

/-- The whole network after the table lookup, for one row `h` of summed table rows. -/
def tail (h : Fin 128 → EReal) (w2 : Fin 32 → Fin 128 → EReal) (b2 : Fin 32 → EReal)
    (w3 : Fin 32 → Fin 64 → EReal) (b3 : Fin 32 → EReal) (w4 : Fin 64 → EReal) : EReal :=
  ∑ d : Fin 64, pm32 (lin (pm32 (lin (fun d => relu (h d)) w2 b2)) w3 b3) d * w4 d

/-- The table row a reference index word selects: a negative word is shifted up by the table's height, and the
    result, read as a signed integer, is clamped into the table. -/
def refIdx (w : BitVec 32) : Fin 14848 :=
  ⟨min (if IntOp.cmpi .slt w 0#32 = 1#1 then w + 14848#32 else w).toInt.toNat 14847, by omega⟩

/-- The sum of the 29 selected table rows, at column `d`. -/
def embSum (e : Fin 14848 → Fin 128 → EReal) (ξ : Fin 29 → Fin 14848) (d : Fin 128) : EReal :=
  ∑ j : Fin 29, e (ξ j) d

/-- One chunk's contribution to a row sum, the way the kernel forms it: over the chunk's 512 table rows, the count
    of the row's number times the table entry — once against the table's leading part `hi` and once against its
    remainder `lo`. Tables are indexed by plain naturals here. -/
def chunkTerm (ξ : Fin 29 → BitVec 32) (hi lo : ℕ → EReal) (k : ℕ) : EReal :=
  (∑ q : Fin 512, cnt ξ (BitVec.ofNat 32 (512 * k + q.val)) * hi (512 * k + q.val))
    + (∑ q : Fin 512, cnt ξ (BitVec.ofNat 32 (512 * k + q.val)) * lo (512 * k + q.val))

end Cert.Spec

end
-- ==== Proof.Algebra.lean ====
/-
  The one law that joins the two programs: summing, over all table rows, (how often the row's number occurs among
  29 indices) × (the row's entry) gives the sum of the entries at the 29 indices — when every index is a row
  number of the table and the entries are real numbers. The kernel forms the left side chunk by chunk, against the
  table and against a remainder table that is zero.
-/
import proofs.«420469_j76742475645269_2_alg».proof.Proof.Spec
import Idealize.ShloMosaic.Lib.StableHlo.Predicate

noncomputable section

namespace Cert.Spec

open scoped BigOperators
open Idealize.ShloMosaic

/-! ### The running count -/

/-- After n ≤ 29 steps the running count is the number of positions below n that hold the word. -/
theorem cntTo_eq_card (ξ : Fin 29 → BitVec 32) (w : BitVec 32) :
    ∀ n : ℕ, n ≤ 29 → cntTo ξ w n
      = (((Finset.univ.filter fun j : Fin 29 => j.val < n ∧ ξ j = w).card : ℝ) : EReal)
  | 0, _ => by simp [cntTo]
  | n + 1, hn => by
    have hlt : n < 29 := by omega
    have ih := cntTo_eq_card ξ w n (by omega)
    -- the positions below n + 1 are those below n, and position n itself when it holds the word
    have hset : (Finset.univ.filter fun j : Fin 29 => j.val < n + 1 ∧ ξ j = w)
        = if ξ ⟨n, hlt⟩ = w
          then insert (⟨n, hlt⟩ : Fin 29) (Finset.univ.filter fun j : Fin 29 => j.val < n ∧ ξ j = w)
          else (Finset.univ.filter fun j : Fin 29 => j.val < n ∧ ξ j = w) := by
      split
      · rename_i hw
        ext j
        simp only [Finset.mem_filter, Finset.mem_univ, true_and, Finset.mem_insert]
        constructor
        · rintro ⟨hj, hjw⟩
          by_cases hjn : j.val = n
          · left; exact Fin.ext hjn
          · right; exact ⟨by omega, hjw⟩
        · rintro (rfl | ⟨hj, hjw⟩)
          · exact ⟨Nat.lt_succ_self n, hw⟩
          · exact ⟨by omega, hjw⟩
      · rename_i hw
        ext j
        simp only [Finset.mem_filter, Finset.mem_univ, true_and]
        constructor
        · rintro ⟨hj, hjw⟩
          refine ⟨?_, hjw⟩
          by_contra hjn
          have hjeq : j = ⟨n, hlt⟩ := Fin.ext (show j.val = n by omega)
          exact hw (hjeq ▸ hjw)
        · rintro ⟨hj, hjw⟩; exact ⟨by omega, hjw⟩
    have hnot : (⟨n, hlt⟩ : Fin 29) ∉ (Finset.univ.filter fun j : Fin 29 => j.val < n ∧ ξ j = w) := by
      simp
    rw [cntTo, dif_pos hlt, hset]
    split
    · rw [Finset.card_insert_of_notMem hnot, ih, Nat.cast_succ, EReal.coe_add, EReal.coe_one]
    · exact ih

/-- After all 29 steps the running count is the count. -/
theorem cntTo_full (ξ : Fin 29 → BitVec 32) (w : BitVec 32) : cntTo ξ w 29 = cnt ξ w := by
  rw [cntTo_eq_card ξ w 29 le_rfl, cnt]
  have hset : (Finset.univ.filter fun j : Fin 29 => j.val < 29 ∧ ξ j = w)
      = (Finset.univ.filter fun j : Fin 29 => ξ j = w) := by
    ext j; simp [j.isLt]
  rw [hset]

/-! ### The count-weighted sum over the table -/

/-- The coercion from the reals into the extended reals commutes with finite sums. -/
theorem coe_finsetSum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The count as a real number. -/
def cntR (ξ : Fin 29 → BitVec 32) (w : BitVec 32) : ℝ :=
  ((Finset.univ.filter fun j : Fin 29 => ξ j = w).card : ℝ)

theorem cnt_eq_coe (ξ : Fin 29 → BitVec 32) (w : BitVec 32) : cnt ξ w = ((cntR ξ w : ℝ) : EReal) := rfl

/-- The count is the sum, over the 29 positions, of 1 where the position holds the word. -/
theorem cntR_eq_sum (ξ : Fin 29 → BitVec 32) (w : BitVec 32) :
    cntR ξ w = ∑ j : Fin 29, if ξ j = w then (1 : ℝ) else 0 :=
  (Finset.sum_boole _ _).symm

/-- Against a zero remainder a chunk's contribution is a real number: the remainder's half vanishes term by
    term, and the leading half is a finite sum of products of reals. -/
theorem chunkTerm_real (ξ : Fin 29 → BitVec 32) (e : ℕ → ℝ) (k : ℕ) :
    chunkTerm ξ (fun v => ((e v : ℝ) : EReal)) (fun _ => 0) k
      = ((∑ q : Fin 512, cntR ξ (BitVec.ofNat 32 (512 * k + q.val)) * e (512 * k + q.val) : ℝ) : EReal) := by
  unfold chunkTerm
  simp only [mul_zero, Finset.sum_const_zero, add_zero, cnt_eq_coe]
  rw [coe_finsetSum]
  refine Finset.sum_congr rfl fun q _ => ?_
  rw [EReal.coe_mul]

/-- Summing chunk by chunk, 512 at a time, is summing over an initial segment of the naturals. -/
theorem sum_chunks (g : ℕ → ℝ) : ∀ m : ℕ,
    ∑ k ∈ Finset.range m, ∑ q : Fin 512, g (512 * k + q.val) = ∑ n ∈ Finset.range (512 * m), g n
  | 0 => by simp
  | m + 1 => by
    rw [Finset.sum_range_succ, sum_chunks g m, Nat.mul_succ, Finset.sum_range_add,
      Fin.sum_univ_eq_sum_range (fun q => g (512 * m + q)) 512]

/-- 29 chunks of 512 rows cover the table: the chunked count-weighted sum is the sum over the indices. -/
theorem sum_chunkTerm (ξ : Fin 29 → BitVec 32) (hξ : ∀ j, (ξ j).toNat < 14848) (e : ℕ → ℝ) :
    ∑ k ∈ Finset.range 29, chunkTerm ξ (fun v => ((e v : ℝ) : EReal)) (fun _ => 0) k
      = ∑ j : Fin 29, ((e (ξ j).toNat : ℝ) : EReal) := by
  simp only [chunkTerm_real]
  rw [← coe_finsetSum, ← coe_finsetSum]
  refine congrArg _ ?_
  rw [sum_chunks (fun n => cntR ξ (BitVec.ofNat 32 n) * e n) 29]
  simp only [cntR_eq_sum, Finset.sum_mul]
  rw [Finset.sum_comm]
  refine Finset.sum_congr rfl fun j _ => ?_
  -- of all row numbers only the one the position holds contributes
  rw [Finset.sum_eq_single (ξ j).toNat]
  · simp
  · intro n hn hne
    have hneq : ¬ ξ j = BitVec.ofNat 32 n := by
      intro h
      apply hne
      have ht := congrArg BitVec.toNat h
      rw [BitVec.toNat_ofNat] at ht
      have hn' := Finset.mem_range.mp hn
      omega
    simp [hneq]
  · intro h
    exact absurd (Finset.mem_range.mpr (by have := hξ j; omega)) h

/-! ### The reference's index clamp -/

/-- An index word that is already a row number of the table selects that row. -/
theorem refIdx_of_range (w : BitVec 32) (h0 : 0 ≤ w.toInt) (h1 : w.toInt < 14848) :
    (refIdx w).val = w.toNat ∧ w.toNat < 14848 := by
  have hb := w.isLt
  -- a word whose signed value is not negative has that value as its unsigned value
  have hti : w.toInt = (w.toNat : ℤ) := by
    have hc := BitVec.toInt_eq_toNat_cond w
    split at hc <;> omega
  have hlt : w.toNat < 14848 := by omega
  have hns : ¬ IntOp.cmpi .slt w 0#32 = 1#1 := by
    rw [StableHlo.Predicate.slt_iff_toNat (by omega) (by decide)]
    simp
  refine ⟨?_, hlt⟩
  unfold refIdx
  simp only [hns, if_false, hti, Int.toNat_natCast]
  omega

end Cert.Spec

end
-- ==== Proof.Strip0.lean ====
/-
  The first strip of a chunk's count matrix, read at an entry.

  The strip is built by 29 steps, one per index word of a batch row: each step adds one to the entry (r, l) when
  row r's word equals the id word of lane l. After n steps the entry is the running count `Spec.cntTo` of the first n
  words; after all 29 it is the count `Spec.cnt`. The id word of lane l in trip k is the row number 512·k + l.
-/
import proofs.«420469_j76742475645269_2_alg».proof.Proof.KDefs
import proofs.«420469_j76742475645269_2_alg».proof.Proof.Spec
import proofs.«420469_j76742475645269_2_alg».proof.Proof.Algebra
import Idealize.ShloMosaic.Lib.ValueLayout
import Idealize.ShloMosaic.Lib.IdealHost
import Idealize.ShloMosaic.Lib.StableHlo.Predicate

noncomputable section

namespace Cert.KernelIdeal.Hand

open Idealize.ShloMosaic Idealize.ShloMosaic.ValueIdx Cert.KernelIdeal Cert.KernelIdeal.Gen
open scoped BigOperators

/-- One step of the running count on scalars, with the comparison already made: one more when the bit is set. -/
def s0_bumpBit (m : BitVec 1) (c : Ideal .bf16) : Ideal .bf16 := Scalar.select m (c + 1) c

/-- One step of the running count on scalars: one more when index word `a` is the id word `w`. -/
def s0_bump (a w : BitVec 32) (c : Ideal .bf16) : Ideal .bf16 := s0_bumpBit (IntOp.cmpi .eq a w) c

/-- The running count after one more index word is the step applied to the running count before it. -/
theorem s0_cntTo_succ (ξ : Fin 29 → BitVec 32) (w : BitVec 32) (n : ℕ) (h : n < 29) :
    Cert.Spec.cntTo ξ w (n + 1) = s0_bump (ξ ⟨n, h⟩) w (Cert.Spec.cntTo ξ w n) := by
  rw [Cert.Spec.cntTo, dif_pos h]
  unfold s0_bump s0_bumpBit
  by_cases e : ξ ⟨n, h⟩ = w
  · rw [if_pos e, StableHlo.Predicate.cmpi_eq_iff.2 e, select_one]
  · rw [if_neg e, eq_zero_of_ne_one (fun h1 => e (StableHlo.Predicate.cmpi_eq_iff.1 h1)), select_zero]

/-- Column `o` of the index block, spread along the lanes, read at (r, l): row r's word number o. -/
theorem s0_col_apply (v1 : IVec S256x29 32) (o : ℕ) (ho : o < 29) (hs : S256x29.Slices ![0, o] S256x1)
    (hb : S256x1.Broadcasts S256x128) (r : Fin 256) (l : Fin 128) :
    broadcastTo S256x128 (extractStridedSlice S256x1 ![0, o] v1 hs) hb (ix2 r l) = v1 (ix2 r ⟨o, ho⟩) := by
  refine (broadcastTo_apply _ hb (ix2 r l) (ix2 r (0 : Fin 1)) fun ax => ?_).trans ?_
  · match ax with
    | ⟨0, _⟩ => rfl
    | ⟨1, _⟩ => rfl
  · exact slice2_axis1_apply o v1 hs r 0 ⟨o, ho⟩ rfl

/-- The id words, spread along the rows, read at (r, l): the word of lane l. -/
theorem s0_ids_apply (v45 : IVec S1x128 32) (hb : S1x128.Broadcasts S256x128) (r : Fin 256) (l : Fin 128) :
    broadcastTo S256x128 v45 hb (ix2 r l) = v45 (ix2 (0 : Fin 1) l) :=
  broadcastTo_1b_ab_apply v45 hb r l

/-- A word comparison of two arrays, read at an index, compares the two words there. -/
theorem s0_cmpi_at {s : Shape} {w : ℕ} (p : CmpIPredicate) (a b : IVec s w) (i : s.Idx) :
    cmpi p a b i = IntOp.cmpi p (a i) (b i) := rfl

section Steps
variable (v1 : IVec S256x29 32) (v45 : IVec S1x128 32) (r : Fin 256) (l : Fin 128)

/-- From the zero strip, the steps for words 0…5: the entry is six scalar steps from 0. -/
theorem s0_steps0to5_apply (v2 : IVec S1x128 32) (c0 c1 : BitVec 32) (k : Fin k0_t1_loop.trips) :
    k0_pay3 (F := Ideal) v1 v2 c0 c1 k (ix2 r l)
      = (fun w => s0_bump (v1 (ix2 r ⟨5, by decide⟩)) w (s0_bump (v1 (ix2 r ⟨4, by decide⟩)) w (s0_bump (v1 (ix2 r ⟨3, by decide⟩)) w (s0_bump (v1 (ix2 r ⟨2, by decide⟩)) w (s0_bump (v1 (ix2 r ⟨1, by decide⟩)) w (s0_bump (v1 (ix2 r ⟨0, by decide⟩)) w (0))))))) (k0_pay2 v2 c0 c1 k (ix2 0 l)) := by
  unfold k0_pay3
  simp only [select_apply, addf_apply, broadcast_apply, s0_cmpi_at, s0_ids_apply, s0_col_apply v1 0 (by decide), s0_col_apply v1 1 (by decide), s0_col_apply v1 2 (by decide), s0_col_apply v1 3 (by decide), s0_col_apply v1 4 (by decide), s0_col_apply v1 5 (by decide), Scalar.ofBits, Ideal.ofBits_def,
    Ideal.ofBits_one_bf16, Ideal.ofBits_zero_bf16]
  rfl

/-- Word 6 of each row, spread along the lanes. -/
theorem s0_col6_apply : k0_pay4 v1 (ix2 r l) = v1 (ix2 r ⟨6, by decide⟩) := by
  unfold k0_pay4
  exact s0_col_apply v1 6 (by decide) _ _ r l

/-- The steps for words 6…12, the first against a column already spread along the lanes: seven scalar steps from the
    incoming entry. -/
theorem s0_steps6to12_apply (v88 : FVec Ideal S256x128 .bf16) (v90 : IVec S256x128 32) :
    k0_pay5 (F := Ideal) v1 v45 v88 v90 (ix2 r l)
      = (fun w => s0_bump (v1 (ix2 r ⟨12, by decide⟩)) w (s0_bump (v1 (ix2 r ⟨11, by decide⟩)) w (s0_bump (v1 (ix2 r ⟨10, by decide⟩)) w (s0_bump (v1 (ix2 r ⟨9, by decide⟩)) w (s0_bump (v1 (ix2 r ⟨8, by decide⟩)) w (s0_bump (v1 (ix2 r ⟨7, by decide⟩)) w (s0_bump (v90 (ix2 r l)) w (v88 (ix2 r l))))))))) (v45 (ix2 0 l)) := by
  unfold k0_pay5
  simp only [select_apply, addf_apply, broadcast_apply, s0_cmpi_at, s0_ids_apply, s0_col_apply v1 7 (by decide), s0_col_apply v1 8 (by decide), s0_col_apply v1 9 (by decide), s0_col_apply v1 10 (by decide), s0_col_apply v1 11 (by decide), s0_col_apply v1 12 (by decide), Scalar.ofBits, Ideal.ofBits_def,
    Ideal.ofBits_one_bf16]
  rfl

/-- The comparison of word 13 with the id words, read at an entry. -/
theorem s0_mask13_apply : k0_pay6 v1 v45 (ix2 r l) = IntOp.cmpi .eq (v1 (ix2 r ⟨13, by decide⟩)) (v45 (ix2 0 l)) := by
  unfold k0_pay6
  simp only [s0_cmpi_at, s0_ids_apply, s0_col_apply v1 13 (by decide)]

/-- A strip of ones (the bf16 pattern 0x3F80 is 1 over the extended reals). -/
theorem s0_onesA_apply : k0_pay7 (F := Ideal) (ix2 r l) = 1 := by
  unfold k0_pay7
  simp only [broadcast_apply, Scalar.ofBits, Ideal.ofBits_def, Ideal.ofBits_one_bf16]

/-- The steps for words 13…20, the first with its comparison already made and a strip of ones handed in: eight scalar
    steps from the incoming entry. -/
theorem s0_steps13to20_apply (v137 : FVec Ideal S256x128 .bf16) (v141 : IVec S256x128 1) (v142 : FVec Ideal S256x128 .bf16)
    (h1 : v142 (ix2 r l) = 1) :
    k0_pay8 (F := Ideal) v1 v45 v137 v141 v142 (ix2 r l)
      = (fun w => s0_bump (v1 (ix2 r ⟨20, by decide⟩)) w (s0_bump (v1 (ix2 r ⟨19, by decide⟩)) w (s0_bump (v1 (ix2 r ⟨18, by decide⟩)) w (s0_bump (v1 (ix2 r ⟨17, by decide⟩)) w (s0_bump (v1 (ix2 r ⟨16, by decide⟩)) w (s0_bump (v1 (ix2 r ⟨15, by decide⟩)) w (s0_bump (v1 (ix2 r ⟨14, by decide⟩)) w (s0_bumpBit (v141 (ix2 r l)) (v137 (ix2 r l)))))))))) (v45 (ix2 0 l)) := by
  unfold k0_pay8
  simp only [select_apply, addf_apply, broadcast_apply, s0_cmpi_at, s0_ids_apply, s0_col_apply v1 14 (by decide), s0_col_apply v1 15 (by decide), s0_col_apply v1 16 (by decide), s0_col_apply v1 17 (by decide), s0_col_apply v1 18 (by decide), s0_col_apply v1 19 (by decide), s0_col_apply v1 20 (by decide), Scalar.ofBits, Ideal.ofBits_def,
    Ideal.ofBits_one_bf16, h1]
  rfl

/-- Word 21 of each row, spread along the lanes. -/
theorem s0_col21_apply : k0_pay9 v1 (ix2 r l) = v1 (ix2 r ⟨21, by decide⟩) := by
  unfold k0_pay9
  exact s0_col_apply v1 21 (by decide) _ _ r l

/-- The steps for words 21…27, the first against a column already spread along the lanes: seven scalar steps from the
    incoming entry. -/
theorem s0_steps21to27_apply (v193 : FVec Ideal S256x128 .bf16) (v195 : IVec S256x128 32) :
    k0_pay10 (F := Ideal) v1 v45 v193 v195 (ix2 r l)
      = (fun w => s0_bump (v1 (ix2 r ⟨27, by decide⟩)) w (s0_bump (v1 (ix2 r ⟨26, by decide⟩)) w (s0_bump (v1 (ix2 r ⟨25, by decide⟩)) w (s0_bump (v1 (ix2 r ⟨24, by decide⟩)) w (s0_bump (v1 (ix2 r ⟨23, by decide⟩)) w (s0_bump (v1 (ix2 r ⟨22, by decide⟩)) w (s0_bump (v195 (ix2 r l)) w (v193 (ix2 r l))))))))) (v45 (ix2 0 l)) := by
  unfold k0_pay10
  simp only [select_apply, addf_apply, broadcast_apply, s0_cmpi_at, s0_ids_apply, s0_col_apply v1 22 (by decide), s0_col_apply v1 23 (by decide), s0_col_apply v1 24 (by decide), s0_col_apply v1 25 (by decide), s0_col_apply v1 26 (by decide), s0_col_apply v1 27 (by decide), Scalar.ofBits, Ideal.ofBits_def,
    Ideal.ofBits_one_bf16]
  rfl

/-- The comparison of word 28 with the id words, read at an entry. -/
theorem s0_mask28_apply : k0_pay11 v1 v45 (ix2 r l) = IntOp.cmpi .eq (v1 (ix2 r ⟨28, by decide⟩)) (v45 (ix2 0 l)) := by
  unfold k0_pay11
  simp only [s0_cmpi_at, s0_ids_apply, s0_col_apply v1 28 (by decide)]

/-- A second strip of ones. -/
theorem s0_onesB_apply : k0_pay12 (F := Ideal) (ix2 r l) = 1 := by
  unfold k0_pay12
  simp only [broadcast_apply, Scalar.ofBits, Ideal.ofBits_def, Ideal.ofBits_one_bf16]

/-- The last step, with its comparison already made and a strip of ones handed in. -/
theorem s0_step28_apply (v242 : FVec Ideal S256x128 .bf16) (v246 : IVec S256x128 1) (v247 : FVec Ideal S256x128 .bf16)
    (h1 : v247 (ix2 r l) = 1) :
    k0_pay13 (F := Ideal) v242 v246 v247 (ix2 r l) = s0_bumpBit (v246 (ix2 r l)) (v242 (ix2 r l)) := by
  unfold k0_pay13
  simp only [select_apply, addf_apply, h1]
  rfl

end Steps

/-- The first 29 columns of the block, read at (r, j): row r's index word j. -/
theorem s0_firstCols_apply (x0 : Vec Ideal S256x32 .i32) (r : Fin 256) (j : Fin 29) :
    k0_pay37 x0 (ix2 r j) = rowWords x0 r j := by
  unfold k0_pay37 rowWords
  exact slice2_axis1_apply 0 x0 _ r j ⟨j.val, _⟩ (Nat.zero_add _).symm

/-- The id word of lane l in trip k's first strip is the row number 512·k + l: no sum here wraps, k being below 29
    and l below 128. -/
theorem s0_idWord_strip0 (k : Fin k0_t1_loop.trips) (l : Fin 128) :
    k0_pay2 lanes 0#32 1#32 k (ix2 0 l) = BitVec.ofNat 32 (512 * k.val + l.val) := by
  have hk : k.val < 29 := Nat.lt_of_lt_of_le k.isLt k0_t1_abs.2.1
  have hl := l.isLt
  have hlane : lanes (ix2 (0 : Fin 1) l) = BitVec.ofNat 32 l.val := iota_single_apply .tc S1x128 32 1 _ _
  unfold k0_pay2
  show IntOp.addi (lanes (ix2 0 l)) (Scalar.addi (Scalar.muli (Scf.iv 0#32 1#32 k) 512#32) 0#32) = _
  rw [hlane]
  unfold IntOp.addi Scalar.addi Scalar.muli IntOp.muli IntOp.addi Scf.iv
  apply BitVec.eq_of_toNat_eq
  simp only [BitVec.toNat_add, BitVec.toNat_mul, BitVec.toNat_ofNat]
  omega

/-- Entry (r, l) of the strip counts how many of row r's 29 index words equal the row number 512·k + l. -/
theorem strip0_apply (x0 : Vec Ideal S256x32 .i32) (k : Fin k0_t1_loop.trips) (r : Fin 256) (l : Fin 128) :
    strip0 (F := Ideal) x0 lanes k (ix2 r l)
      = Cert.Spec.cnt (rowWords x0 r) (BitVec.ofNat 32 (512 * k.val + (l.val))) := by
  unfold strip0
  -- read the nest at (r, l), outermost piece first: 29 scalar steps from 0 over row r's words against lane l's id word
  simp only [s0_step28_apply (h1 := s0_onesB_apply r l), s0_mask28_apply, s0_steps21to27_apply, s0_col21_apply,
    s0_steps13to20_apply (h1 := s0_onesA_apply r l), s0_mask13_apply, s0_steps6to12_apply, s0_col6_apply, s0_steps0to5_apply,
    s0_idWord_strip0, s0_firstCols_apply]
  -- the count is the running count after all 29 words; unroll the running count into its 29 scalar steps from 0
  rw [← Cert.Spec.cntTo_full]
  rw [
    s0_cntTo_succ _ _ 28 (by decide), s0_cntTo_succ _ _ 27 (by decide), s0_cntTo_succ _ _ 26 (by decide), s0_cntTo_succ _ _ 25 (by decide),
    s0_cntTo_succ _ _ 24 (by decide), s0_cntTo_succ _ _ 23 (by decide), s0_cntTo_succ _ _ 22 (by decide), s0_cntTo_succ _ _ 21 (by decide),
    s0_cntTo_succ _ _ 20 (by decide), s0_cntTo_succ _ _ 19 (by decide), s0_cntTo_succ _ _ 18 (by decide), s0_cntTo_succ _ _ 17 (by decide),
    s0_cntTo_succ _ _ 16 (by decide), s0_cntTo_succ _ _ 15 (by decide), s0_cntTo_succ _ _ 14 (by decide), s0_cntTo_succ _ _ 13 (by decide),
    s0_cntTo_succ _ _ 12 (by decide), s0_cntTo_succ _ _ 11 (by decide), s0_cntTo_succ _ _ 10 (by decide), s0_cntTo_succ _ _ 9 (by decide),
    s0_cntTo_succ _ _ 8 (by decide), s0_cntTo_succ _ _ 7 (by decide), s0_cntTo_succ _ _ 6 (by decide), s0_cntTo_succ _ _ 5 (by decide),
    s0_cntTo_succ _ _ 4 (by decide), s0_cntTo_succ _ _ 3 (by decide), s0_cntTo_succ _ _ 2 (by decide), s0_cntTo_succ _ _ 1 (by decide),
    s0_cntTo_succ _ _ 0 (by decide)]
  rfl

end Cert.KernelIdeal.Hand

end
-- ==== Proof.Strip1.lean ====
/-
  The second strip of a chunk's count matrix, read at an entry.

  The strip is built by 29 steps, one per index word of a batch row: where the word equals the lane's row number the
  count goes up by one. After n steps an entry holds the running count over the first n words; after all 29 it holds
  the count. The steps are spread over four stretches (6, 8, 7 and 8 steps), two of which begin with a compare made
  at the end of the stretch before.
-/
import proofs.«420469_j76742475645269_2_alg».proof.Proof.KDefs
import proofs.«420469_j76742475645269_2_alg».proof.Proof.Spec
import proofs.«420469_j76742475645269_2_alg».proof.Proof.Algebra
import Idealize.ShloMosaic.Lib.ValueLayout
import Idealize.ShloMosaic.Lib.Pipeline.Value
import Idealize.ShloMosaic.Lib.StableHlo.Predicate

noncomputable section

namespace Cert.KernelIdeal.Hand

open Idealize.ShloMosaic Idealize.ShloMosaic.ValueIdx Cert.KernelIdeal Cert.KernelIdeal.Gen
open scoped BigOperators

/-- The bf16 pattern 0x0000 is the extended real 0. -/
theorem s1_bf16_zero : Ideal.ofBits .bf16 0x0000#16 = 0 := by simp [Ideal.ofBits, Ideal.ieee]

/-- The bf16 pattern 0x3F80 is the extended real 1. -/
theorem s1_bf16_one : Ideal.ofBits .bf16 0x3F80#16 = 1 := by
  simp [Ideal.ofBits, Ideal.ieee, -EReal.coe_mul]; norm_num

/-- One compare-and-select step over the whole block: where index column j of the row equals the lane's row
    number, the count goes up by one. -/
def s1_stepV (v1 : IVec S256x29 32) (ids : IVec S1x128 32) (j : Nat) (hs : S256x29.Slices ![0, j] S256x1)
    (c : FVec Ideal S256x128 .bf16) : FVec Ideal S256x128 .bf16 :=
  select (cmpi .eq (broadcastTo S256x128 (extractStridedSlice S256x1 ![0, j] v1 hs) broadcasts_S256x1_S256x128)
      (broadcastTo S256x128 ids broadcasts_S1x128_S256x128))
    (addf c (broadcast S256x128 (Scalar.ofBits .bf16 0x3F80#16))) c

/-- The compare of one step, read at an entry: index column j of row r against the row number of lane l. -/
theorem s1_mask_apply (v1 : IVec S256x29 32) (ids : IVec S1x128 32) (j : Nat) (hj : j < 29)
    (hs : S256x29.Slices ![0, j] S256x1) (r : Fin 256) (l : Fin 128) :
    cmpi .eq (broadcastTo S256x128 (extractStridedSlice S256x1 ![0, j] v1 hs) broadcasts_S256x1_S256x128)
        (broadcastTo S256x128 ids broadcasts_S1x128_S256x128) (ix2 r l)
      = IntOp.cmpi .eq (v1 (ix2 r ⟨j, hj⟩)) (ids (ix2 0 l)) := by
  have h1 : broadcastTo S256x128 (extractStridedSlice S256x1 ![0, j] v1 hs) broadcasts_S256x1_S256x128 (ix2 r l)
      = v1 (ix2 r ⟨j, hj⟩) := by
    refine (broadcastTo_apply _ _ (ix2 r l) (ix2 r (0 : Fin 1)) fun a => ?_).trans ?_
    · match a with
      | ⟨0, _⟩ => rfl
      | ⟨1, _⟩ => rfl
    · exact slice2_axis1_apply j v1 hs r 0 ⟨j, hj⟩ (by simp)
  have h2 : broadcastTo S256x128 ids broadcasts_S1x128_S256x128 (ix2 r l) = ids (ix2 0 l) :=
    broadcastTo_1b_ab_apply ids _ r l
  show IntOp.cmpi .eq (broadcastTo S256x128 (extractStridedSlice S256x1 ![0, j] v1 hs) broadcasts_S256x1_S256x128 (ix2 r l))
      (broadcastTo S256x128 ids broadcasts_S1x128_S256x128 (ix2 r l)) = _
  rw [h1, h2]

/-- A select between "count + 1" and "count" on a compare bit is the if on the compared words. -/
theorem s1_select_cmp (a b : BitVec 32) (c : EReal) :
    Scalar.select (IntOp.cmpi .eq a b) (c + Ideal.ofBits .bf16 0x3F80#16) c = if a = b then c + 1 else c := by
  rw [s1_bf16_one]
  by_cases h : a = b
  · rw [if_pos h, StableHlo.Predicate.cmpi_eq_iff.mpr h, select_one]
  · rw [if_neg h, eq_zero_of_ne_one (fun h' => h (StableHlo.Predicate.cmpi_eq_iff.mp h')), select_zero]

theorem s1_stepV_apply (v1 : IVec S256x29 32) (ids : IVec S1x128 32) (j : Nat) (hj : j < 29)
    (hs : S256x29.Slices ![0, j] S256x1) (c : FVec Ideal S256x128 .bf16) (r : Fin 256) (l : Fin 128) :
    s1_stepV v1 ids j hs c (ix2 r l)
      = if v1 (ix2 r ⟨j, hj⟩) = ids (ix2 0 l) then c (ix2 r l) + 1 else c (ix2 r l) := by
  show Scalar.select (cmpi .eq (broadcastTo S256x128 (extractStridedSlice S256x1 ![0, j] v1 hs) broadcasts_S256x1_S256x128)
        (broadcastTo S256x128 ids broadcasts_S1x128_S256x128) (ix2 r l))
      (c (ix2 r l) + Ideal.ofBits .bf16 0x3F80#16) (c (ix2 r l)) = _
  rw [s1_mask_apply v1 ids j hj hs r l, s1_select_cmp]

/-- A step whose compare was made earlier: the count goes up by one where the ready mask is set. -/
def s1_stepM (m : IVec S256x128 1) (c : FVec Ideal S256x128 .bf16) : FVec Ideal S256x128 .bf16 :=
  select m (addf c (broadcast S256x128 (Scalar.ofBits .bf16 0x3F80#16))) c

/-- Row r's index word j, read through the 29-column cut of the index block. -/
theorem s1_pay37_apply (x0 : Vec Ideal S256x32 .i32) (r : Fin 256) (j : Fin 29) :
    k0_pay37 (F := Ideal) x0 (ix2 r j) = rowWords x0 r j :=
  slice2_axis1_apply 0 x0 slices_S256x32_o0_0_S256x29 r j ⟨j.val, by have := j.isLt; omega⟩ (Nat.zero_add _).symm

/-- The running count one step on, for a step inside the 29. -/
theorem s1_cntTo_succ (ξ : Fin 29 → BitVec 32) (w : BitVec 32) (n : Nat) (h : n < 29) :
    Cert.Spec.cntTo ξ w (n + 1)
      = if ξ ⟨n, h⟩ = w then Cert.Spec.cntTo ξ w n + 1 else Cert.Spec.cntTo ξ w n := by
  rw [Cert.Spec.cntTo.eq_2, dif_pos h]

/-- A step takes the running count after j index words to the running count after j + 1. -/
theorem s1_stepV_cnt (x0 : Vec Ideal S256x32 .i32) (ids : IVec S1x128 32) (j : Nat) (hj : j < 29)
    (hs : S256x29.Slices ![0, j] S256x1) (c : FVec Ideal S256x128 .bf16) (r : Fin 256) (l : Fin 128)
    (hc : c (ix2 r l) = Cert.Spec.cntTo (rowWords x0 r) (ids (ix2 0 l)) j) :
    s1_stepV (k0_pay37 x0) ids j hs c (ix2 r l) = Cert.Spec.cntTo (rowWords x0 r) (ids (ix2 0 l)) (j + 1) := by
  rw [s1_stepV_apply _ _ j hj, s1_pay37_apply x0 r ⟨j, hj⟩, hc, s1_cntTo_succ _ _ j hj]

/-- The same for a step whose mask is the compare of index word j. -/
theorem s1_stepM_cnt (x0 : Vec Ideal S256x32 .i32) (ids : IVec S1x128 32) (j : Nat) (hj : j < 29)
    (m : IVec S256x128 1) (c : FVec Ideal S256x128 .bf16) (r : Fin 256) (l : Fin 128)
    (hm : m (ix2 r l) = IntOp.cmpi .eq (rowWords x0 r ⟨j, hj⟩) (ids (ix2 0 l)))
    (hc : c (ix2 r l) = Cert.Spec.cntTo (rowWords x0 r) (ids (ix2 0 l)) j) :
    s1_stepM m c (ix2 r l) = Cert.Spec.cntTo (rowWords x0 r) (ids (ix2 0 l)) (j + 1) := by
  show Scalar.select (m (ix2 r l)) (c (ix2 r l) + Ideal.ofBits .bf16 0x3F80#16) (c (ix2 r l)) = _
  rw [hm, s1_select_cmp, hc, s1_cntTo_succ _ _ j hj]

/-- The compare of index word j made ahead of its step. -/
theorem s1_mask_cnt (x0 : Vec Ideal S256x32 .i32) (ids : IVec S1x128 32) (j : Nat) (hj : j < 29)
    (hs : S256x29.Slices ![0, j] S256x1) (r : Fin 256) (l : Fin 128) :
    cmpi .eq (broadcastTo S256x128 (extractStridedSlice S256x1 ![0, j] (k0_pay37 (F := Ideal) x0) hs) broadcasts_S256x1_S256x128)
        (broadcastTo S256x128 ids broadcasts_S1x128_S256x128) (ix2 r l)
      = IntOp.cmpi .eq (rowWords x0 r ⟨j, hj⟩) (ids (ix2 0 l)) := by
  rw [s1_mask_apply _ ids j hj hs r l, s1_pay37_apply x0 r ⟨j, hj⟩]

/-! ### The payloads as chains of steps -/

theorem s1_pay15_eq (v1 : IVec S256x29 32) (v2 : IVec S1x128 32) (v42 : BitVec 32) :
    k0_pay15 (F := Ideal) v1 v2 v42 =
      s1_stepV v1 (k0_pay14 v2 v42) 5 slices_S256x29_o0_5_S256x1
        (s1_stepV v1 (k0_pay14 v2 v42) 4 slices_S256x29_o0_4_S256x1
          (s1_stepV v1 (k0_pay14 v2 v42) 3 slices_S256x29_o0_3_S256x1
            (s1_stepV v1 (k0_pay14 v2 v42) 2 slices_S256x29_o0_2_S256x1
              (s1_stepV v1 (k0_pay14 v2 v42) 1 slices_S256x29_o0_1_S256x1
                (s1_stepV v1 (k0_pay14 v2 v42) 0 slices_S256x29_o0_0_S256x1
                  (broadcast S256x128 (Scalar.ofBits .bf16 0x0000#16))))))) := rfl

theorem s1_pay17_eq (v1 : IVec S256x29 32) (ids : IVec S1x128 32) (c : FVec Ideal S256x128 .bf16) (m : IVec S256x128 1) :
    k0_pay17 (F := Ideal) v1 ids c m =
      s1_stepV v1 ids 13 slices_S256x29_o0_13_S256x1
        (s1_stepV v1 ids 12 slices_S256x29_o0_12_S256x1
          (s1_stepV v1 ids 11 slices_S256x29_o0_11_S256x1
            (s1_stepV v1 ids 10 slices_S256x29_o0_10_S256x1
              (s1_stepV v1 ids 9 slices_S256x29_o0_9_S256x1
                (s1_stepV v1 ids 8 slices_S256x29_o0_8_S256x1
                  (s1_stepV v1 ids 7 slices_S256x29_o0_7_S256x1 (s1_stepM m c))))))) := rfl

theorem s1_pay18_eq (v1 : IVec S256x29 32) (ids : IVec S1x128 32) (c : FVec Ideal S256x128 .bf16) :
    k0_pay18 (F := Ideal) v1 ids c =
      s1_stepV v1 ids 20 slices_S256x29_o0_20_S256x1
        (s1_stepV v1 ids 19 slices_S256x29_o0_19_S256x1
          (s1_stepV v1 ids 18 slices_S256x29_o0_18_S256x1
            (s1_stepV v1 ids 17 slices_S256x29_o0_17_S256x1
              (s1_stepV v1 ids 16 slices_S256x29_o0_16_S256x1
                (s1_stepV v1 ids 15 slices_S256x29_o0_15_S256x1
                  (s1_stepV v1 ids 14 slices_S256x29_o0_14_S256x1 c)))))) := rfl

theorem s1_pay20_eq (v1 : IVec S256x29 32) (ids : IVec S1x128 32) (c : FVec Ideal S256x128 .bf16) (m : IVec S256x128 1) :
    k0_pay20 (F := Ideal) v1 ids c m =
      s1_stepV v1 ids 28 slices_S256x29_o0_28_S256x1
        (s1_stepV v1 ids 27 slices_S256x29_o0_27_S256x1
          (s1_stepV v1 ids 26 slices_S256x29_o0_26_S256x1
            (s1_stepV v1 ids 25 slices_S256x29_o0_25_S256x1
              (s1_stepV v1 ids 24 slices_S256x29_o0_24_S256x1
                (s1_stepV v1 ids 23 slices_S256x29_o0_23_S256x1
                  (s1_stepV v1 ids 22 slices_S256x29_o0_22_S256x1 (s1_stepM m c))))))) := rfl

/-! ### Each payload read at an entry, as a running count -/

/-- The first payload holds the count over index words 0 … 5. -/
theorem s1_pay15_cnt (x0 : Vec Ideal S256x32 .i32) (v2 : IVec S1x128 32) (v42 : BitVec 32) (r : Fin 256) (l : Fin 128) :
    k0_pay15 (F := Ideal) (k0_pay37 x0) v2 v42 (ix2 r l)
      = Cert.Spec.cntTo (rowWords x0 r) (k0_pay14 v2 v42 (ix2 0 l)) 6 := by
  rw [s1_pay15_eq]
  refine s1_stepV_cnt x0 _ 5 (by omega) _ _ r l ?_
  refine s1_stepV_cnt x0 _ 4 (by omega) _ _ r l ?_
  refine s1_stepV_cnt x0 _ 3 (by omega) _ _ r l ?_
  refine s1_stepV_cnt x0 _ 2 (by omega) _ _ r l ?_
  refine s1_stepV_cnt x0 _ 1 (by omega) _ _ r l ?_
  refine s1_stepV_cnt x0 _ 0 (by omega) _ _ r l ?_
  exact s1_bf16_zero

/-- The compare of index word 6, made at the end of the first stretch. -/
theorem s1_pay16_apply (x0 : Vec Ideal S256x32 .i32) (v2 : IVec S1x128 32) (v42 : BitVec 32) (r : Fin 256) (l : Fin 128) :
    k0_pay16 (k0_pay37 (F := Ideal) x0) v2 v42 (ix2 r l)
      = IntOp.cmpi .eq (rowWords x0 r ⟨6, by omega⟩) (k0_pay14 v2 v42 (ix2 0 l)) :=
  s1_mask_cnt x0 (k0_pay14 v2 v42) 6 (by omega) slices_S256x29_o0_6_S256x1 r l

/-- From the count over 6 words and the compare of word 6, the next payload holds the count over 14 words. -/
theorem s1_pay17_cnt (x0 : Vec Ideal S256x32 .i32) (ids : IVec S1x128 32) (c : FVec Ideal S256x128 .bf16) (m : IVec S256x128 1)
    (r : Fin 256) (l : Fin 128)
    (hc : c (ix2 r l) = Cert.Spec.cntTo (rowWords x0 r) (ids (ix2 0 l)) 6)
    (hm : m (ix2 r l) = IntOp.cmpi .eq (rowWords x0 r ⟨6, by omega⟩) (ids (ix2 0 l))) :
    k0_pay17 (F := Ideal) (k0_pay37 x0) ids c m (ix2 r l) = Cert.Spec.cntTo (rowWords x0 r) (ids (ix2 0 l)) 14 := by
  rw [s1_pay17_eq]
  refine s1_stepV_cnt x0 _ 13 (by omega) _ _ r l ?_
  refine s1_stepV_cnt x0 _ 12 (by omega) _ _ r l ?_
  refine s1_stepV_cnt x0 _ 11 (by omega) _ _ r l ?_
  refine s1_stepV_cnt x0 _ 10 (by omega) _ _ r l ?_
  refine s1_stepV_cnt x0 _ 9 (by omega) _ _ r l ?_
  refine s1_stepV_cnt x0 _ 8 (by omega) _ _ r l ?_
  refine s1_stepV_cnt x0 _ 7 (by omega) _ _ r l ?_
  exact s1_stepM_cnt x0 ids 6 (by omega) m c r l hm hc

/-- Seven more steps: from 14 words to 21. -/
theorem s1_pay18_cnt (x0 : Vec Ideal S256x32 .i32) (ids : IVec S1x128 32) (c : FVec Ideal S256x128 .bf16)
    (r : Fin 256) (l : Fin 128)
    (hc : c (ix2 r l) = Cert.Spec.cntTo (rowWords x0 r) (ids (ix2 0 l)) 14) :
    k0_pay18 (F := Ideal) (k0_pay37 x0) ids c (ix2 r l) = Cert.Spec.cntTo (rowWords x0 r) (ids (ix2 0 l)) 21 := by
  rw [s1_pay18_eq]
  refine s1_stepV_cnt x0 _ 20 (by omega) _ _ r l ?_
  refine s1_stepV_cnt x0 _ 19 (by omega) _ _ r l ?_
  refine s1_stepV_cnt x0 _ 18 (by omega) _ _ r l ?_
  refine s1_stepV_cnt x0 _ 17 (by omega) _ _ r l ?_
  refine s1_stepV_cnt x0 _ 16 (by omega) _ _ r l ?_
  refine s1_stepV_cnt x0 _ 15 (by omega) _ _ r l ?_
  exact s1_stepV_cnt x0 _ 14 (by omega) _ _ r l hc

/-- The compare of index word 21. -/
theorem s1_pay19_apply (x0 : Vec Ideal S256x32 .i32) (ids : IVec S1x128 32) (r : Fin 256) (l : Fin 128) :
    k0_pay19 (k0_pay37 (F := Ideal) x0) ids (ix2 r l)
      = IntOp.cmpi .eq (rowWords x0 r ⟨21, by omega⟩) (ids (ix2 0 l)) :=
  s1_mask_cnt x0 ids 21 (by omega) slices_S256x29_o0_21_S256x1 r l

/-- The last payload: from the count over 21 words and the compare of word 21 to the count over all 29. -/
theorem s1_pay20_cnt (x0 : Vec Ideal S256x32 .i32) (ids : IVec S1x128 32) (c : FVec Ideal S256x128 .bf16) (m : IVec S256x128 1)
    (r : Fin 256) (l : Fin 128)
    (hc : c (ix2 r l) = Cert.Spec.cntTo (rowWords x0 r) (ids (ix2 0 l)) 21)
    (hm : m (ix2 r l) = IntOp.cmpi .eq (rowWords x0 r ⟨21, by omega⟩) (ids (ix2 0 l))) :
    k0_pay20 (F := Ideal) (k0_pay37 x0) ids c m (ix2 r l) = Cert.Spec.cntTo (rowWords x0 r) (ids (ix2 0 l)) 29 := by
  rw [s1_pay20_eq]
  refine s1_stepV_cnt x0 _ 28 (by omega) _ _ r l ?_
  refine s1_stepV_cnt x0 _ 27 (by omega) _ _ r l ?_
  refine s1_stepV_cnt x0 _ 26 (by omega) _ _ r l ?_
  refine s1_stepV_cnt x0 _ 25 (by omega) _ _ r l ?_
  refine s1_stepV_cnt x0 _ 24 (by omega) _ _ r l ?_
  refine s1_stepV_cnt x0 _ 23 (by omega) _ _ r l ?_
  refine s1_stepV_cnt x0 _ 22 (by omega) _ _ r l ?_
  exact s1_stepM_cnt x0 ids 21 (by omega) m c r l hm hc

/-! ### The row numbers of the strip, and the strip itself -/

/-- Lane l of the lane-number row holds the word of l. -/
theorem s1_lanes_apply (l : Fin 128) : lanes (ix2 (0 : Fin 1) l) = BitVec.ofNat 32 l.val := by
  show BitVec.ofNat 32 (0 * 128 + l.val) = _
  rw [Nat.zero_mul, Nat.zero_add]

/-- The row number the second strip of chunk k compares against at lane l: 512·k + 128 + l, as a word. -/
theorem s1_ids_apply (k : Fin k0_t1_loop.trips) (l : Fin 128) :
    k0_pay14 lanes (chunkBase k) (ix2 0 l) = BitVec.ofNat 32 (512 * k.val + (128 + l.val)) := by
  show lanes (ix2 (0 : Fin 1) l) + ((0#32 + BitVec.ofNat 32 k.val * 1#32) * 512#32 + 128#32) = _
  rw [s1_lanes_apply, BitVec.zero_add, BitVec.mul_one, BitVec.ofNat_add, BitVec.ofNat_add, BitVec.ofNat_mul]
  rw [BitVec.mul_comm (BitVec.ofNat 32 k.val) 512#32, BitVec.add_comm (BitVec.ofNat 32 l.val), BitVec.add_assoc]

/-- Entry (r, l) of the strip counts how many of row r's 29 index words equal the row number 512·k + 128 + l. -/
theorem strip1_apply (x0 : Vec Ideal S256x32 .i32) (k : Fin k0_t1_loop.trips) (r : Fin 256) (l : Fin 128) :
    strip1 (F := Ideal) x0 lanes k (ix2 r l)
      = Cert.Spec.cnt (rowWords x0 r) (BitVec.ofNat 32 (512 * k.val + (128 + l.val))) := by
  rw [← s1_ids_apply k l, ← Cert.Spec.cntTo_full]
  exact s1_pay20_cnt x0 _ _ _ r l
    (s1_pay18_cnt x0 _ _ r l
      (s1_pay17_cnt x0 _ _ _ r l (s1_pay15_cnt x0 lanes (chunkBase k) r l) (s1_pay16_apply x0 lanes (chunkBase k) r l)))
    (s1_pay19_apply x0 _ r l)

end Cert.KernelIdeal.Hand

end
-- ==== Proof.Strip2.lean ====
/-
  The third strip of a chunk's count matrix, read at an entry.

  The strip is built by 29 compare-and-count steps: step j compares column j of the index block, spread over
  the 128 lanes, with the lanes' row numbers, and adds one where they agree. Read at one entry (r, l), step j
  turns the running count of row r's first j words against lane l's row number into the running count of the
  first j + 1 words; after 29 steps that is the full count. Lane l's row number in chunk k is 512·k + 256 + l.
-/
import proofs.«420469_j76742475645269_2_alg».proof.Proof.KDefs
import proofs.«420469_j76742475645269_2_alg».proof.Proof.Spec
import proofs.«420469_j76742475645269_2_alg».proof.Proof.Algebra
import Idealize.ShloMosaic.Lib.ValueLayout
import Idealize.ShloMosaic.Lib.Pipeline.Value
import Idealize.ShloMosaic.Lib.StableHlo.Predicate

noncomputable section

namespace Cert.KernelIdeal.Hand

open Idealize.ShloMosaic Idealize.ShloMosaic.ValueIdx Cert.KernelIdeal Cert.KernelIdeal.Gen
open scoped BigOperators

/-- The bf16 pattern 0x3F80 is the number one. -/
theorem s2_bf16_one : (Scalar.ofBits (F := Ideal) .bf16 0x3F80#16 : Ideal .bf16) = (1 : EReal) := by
  show Ideal.ofBits .bf16 0x3F80#16 = 1
  simp [Ideal.ofBits, Ideal.ieee, -EReal.coe_mul]; norm_num

/-- The bf16 pattern 0x0000 is the number zero. -/
theorem s2_bf16_zero : (Scalar.ofBits (F := Ideal) .bf16 0x0000#16 : Ideal .bf16) = (0 : EReal) := by
  show Ideal.ofBits .bf16 0x0000#16 = 0
  simp [Ideal.ofBits, Ideal.ieee]

section Chain
variable {F : FTy → Type} [FloatOps F]

/-- One compare-and-count step against column o of the index block. -/
def s2_stepAt (v1 : IVec S256x29 32) (ids : IVec S1x128 32) (o : Nat) (h : S256x29.Slices ![0, o] S256x1)
    (c : FVec F S256x128 .bf16) : FVec F S256x128 .bf16 :=
  select (cmpi .eq (broadcastTo S256x128 (extractStridedSlice S256x1 ![0, o] v1 h) broadcasts_S256x1_S256x128)
      (broadcastTo S256x128 ids broadcasts_S1x128_S256x128))
    (addf c (broadcast S256x128 (Scalar.ofBits .bf16 0x3F80#16))) c

/-- Steps 0 to 5, from the zero block. -/
theorem s2_pay22_eq (v1 : IVec S256x29 32) (v2 : IVec S1x128 32) (v42 : BitVec 32) :
    k0_pay22 (F := F) v1 v2 v42
      = s2_stepAt v1 (k0_pay21 v2 v42) 5 slices_S256x29_o0_5_S256x1
        (s2_stepAt v1 (k0_pay21 v2 v42) 4 slices_S256x29_o0_4_S256x1
        (s2_stepAt v1 (k0_pay21 v2 v42) 3 slices_S256x29_o0_3_S256x1
        (s2_stepAt v1 (k0_pay21 v2 v42) 2 slices_S256x29_o0_2_S256x1
        (s2_stepAt v1 (k0_pay21 v2 v42) 1 slices_S256x29_o0_1_S256x1
        (s2_stepAt v1 (k0_pay21 v2 v42) 0 slices_S256x29_o0_0_S256x1
        (broadcast S256x128 (Scalar.ofBits .bf16 0x0000#16))))))) := rfl

/-- Steps 6 to 13. -/
theorem s2_pay25_eq (v1 : IVec S256x29 32) (v2 : IVec S1x128 32) (v42 : BitVec 32) (c : FVec F S256x128 .bf16) :
    k0_pay25 (F := F) v1 (k0_pay21 v2 v42) c (k0_pay23 v1 v2 v42) k0_pay24
      = s2_stepAt v1 (k0_pay21 v2 v42) 13 slices_S256x29_o0_13_S256x1
        (s2_stepAt v1 (k0_pay21 v2 v42) 12 slices_S256x29_o0_12_S256x1
        (s2_stepAt v1 (k0_pay21 v2 v42) 11 slices_S256x29_o0_11_S256x1
        (s2_stepAt v1 (k0_pay21 v2 v42) 10 slices_S256x29_o0_10_S256x1
        (s2_stepAt v1 (k0_pay21 v2 v42) 9 slices_S256x29_o0_9_S256x1
        (s2_stepAt v1 (k0_pay21 v2 v42) 8 slices_S256x29_o0_8_S256x1
        (s2_stepAt v1 (k0_pay21 v2 v42) 7 slices_S256x29_o0_7_S256x1
        (s2_stepAt v1 (k0_pay21 v2 v42) 6 slices_S256x29_o0_6_S256x1
        c))))))) := rfl

/-- Steps 14 to 20. -/
theorem s2_pay27_eq (v1 : IVec S256x29 32) (ids : IVec S1x128 32) (c : FVec F S256x128 .bf16) :
    k0_pay27 (F := F) v1 ids c (k0_pay26 v1)
      = s2_stepAt v1 ids 20 slices_S256x29_o0_20_S256x1
        (s2_stepAt v1 ids 19 slices_S256x29_o0_19_S256x1
        (s2_stepAt v1 ids 18 slices_S256x29_o0_18_S256x1
        (s2_stepAt v1 ids 17 slices_S256x29_o0_17_S256x1
        (s2_stepAt v1 ids 16 slices_S256x29_o0_16_S256x1
        (s2_stepAt v1 ids 15 slices_S256x29_o0_15_S256x1
        (s2_stepAt v1 ids 14 slices_S256x29_o0_14_S256x1
        c)))))) := rfl

/-- Steps 21 to 28. -/
theorem s2_pay30_eq (v1 : IVec S256x29 32) (ids : IVec S1x128 32) (c : FVec F S256x128 .bf16) :
    k0_pay30 (F := F) v1 ids c (k0_pay28 v1 ids) k0_pay29
      = s2_stepAt v1 ids 28 slices_S256x29_o0_28_S256x1
        (s2_stepAt v1 ids 27 slices_S256x29_o0_27_S256x1
        (s2_stepAt v1 ids 26 slices_S256x29_o0_26_S256x1
        (s2_stepAt v1 ids 25 slices_S256x29_o0_25_S256x1
        (s2_stepAt v1 ids 24 slices_S256x29_o0_24_S256x1
        (s2_stepAt v1 ids 23 slices_S256x29_o0_23_S256x1
        (s2_stepAt v1 ids 22 slices_S256x29_o0_22_S256x1
        (s2_stepAt v1 ids 21 slices_S256x29_o0_21_S256x1
        c))))))) := rfl

end Chain

/-- A column of the index block, spread over the 128 lanes, reads its row's word. -/
theorem s2_col_bcast_apply (v1 : IVec S256x29 32) (o : Nat) (h : S256x29.Slices ![0, o] S256x1) (j : Fin 29) (hj : j.val = o)
    (r : Fin 256) (l : Fin 128) :
    broadcastTo S256x128 (extractStridedSlice S256x1 ![0, o] v1 h) broadcasts_S256x1_S256x128 (ix2 r l) = v1 (ix2 r j) := by
  refine (broadcastTo_apply _ broadcasts_S256x1_S256x128 (ix2 r l) (ix2 r (0 : Fin 1)) fun ax => ?_).trans ?_
  · match ax with
    | ⟨0, _⟩ => rfl
    | ⟨1, _⟩ => rfl
  · exact slice2_axis1_apply o v1 h r (0 : Fin 1) j (by simp [hj])

/-- The 29 leading columns of the [256 × 32] index block. -/
theorem s2_pay37_apply (x0 : Vec Ideal S256x32 .i32) (r : Fin 256) (j : Fin 29) :
    k0_pay37 x0 (ix2 r j) = rowWords x0 r j := by
  unfold k0_pay37 rowWords
  exact slice2_axis1_apply 0 x0 slices_S256x32_o0_0_S256x29 r j ⟨j.val, by have := j.isLt; omega⟩ (by simp)

/-- One step carries the running count from n to n + 1 words. -/
theorem s2_stepAt_cnt (x0 : Vec Ideal S256x32 .i32) (ids : IVec S1x128 32) (r : Fin 256) (l : Fin 128)
    (n : Nat) (hn : n < 29) (h : S256x29.Slices ![0, n] S256x1) (c : FVec Ideal S256x128 .bf16)
    (hc : c (ix2 r l) = Cert.Spec.cntTo (rowWords x0 r) (ids (ix2 (0 : Fin 1) l)) n) :
    s2_stepAt (k0_pay37 x0) ids n h c (ix2 r l) = Cert.Spec.cntTo (rowWords x0 r) (ids (ix2 (0 : Fin 1) l)) (n + 1) := by
  unfold s2_stepAt
  rw [select_apply, addf_apply, broadcast_apply, s2_bf16_one, hc]
  show Scalar.select (IntOp.cmpi .eq (broadcastTo S256x128 _ broadcasts_S256x1_S256x128 (ix2 r l))
      (broadcastTo S256x128 ids broadcasts_S1x128_S256x128 (ix2 r l))) _ _ = _
  rw [s2_col_bcast_apply (k0_pay37 x0) n h ⟨n, hn⟩ rfl r l, broadcastTo_1b_ab_apply, s2_pay37_apply]
  rw [Cert.Spec.cntTo, dif_pos hn]
  by_cases he : rowWords x0 r ⟨n, hn⟩ = ids (ix2 (0 : Fin 1) l)
  · rw [if_pos he, StableHlo.Predicate.cmpi_eq_iff.2 he, select_one]
  · rw [if_neg he, eq_zero_of_ne_one (fun hb => he (StableHlo.Predicate.cmpi_eq_iff.1 hb)), select_zero]

/-- The row number the third strip of chunk k holds at lane l. -/
theorem s2_ids_apply (k : Fin k0_t1_loop.trips) (l : Fin 128) :
    k0_pay21 lanes (chunkBase k) (ix2 (0 : Fin 1) l) = BitVec.ofNat 32 (512 * k.val + (256 + l.val)) := by
  have hk : k.val < 29 := Nat.lt_of_lt_of_le k.isLt k0_t1_abs.2.1
  have hl := l.isLt
  unfold k0_pay21
  show IntOp.addi (lanes (ix2 (0 : Fin 1) l)) (Scalar.addi (chunkBase k) 256#32) = _
  rw [show lanes (ix2 (0 : Fin 1) l) = BitVec.ofNat 32 l.val from
    iota_single_apply .tc S1x128 32 1 iota_S1x128_d1_w32 _]
  show BitVec.ofNat 32 l.val + ((0#32 + BitVec.ofNat 32 k.val * 1#32) * 512#32 + 256#32) = _
  apply BitVec.eq_of_toNat_eq
  simp only [BitVec.toNat_add, BitVec.toNat_mul, BitVec.toNat_ofNat]
  omega

/-- Entry (r, l) of the strip counts how many of row r's 29 index words equal the row number 512·k + 256 + l. -/
theorem strip2_apply (x0 : Vec Ideal S256x32 .i32) (k : Fin k0_t1_loop.trips) (r : Fin 256) (l : Fin 128) :
    strip2 (F := Ideal) x0 lanes k (ix2 r l)
      = Cert.Spec.cnt (rowWords x0 r) (BitVec.ofNat 32 (512 * k.val + (256 + l.val))) := by
  unfold strip2
  rw [s2_pay30_eq, s2_pay27_eq, s2_pay25_eq, s2_pay22_eq, ← Cert.Spec.cntTo_full, ← s2_ids_apply k l]
  have h0 : (broadcast S256x128 (Scalar.ofBits (F := Ideal) .bf16 0x0000#16) : FVec Ideal S256x128 .bf16) (ix2 r l)
      = Cert.Spec.cntTo (rowWords x0 r) (k0_pay21 lanes (chunkBase k) (ix2 (0 : Fin 1) l)) 0 := by
    rw [broadcast_apply, s2_bf16_zero]; rfl
  exact s2_stepAt_cnt x0 _ r l 28 (by decide) _ _
    (s2_stepAt_cnt x0 _ r l 27 (by decide) _ _
    (s2_stepAt_cnt x0 _ r l 26 (by decide) _ _
    (s2_stepAt_cnt x0 _ r l 25 (by decide) _ _
    (s2_stepAt_cnt x0 _ r l 24 (by decide) _ _
    (s2_stepAt_cnt x0 _ r l 23 (by decide) _ _
    (s2_stepAt_cnt x0 _ r l 22 (by decide) _ _
    (s2_stepAt_cnt x0 _ r l 21 (by decide) _ _
    (s2_stepAt_cnt x0 _ r l 20 (by decide) _ _
    (s2_stepAt_cnt x0 _ r l 19 (by decide) _ _
    (s2_stepAt_cnt x0 _ r l 18 (by decide) _ _
    (s2_stepAt_cnt x0 _ r l 17 (by decide) _ _
    (s2_stepAt_cnt x0 _ r l 16 (by decide) _ _
    (s2_stepAt_cnt x0 _ r l 15 (by decide) _ _
    (s2_stepAt_cnt x0 _ r l 14 (by decide) _ _
    (s2_stepAt_cnt x0 _ r l 13 (by decide) _ _
    (s2_stepAt_cnt x0 _ r l 12 (by decide) _ _
    (s2_stepAt_cnt x0 _ r l 11 (by decide) _ _
    (s2_stepAt_cnt x0 _ r l 10 (by decide) _ _
    (s2_stepAt_cnt x0 _ r l 9 (by decide) _ _
    (s2_stepAt_cnt x0 _ r l 8 (by decide) _ _
    (s2_stepAt_cnt x0 _ r l 7 (by decide) _ _
    (s2_stepAt_cnt x0 _ r l 6 (by decide) _ _
    (s2_stepAt_cnt x0 _ r l 5 (by decide) _ _
    (s2_stepAt_cnt x0 _ r l 4 (by decide) _ _
    (s2_stepAt_cnt x0 _ r l 3 (by decide) _ _
    (s2_stepAt_cnt x0 _ r l 2 (by decide) _ _
    (s2_stepAt_cnt x0 _ r l 1 (by decide) _ _
    (s2_stepAt_cnt x0 _ r l 0 (by decide) _ _
    h0))))))))))))))))))))))))))))

end Cert.KernelIdeal.Hand

end
-- ==== Proof.CountFull.lean ====
/-
  A chunk's whole count matrix, read at an entry: the four strips side by side.

  The fourth strip is a chain of 29 compare-and-select steps: step n adds one to the running value exactly where
  index word n of the batch row equals the lane's row number, so after n steps the value at (r, l) is the number of
  the first n index words of row r equal to 512·k + 384 + l. The chain is cut over several generated payloads; each
  gets a lemma that advances the running count. The concatenation along the second axis puts strip s at columns
  128·s … 128·s + 127.
-/
import proofs.«420469_j76742475645269_2_alg».proof.Proof.Strip0
import proofs.«420469_j76742475645269_2_alg».proof.Proof.Strip1
import proofs.«420469_j76742475645269_2_alg».proof.Proof.Strip2
import proofs.«420469_j76742475645269_2_alg».proof.Proof.Algebra
import Idealize.ShloMosaic.Lib.Pipeline.Value
import Idealize.ShloMosaic.Lib.StableHlo.Predicate
import Idealize.ShloMosaic.PureOps.IdealRules

noncomputable section

namespace Cert.KernelIdeal.Hand

open Idealize.ShloMosaic Idealize.ShloMosaic.ValueIdx Cert.KernelIdeal Cert.KernelIdeal.Gen
open scoped BigOperators

/-- The bf16 pattern of all zero bits is the number 0. -/
theorem s3_bf16_zero : (Scalar.ofBits .bf16 0x0000#16 : Ideal .bf16) = 0 :=
  IdealRules.sign_bit.ideal_zero .bf16

/-- The bf16 pattern 0x3F80 is the number 1. -/
theorem s3_bf16_one : (Scalar.ofBits .bf16 0x3F80#16 : Ideal .bf16) = 1 :=
  IdealRules.sign_bit.ideal_onePat .bf16

/-- One compare of the chain, read at (r, l): column n of the index block, spread along the lanes, against the
    row of row numbers, spread along the batch rows — the bit says whether index word n of row r is the lane's
    row number. -/
theorem s3_mask_apply (v1 : IVec S256x29 32) (ids : IVec S1x128 32) (n : ℕ) (hn : n < 29)
    (hs : S256x29.Slices ![0, n] S256x1) (r : Fin 256) (l : Fin 128) :
    cmpi .eq (broadcastTo S256x128 (extractStridedSlice S256x1 ![0, n] v1 hs) broadcasts_S256x1_S256x128)
        (broadcastTo S256x128 ids broadcasts_S1x128_S256x128) (ix2 r l)
      = IntOp.cmpi .eq (v1 (ix2 r ⟨n, hn⟩)) (ids (ix2 0 l)) := by
  show IntOp.cmpi .eq
      (broadcastTo S256x128 (extractStridedSlice S256x1 ![0, n] v1 hs) broadcasts_S256x1_S256x128 (ix2 r l))
      (broadcastTo S256x128 ids broadcasts_S1x128_S256x128 (ix2 r l)) = _
  have e1 : broadcastTo S256x128 (extractStridedSlice S256x1 ![0, n] v1 hs) broadcasts_S256x1_S256x128 (ix2 r l)
      = v1 (ix2 r ⟨n, hn⟩) := by
    refine (broadcastTo_apply _ _ (ix2 r l) (ix2 r (0 : Fin 1)) ?_).trans ?_
    · intro a
      match a with
      | ⟨0, _⟩ => rfl
      | ⟨1, _⟩ => rfl
    · refine extractStridedSlice_apply _ v1 hs (ix2 r (0 : Fin 1)) (ix2 r ⟨n, hn⟩) ?_
      intro a
      match a with
      | ⟨0, _⟩ => exact (Nat.zero_add _).symm
      | ⟨1, _⟩ => rfl
  have e2 : broadcastTo S256x128 ids broadcasts_S1x128_S256x128 (ix2 r l) = ids (ix2 (0 : Fin 1) l) := by
    refine broadcastTo_apply _ _ (ix2 r l) (ix2 (0 : Fin 1) l) ?_
    intro a
    match a with
    | ⟨0, _⟩ => rfl
    | ⟨1, _⟩ => rfl
  rw [e1, e2]

/-- One compare-and-select step of the chain, read at (r, l): if the incoming value is the running count after n
    index words and the mask bit compares index word n with the lane's row number, the outgoing value is the
    running count after n + 1. -/
theorem s3_sel_step (ξ : Fin 29 → BitVec 32) (w : BitVec 32) (c : IVec S256x128 1) (prev : FVec Ideal S256x128 .bf16)
    (n : ℕ) (hn : n < 29) (r : Fin 256) (l : Fin 128)
    (hc : c (ix2 r l) = IntOp.cmpi .eq (ξ ⟨n, hn⟩) w)
    (hp : prev (ix2 r l) = Cert.Spec.cntTo ξ w n) :
    select c (addf prev (broadcast S256x128 (Scalar.ofBits .bf16 0x3F80#16))) prev (ix2 r l)
      = Cert.Spec.cntTo ξ w (n + 1) := by
  rw [select_apply, addf_apply, broadcast_apply, hc, hp, s3_bf16_one, Cert.Spec.cntTo, dif_pos hn]
  by_cases h : ξ ⟨n, hn⟩ = w
  · rw [if_pos h, StableHlo.Predicate.cmpi_eq_iff.mpr h, select_one]
  · rw [if_neg h, eq_zero_of_ne_one (fun h1 => h (StableHlo.Predicate.cmpi_eq_iff.mp h1)), select_zero]

/-- A whole step with its compare built in place, read at (r, l). -/
theorem s3_cmp_step (v1 : IVec S256x29 32) (ids : IVec S1x128 32) (prev : FVec Ideal S256x128 .bf16)
    (n : ℕ) (hn : n < 29) (hs : S256x29.Slices ![0, n] S256x1) (r : Fin 256) (l : Fin 128)
    (ξ : Fin 29 → BitVec 32) (hξ : ∀ j, v1 (ix2 r j) = ξ j)
    (hp : prev (ix2 r l) = Cert.Spec.cntTo ξ (ids (ix2 (0 : Fin 1) l)) n) :
    select (cmpi .eq (broadcastTo S256x128 (extractStridedSlice S256x1 ![0, n] v1 hs) broadcasts_S256x1_S256x128)
        (broadcastTo S256x128 ids broadcasts_S1x128_S256x128))
      (addf prev (broadcast S256x128 (Scalar.ofBits .bf16 0x3F80#16))) prev (ix2 r l)
      = Cert.Spec.cntTo ξ (ids (ix2 (0 : Fin 1) l)) (n + 1) :=
  s3_sel_step ξ _ _ prev n hn r l ((s3_mask_apply v1 ids n hn hs r l).trans (by rw [hξ])) hp

/-- The fourth strip's chain from the zero block through index words 0…6. -/
theorem s3_pay32_apply (v1 : IVec S256x29 32) (v2 : IVec S1x128 32) (b : BitVec 32) (r : Fin 256) (l : Fin 128)
    (ξ : Fin 29 → BitVec 32) (hξ : ∀ j, v1 (ix2 r j) = ξ j) :
    k0_pay32 (F := Ideal) v1 v2 b (ix2 r l) = Cert.Spec.cntTo ξ (k0_pay31 v2 b (ix2 (0 : Fin 1) l)) 7 := by
  unfold k0_pay32
  refine s3_cmp_step v1 _ _ 6 (by decide) _ r l ξ hξ ?_
  refine s3_cmp_step v1 _ _ 5 (by decide) _ r l ξ hξ ?_
  refine s3_cmp_step v1 _ _ 4 (by decide) _ r l ξ hξ ?_
  refine s3_cmp_step v1 _ _ 3 (by decide) _ r l ξ hξ ?_
  refine s3_cmp_step v1 _ _ 2 (by decide) _ r l ξ hξ ?_
  refine s3_cmp_step v1 _ _ 1 (by decide) _ r l ξ hξ ?_
  refine s3_cmp_step v1 _ _ 0 (by decide) _ r l ξ hξ ?_
  rw [broadcast_apply, s3_bf16_zero]
  rfl

/-- Index words 7…13. -/
theorem s3_pay33_apply (v1 : IVec S256x29 32) (ids : IVec S1x128 32) (prev : FVec Ideal S256x128 .bf16)
    (r : Fin 256) (l : Fin 128) (ξ : Fin 29 → BitVec 32) (hξ : ∀ j, v1 (ix2 r j) = ξ j)
    (hp : prev (ix2 r l) = Cert.Spec.cntTo ξ (ids (ix2 (0 : Fin 1) l)) 7) :
    k0_pay33 (F := Ideal) v1 ids prev (ix2 r l) = Cert.Spec.cntTo ξ (ids (ix2 (0 : Fin 1) l)) 14 := by
  unfold k0_pay33
  refine s3_cmp_step v1 _ _ 13 (by decide) _ r l ξ hξ ?_
  refine s3_cmp_step v1 _ _ 12 (by decide) _ r l ξ hξ ?_
  refine s3_cmp_step v1 _ _ 11 (by decide) _ r l ξ hξ ?_
  refine s3_cmp_step v1 _ _ 10 (by decide) _ r l ξ hξ ?_
  refine s3_cmp_step v1 _ _ 9 (by decide) _ r l ξ hξ ?_
  refine s3_cmp_step v1 _ _ 8 (by decide) _ r l ξ hξ ?_
  refine s3_cmp_step v1 _ _ 7 (by decide) _ r l ξ hξ ?_
  exact hp

/-- The compare of index word 14, formed ahead of its select. -/
theorem s3_pay34_apply (v1 : IVec S256x29 32) (ids : IVec S1x128 32) (r : Fin 256) (l : Fin 128) :
    k0_pay34 v1 ids (ix2 r l) = IntOp.cmpi .eq (v1 (ix2 r ⟨14, by decide⟩)) (ids (ix2 (0 : Fin 1) l)) := by
  unfold k0_pay34
  exact s3_mask_apply v1 ids 14 (by decide) _ r l

/-- Index words 14…21, the first with the compare handed in. -/
theorem s3_pay35_apply (v1 : IVec S256x29 32) (ids : IVec S1x128 32) (prev : FVec Ideal S256x128 .bf16)
    (c : IVec S256x128 1) (r : Fin 256) (l : Fin 128) (ξ : Fin 29 → BitVec 32) (hξ : ∀ j, v1 (ix2 r j) = ξ j)
    (hc : c (ix2 r l) = IntOp.cmpi .eq (ξ ⟨14, by decide⟩) (ids (ix2 (0 : Fin 1) l)))
    (hp : prev (ix2 r l) = Cert.Spec.cntTo ξ (ids (ix2 (0 : Fin 1) l)) 14) :
    k0_pay35 (F := Ideal) v1 ids prev c (ix2 r l) = Cert.Spec.cntTo ξ (ids (ix2 (0 : Fin 1) l)) 22 := by
  unfold k0_pay35
  refine s3_cmp_step v1 _ _ 21 (by decide) _ r l ξ hξ ?_
  refine s3_cmp_step v1 _ _ 20 (by decide) _ r l ξ hξ ?_
  refine s3_cmp_step v1 _ _ 19 (by decide) _ r l ξ hξ ?_
  refine s3_cmp_step v1 _ _ 18 (by decide) _ r l ξ hξ ?_
  refine s3_cmp_step v1 _ _ 17 (by decide) _ r l ξ hξ ?_
  refine s3_cmp_step v1 _ _ 16 (by decide) _ r l ξ hξ ?_
  refine s3_cmp_step v1 _ _ 15 (by decide) _ r l ξ hξ ?_
  exact s3_sel_step ξ _ c prev 14 (by decide) r l hc hp

/-- The row numbers the fourth strip compares against: lane l holds 512·k + 384 + l. -/
theorem s3_ids3_apply (k : Fin k0_t1_loop.trips) (l : Fin 128) :
    ids3 lanes k (ix2 (0 : Fin 1) l) = BitVec.ofNat 32 (512 * k.val + (384 + l.val)) := by
  show IntOp.addi (BitVec.ofNat 32 (0 * 128 + l.val))
      (IntOp.addi (IntOp.muli (0#32 + BitVec.ofNat 32 k.val * 1#32) 512#32) 384#32) = _
  apply BitVec.eq_of_toNat_eq
  simp only [IntOp.addi, IntOp.muli, BitVec.toNat_add, BitVec.toNat_mul, BitVec.toNat_ofNat]
  omega

/-- The index block's first 29 columns, read at (r, j): index word j of row r. -/
theorem s3_pay37_apply (x0 : Vec Ideal S256x32 .i32) (r : Fin 256) (j : Fin 29) :
    k0_pay37 (F := Ideal) x0 (ix2 r j) = rowWords x0 r j := by
  unfold k0_pay37 rowWords
  refine extractStridedSlice_apply _ x0 _ (ix2 r j) (ix2 r ⟨j.val, by have := j.isLt; omega⟩) ?_
  intro a
  match a with
  | ⟨0, _⟩ => exact (Nat.zero_add _).symm
  | ⟨1, _⟩ => exact (Nat.zero_add _).symm

/-- The fourth strip after index words 0…21. -/
theorem s3_strip3part_apply (x0 : Vec Ideal S256x32 .i32) (k : Fin k0_t1_loop.trips) (r : Fin 256) (l : Fin 128) :
    strip3part (F := Ideal) x0 lanes k (ix2 r l)
      = Cert.Spec.cntTo (rowWords x0 r) (ids3 lanes k (ix2 (0 : Fin 1) l)) 22 := by
  unfold strip3part
  refine s3_pay35_apply _ _ _ _ r l _ (s3_pay37_apply x0 r) ?_ ?_
  · exact (s3_pay34_apply _ _ r l).trans (by rw [s3_pay37_apply])
  · exact s3_pay33_apply _ _ _ r l _ (s3_pay37_apply x0 r) (s3_pay32_apply _ _ _ r l _ (s3_pay37_apply x0 r))

/-- Columns 0…127 of the concatenation are the first strip. -/
theorem s3_pay36_piece0 (v1 : IVec S256x29 32) (ids : IVec S1x128 32) (s0 s1 s2 s3p : FVec Ideal S256x128 .bf16)
    (r : Fin 256) (q : Fin 512) (l : Fin 128) (hq : q.val = 0 + l.val) :
    k0_pay36 (F := Ideal) v1 s0 s1 s2 ids s3p (ix2 r q) = s0 (ix2 r l) := by
  unfold k0_pay36
  refine concatenate_apply_piece _ _ _ (ix2 r q) 0 (by exact (show 0 < 4 by decide)) S256x128 _ (by rfl) (by rfl) 0 (by rfl) (ix2 r l) ?_ ?_
  · intro b hb
    match b, hb with
    | ⟨0, _⟩, _ => rfl
    | ⟨1, _⟩, hb => exact absurd rfl hb
  · exact hq.symm

/-- Columns 128…255 of the concatenation are the second strip. -/
theorem s3_pay36_piece1 (v1 : IVec S256x29 32) (ids : IVec S1x128 32) (s0 s1 s2 s3p : FVec Ideal S256x128 .bf16)
    (r : Fin 256) (q : Fin 512) (l : Fin 128) (hq : q.val = 128 + l.val) :
    k0_pay36 (F := Ideal) v1 s0 s1 s2 ids s3p (ix2 r q) = s1 (ix2 r l) := by
  unfold k0_pay36
  refine concatenate_apply_piece _ _ _ (ix2 r q) 1 (by exact (show 1 < 4 by decide)) S256x128 _ (by rfl) (by rfl) 128 (by rfl) (ix2 r l) ?_ ?_
  · intro b hb
    match b, hb with
    | ⟨0, _⟩, _ => rfl
    | ⟨1, _⟩, hb => exact absurd rfl hb
  · exact hq.symm

/-- Columns 256…383 of the concatenation are the third strip. -/
theorem s3_pay36_piece2 (v1 : IVec S256x29 32) (ids : IVec S1x128 32) (s0 s1 s2 s3p : FVec Ideal S256x128 .bf16)
    (r : Fin 256) (q : Fin 512) (l : Fin 128) (hq : q.val = 256 + l.val) :
    k0_pay36 (F := Ideal) v1 s0 s1 s2 ids s3p (ix2 r q) = s2 (ix2 r l) := by
  unfold k0_pay36
  refine concatenate_apply_piece _ _ _ (ix2 r q) 2 (by exact (show 2 < 4 by decide)) S256x128 _ (by rfl) (by rfl) 256 (by rfl) (ix2 r l) ?_ ?_
  · intro b hb
    match b, hb with
    | ⟨0, _⟩, _ => rfl
    | ⟨1, _⟩, hb => exact absurd rfl hb
  · exact hq.symm

/-- The last piece of the concatenation is the fourth strip with its remaining index words 22…28 counted in. -/
theorem s3_pay36_piece3 (v1 : IVec S256x29 32) (ids : IVec S1x128 32) (s0 s1 s2 s3p : FVec Ideal S256x128 .bf16)
    (r : Fin 256) (q : Fin 512) (l : Fin 128) (hq : q.val = 384 + l.val)
    (ξ : Fin 29 → BitVec 32) (hξ : ∀ j, v1 (ix2 r j) = ξ j)
    (hp : s3p (ix2 r l) = Cert.Spec.cntTo ξ (ids (ix2 (0 : Fin 1) l)) 22) :
    k0_pay36 (F := Ideal) v1 s0 s1 s2 ids s3p (ix2 r q) = Cert.Spec.cntTo ξ (ids (ix2 (0 : Fin 1) l)) 29 := by
  unfold k0_pay36
  refine (concatenate_apply_piece _ _ _ (ix2 r q) 3 (by exact (show 3 < 4 by decide)) S256x128 _ (by rfl) (by rfl) 384 (by rfl) (ix2 r l) ?_ ?_).trans ?_
  · intro b hb
    match b, hb with
    | ⟨0, _⟩, _ => rfl
    | ⟨1, _⟩, hb => exact absurd rfl hb
  · exact hq.symm
  refine s3_cmp_step v1 _ _ 28 (by decide) _ r l ξ hξ ?_
  refine s3_cmp_step v1 _ _ 27 (by decide) _ r l ξ hξ ?_
  refine s3_cmp_step v1 _ _ 26 (by decide) _ r l ξ hξ ?_
  refine s3_cmp_step v1 _ _ 25 (by decide) _ r l ξ hξ ?_
  refine s3_cmp_step v1 _ _ 24 (by decide) _ r l ξ hξ ?_
  refine s3_cmp_step v1 _ _ 23 (by decide) _ r l ξ hξ ?_
  refine s3_cmp_step v1 _ _ 22 (by decide) _ r l ξ hξ ?_
  exact hp

/-- Entry (r, q) of the chunk's count matrix counts how many of row r's 29 index words equal the row number 512·k + q. -/
theorem countFull_apply (x0 : Vec Ideal S256x32 .i32) (k : Fin k0_t1_loop.trips) (r : Fin 256) (q : Fin 512) :
    countFull (F := Ideal) x0 lanes k (ix2 r q)
      = Cert.Spec.cnt (rowWords x0 r) (BitVec.ofNat 32 (512 * k.val + q.val)) := by
  unfold countFull
  by_cases h0 : q.val < 128
  · exact (s3_pay36_piece0 _ _ _ _ _ _ r q ⟨q.val, h0⟩ (Nat.zero_add _).symm).trans (strip0_apply x0 k r _)
  · by_cases h1 : q.val < 256
    · have hq : q.val = 128 + (q.val - 128) := by omega
      refine (s3_pay36_piece1 _ _ _ _ _ _ r q ⟨q.val - 128, by omega⟩ hq).trans ((strip1_apply x0 k r _).trans ?_)
      exact congrArg (fun n => Cert.Spec.cnt (rowWords x0 r) (BitVec.ofNat 32 (512 * k.val + n))) hq.symm
    · by_cases h2 : q.val < 384
      · have hq : q.val = 256 + (q.val - 256) := by omega
        refine (s3_pay36_piece2 _ _ _ _ _ _ r q ⟨q.val - 256, by omega⟩ hq).trans ((strip2_apply x0 k r _).trans ?_)
        exact congrArg (fun n => Cert.Spec.cnt (rowWords x0 r) (BitVec.ofNat 32 (512 * k.val + n))) hq.symm
      · have hq : q.val = 384 + (q.val - 384) := by have := q.isLt; omega
        refine (s3_pay36_piece3 _ _ _ _ _ _ r q ⟨q.val - 384, by have := q.isLt; omega⟩ hq (rowWords x0 r)
          (s3_pay37_apply x0 r) (s3_strip3part_apply x0 k r _)).trans ?_
        rw [s3_ids3_apply, Cert.Spec.cntTo_full]
        exact congrArg (fun n => Cert.Spec.cnt (rowWords x0 r) (BitVec.ofNat 32 (512 * k.val + n))) hq.symm

end Cert.KernelIdeal.Hand

end
-- ==== Proof.AccValue.lean ====
/-
  The accumulator after n trips, read at an entry: the sum of the first n chunks' contributions.
-/
import proofs.«420469_j76742475645269_2_alg».proof.Proof.CountFull
import Idealize.ShloMosaic.PureOps.Ideal.Laws
import Idealize.ShloMosaic.Lib.Pipeline.Value

noncomputable section

namespace Cert.KernelIdeal.Hand

open Idealize.ShloMosaic Idealize.ShloMosaic.ValueIdx Cert.KernelIdeal Cert.KernelIdeal.Gen
open scoped BigOperators

/-- The chunk loop runs from 0 to 0 + 29 in steps of 1: 29 trips. -/
theorem chunkLoop_trips : k0_t1_loop.trips = 29 := by decide

/-! ### The operand indices of the [256 × 512] · [512 × 128] product

At output entry i and contraction index q, the left operand is read at (i₀, q) and the right operand at
(q, i₁). -/

theorem lhs_countDot_0 (i : S256x128.Idx) (q : dot_S256x512_S512x128_S256x128_1_0_0_1_n_n.contr.Idx) :
    (dot_S256x512_S512x128_S256x128_1_0_0_1_n_n.lhsIdx i q 0).val = (i 0).val := by
  unfold DotDims.lhsIdx
  rw [dif_neg (show ¬(0 : Fin S256x512.rank) ∈ dot_S256x512_S512x128_S256x128_1_0_0_1_n_n.lhsBatch by decide), dif_pos (show (0 : Fin S256x512.rank) ∈ dot_S256x512_S512x128_S256x128_1_0_0_1_n_n.lhsNonContracting by decide)]
  rfl
theorem lhs_countDot_1 (i : S256x128.Idx) (q : dot_S256x512_S512x128_S256x128_1_0_0_1_n_n.contr.Idx) :
    (dot_S256x512_S512x128_S256x128_1_0_0_1_n_n.lhsIdx i q 1).val = (q ⟨0, by decide⟩).val :=
  dot_S256x512_S512x128_S256x128_1_0_0_1_n_n.lhsIdx_val_of_single rfl i q
theorem rhs_countDot_0 (i : S256x128.Idx) (q : dot_S256x512_S512x128_S256x128_1_0_0_1_n_n.contr.Idx) :
    (dot_S256x512_S512x128_S256x128_1_0_0_1_n_n.rhsIdx i q 0).val = (q ⟨0, by decide⟩).val :=
  dot_S256x512_S512x128_S256x128_1_0_0_1_n_n.rhsIdx_val_of_single rfl i q
theorem rhs_countDot_1 (i : S256x128.Idx) (q : dot_S256x512_S512x128_S256x128_1_0_0_1_n_n.contr.Idx) :
    (dot_S256x512_S512x128_S256x128_1_0_0_1_n_n.rhsIdx i q 1).val = (i 1).val := by
  unfold DotDims.rhsIdx
  rw [dif_neg (show ¬(1 : Fin S512x128.rank) ∈ dot_S256x512_S512x128_S256x128_1_0_0_1_n_n.rhsBatch by decide), dif_pos (show (1 : Fin S512x128.rank) ∈ dot_S256x512_S512x128_S256x128_1_0_0_1_n_n.rhsNonContracting by decide)]
  rfl

/-- The product into the zero block, read at entry (r, d): the sum over the 512 inner positions q of
    (left operand at (r, q)) · (right operand at (q, d)). -/
theorem countDot_zero_apply (A : FVec Ideal S256x512 .bf16) (B : FVec Ideal S512x128 .bf16) (r : Fin 256) (d : Fin 128) :
    matmul dot_S256x512_S512x128_S256x128_1_0_0_1_n_n none A B (constant (F := Ideal) S256x128 .f32 0x00000000#32) (ix2 r d)
      = ∑ q : Fin 512, A (ix2 r q) * B (ix2 q d) := by
  simp only [matmul]
  rw [Ideal.matmul_constant_zero_apply, ← Equiv.sum_comp (ValueIdx.contrEquiv1 dot_S256x512_S512x128_S256x128_1_0_0_1_n_n 512 rfl rfl).symm]
  refine Finset.sum_congr rfl fun k _ => ?_
  have hk := ValueIdx.contrEquiv1_symm_val dot_S256x512_S512x128_S256x128_1_0_0_1_n_n 512 rfl rfl k
  have el : dot_S256x512_S512x128_S256x128_1_0_0_1_n_n.lhsIdx (ix2 r d) ((ValueIdx.contrEquiv1 dot_S256x512_S512x128_S256x128_1_0_0_1_n_n 512 rfl rfl).symm k) = ix2 r k := funext fun a => Fin.ext (by
    match a with
    | ⟨0, _⟩ => exact lhs_countDot_0 _ _
    | ⟨1, _⟩ => exact (lhs_countDot_1 _ _).trans hk)
  have er : dot_S256x512_S512x128_S256x128_1_0_0_1_n_n.rhsIdx (ix2 r d) ((ValueIdx.contrEquiv1 dot_S256x512_S512x128_S256x128_1_0_0_1_n_n 512 rfl rfl).symm k) = ix2 k d := funext fun a => Fin.ext (by
    match a with
    | ⟨0, _⟩ => exact (rhs_countDot_0 _ _).trans hk
    | ⟨1, _⟩ => exact rhs_countDot_1 _ _)
  rw [el, er]

/-- One trip's update read at entry (r, d): the old entry plus the two inner products of row r of the count matrix
    with column d of the two row blocks. -/
theorem tripUpdate_apply (acc : FVec Ideal S256x128 .f32) (C : FVec Ideal S256x512 .bf16) (R1 R2 : Vec Ideal S512x128 .bf16)
    (r : Fin 256) (d : Fin 128) :
    k0_pay39 (F := Ideal) acc C R1 R2 (ix2 r d)
      = acc (ix2 r d) + ((∑ q : Fin 512, C (ix2 r q) * R1 (ix2 q d)) + (∑ q : Fin 512, C (ix2 r q) * R2 (ix2 q d))) := by
  unfold k0_pay39
  simp only [shapeCast_self]
  rw [addf_apply, addf_apply, countDot_zero_apply, countDot_zero_apply]

/-- Row q of trip k's block of a table, at column d, is the table's column d at row 512·k + q. -/
theorem rows512_apply (X : Vec Ideal S14848x128 .bf16) (k : Fin k0_t1_loop.trips) (q : Fin 512) (d : Fin 128) :
    rows512 (F := Ideal) X k (ix2 q d) = tabCol X d (512 * k.val + q.val) := by
  have hk : k.val < 29 := Nat.lt_of_lt_of_le k.isLt k0_t1_abs.2.1
  have hq : q.val < 512 := q.isLt
  have hlt : 512 * k.val + q.val < 14848 := by omega
  unfold rows512 tabCol
  rw [dif_pos hlt]

/-- Entry (r, d) of the accumulator after n ≤ 29 trips is the sum over the first n chunks of
    (counts of the chunk's row numbers) · (column d of the two tables). -/
theorem accAfter_apply (x0 : Vec Ideal S256x32 .i32) (x1 x2 : Vec Ideal S14848x128 .bf16) (n : ℕ) (hn : n ≤ 29)
    (r : Fin 256) (d : Fin 128) :
    accAfter (F := Ideal) x0 x1 x2 n (ix2 r d)
      = ∑ k ∈ Finset.range n, Cert.Spec.chunkTerm (rowWords x0 r) (tabCol x1 d) (tabCol x2 d) k := by
  induction n with
  | zero =>
    -- no trip yet: the zero block, and the empty sum
    rw [Finset.range_zero, Finset.sum_empty]
    show Ideal.ofBits .f32 0x00000000#32 = 0
    exact Ideal.ofBits_zero_f32
  | succ n ih =>
    have hlt : n < k0_t1_loop.trips := by rw [chunkLoop_trips]; omega
    have hstep : accAfter (F := Ideal) x0 x1 x2 (n + 1)
        = k0_pay39 (accAfter x0 x1 x2 n) (countFull x0 lanes ⟨n, hlt⟩) (rows512 x1 ⟨n, hlt⟩) (rows512 x2 ⟨n, hlt⟩) := by
      rw [accAfter, dif_pos hlt]
    rw [hstep, tripUpdate_apply, ih (by omega), Finset.sum_range_succ]
    congr 1
    unfold Cert.Spec.chunkTerm
    congr 1
    · refine Finset.sum_congr rfl fun q _ => ?_
      rw [countFull_apply, rows512_apply]
    · refine Finset.sum_congr rfl fun q _ => ?_
      rw [countFull_apply, rows512_apply]

end Cert.KernelIdeal.Hand

end
-- ==== Proof.Mlp.lean ====
/-
  The layers after the accumulator, read at an entry of the output row: for batch row r they are the
  specification's network applied to row r of the accumulator.
-/
import proofs.«420469_j76742475645269_2_alg».proof.Proof.KDefs
import proofs.«420469_j76742475645269_2_alg».proof.Proof.Spec
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen
open scoped BigOperators

/-! ## The three products' operand indices

For each product, at output index j and contraction position q, the coordinates of the two operand indices. -/

/-- First product, [256,128] by [128,32]: the left operand's row is the output's row. -/
theorem dotA_lhs0 (j : S256x32.Idx) (q : dot_S256x128_S128x32_S256x32_1_0_0_1_n_n.contr.Idx) :
    (dot_S256x128_S128x32_S256x32_1_0_0_1_n_n.lhsIdx j q 0).val = (j 0).val := by
  unfold DotDims.lhsIdx
  rw [dif_neg (show ¬(0 : Fin S256x128.rank) ∈ dot_S256x128_S128x32_S256x32_1_0_0_1_n_n.lhsBatch by decide),
    dif_pos (show (0 : Fin S256x128.rank) ∈ dot_S256x128_S128x32_S256x32_1_0_0_1_n_n.lhsNonContracting by decide)]
  rfl
/-- Its column is the contraction position. -/
theorem dotA_lhs1 (j : S256x32.Idx) (q : dot_S256x128_S128x32_S256x32_1_0_0_1_n_n.contr.Idx) :
    (dot_S256x128_S128x32_S256x32_1_0_0_1_n_n.lhsIdx j q 1).val = (q ⟨0, by decide⟩).val :=
  dot_S256x128_S128x32_S256x32_1_0_0_1_n_n.lhsIdx_val_of_single rfl j q
/-- The right operand's row is the contraction position. -/
theorem dotA_rhs0 (j : S256x32.Idx) (q : dot_S256x128_S128x32_S256x32_1_0_0_1_n_n.contr.Idx) :
    (dot_S256x128_S128x32_S256x32_1_0_0_1_n_n.rhsIdx j q 0).val = (q ⟨0, by decide⟩).val :=
  dot_S256x128_S128x32_S256x32_1_0_0_1_n_n.rhsIdx_val_of_single rfl j q
/-- Its column is the output's column. -/
theorem dotA_rhs1 (j : S256x32.Idx) (q : dot_S256x128_S128x32_S256x32_1_0_0_1_n_n.contr.Idx) :
    (dot_S256x128_S128x32_S256x32_1_0_0_1_n_n.rhsIdx j q 1).val = (j 1).val := by
  unfold DotDims.rhsIdx
  rw [dif_neg (show ¬(1 : Fin S128x32.rank) ∈ dot_S256x128_S128x32_S256x32_1_0_0_1_n_n.rhsBatch by decide),
    dif_pos (show (1 : Fin S128x32.rank) ∈ dot_S256x128_S128x32_S256x32_1_0_0_1_n_n.rhsNonContracting by decide)]
  rfl

/-- Second product, [256,64] by [64,32]: the left operand's row is the output's row. -/
theorem dotB_lhs0 (j : S256x32.Idx) (q : dot_S256x64_S64x32_S256x32_1_0_0_1_n_n.contr.Idx) :
    (dot_S256x64_S64x32_S256x32_1_0_0_1_n_n.lhsIdx j q 0).val = (j 0).val := by
  unfold DotDims.lhsIdx
  rw [dif_neg (show ¬(0 : Fin S256x64.rank) ∈ dot_S256x64_S64x32_S256x32_1_0_0_1_n_n.lhsBatch by decide),
    dif_pos (show (0 : Fin S256x64.rank) ∈ dot_S256x64_S64x32_S256x32_1_0_0_1_n_n.lhsNonContracting by decide)]
  rfl
/-- Its column is the contraction position. -/
theorem dotB_lhs1 (j : S256x32.Idx) (q : dot_S256x64_S64x32_S256x32_1_0_0_1_n_n.contr.Idx) :
    (dot_S256x64_S64x32_S256x32_1_0_0_1_n_n.lhsIdx j q 1).val = (q ⟨0, by decide⟩).val :=
  dot_S256x64_S64x32_S256x32_1_0_0_1_n_n.lhsIdx_val_of_single rfl j q
/-- The right operand's row is the contraction position. -/
theorem dotB_rhs0 (j : S256x32.Idx) (q : dot_S256x64_S64x32_S256x32_1_0_0_1_n_n.contr.Idx) :
    (dot_S256x64_S64x32_S256x32_1_0_0_1_n_n.rhsIdx j q 0).val = (q ⟨0, by decide⟩).val :=
  dot_S256x64_S64x32_S256x32_1_0_0_1_n_n.rhsIdx_val_of_single rfl j q
/-- Its column is the output's column. -/
theorem dotB_rhs1 (j : S256x32.Idx) (q : dot_S256x64_S64x32_S256x32_1_0_0_1_n_n.contr.Idx) :
    (dot_S256x64_S64x32_S256x32_1_0_0_1_n_n.rhsIdx j q 1).val = (j 1).val := by
  unfold DotDims.rhsIdx
  rw [dif_neg (show ¬(1 : Fin S64x32.rank) ∈ dot_S256x64_S64x32_S256x32_1_0_0_1_n_n.rhsBatch by decide),
    dif_pos (show (1 : Fin S64x32.rank) ∈ dot_S256x64_S64x32_S256x32_1_0_0_1_n_n.rhsNonContracting by decide)]
  rfl

/-- Last product, [1,64] by [256,64], both contracted along their second axis: the left operand's row is the
    output's row. -/
theorem dotC_lhs0 (j : S1x256.Idx) (q : dot_S1x64_S256x64_S1x256_1_1_0_0_n_n.contr.Idx) :
    (dot_S1x64_S256x64_S1x256_1_1_0_0_n_n.lhsIdx j q 0).val = (j 0).val := by
  unfold DotDims.lhsIdx
  rw [dif_neg (show ¬(0 : Fin S1x64.rank) ∈ dot_S1x64_S256x64_S1x256_1_1_0_0_n_n.lhsBatch by decide),
    dif_pos (show (0 : Fin S1x64.rank) ∈ dot_S1x64_S256x64_S1x256_1_1_0_0_n_n.lhsNonContracting by decide)]
  rfl
/-- Its column is the contraction position. -/
theorem dotC_lhs1 (j : S1x256.Idx) (q : dot_S1x64_S256x64_S1x256_1_1_0_0_n_n.contr.Idx) :
    (dot_S1x64_S256x64_S1x256_1_1_0_0_n_n.lhsIdx j q 1).val = (q ⟨0, by decide⟩).val :=
  dot_S1x64_S256x64_S1x256_1_1_0_0_n_n.lhsIdx_val_of_single rfl j q
/-- The right operand's row is the output's column. -/
theorem dotC_rhs0 (j : S1x256.Idx) (q : dot_S1x64_S256x64_S1x256_1_1_0_0_n_n.contr.Idx) :
    (dot_S1x64_S256x64_S1x256_1_1_0_0_n_n.rhsIdx j q 0).val = (j 1).val := by
  unfold DotDims.rhsIdx
  rw [dif_neg (show ¬(0 : Fin S256x64.rank) ∈ dot_S1x64_S256x64_S1x256_1_1_0_0_n_n.rhsBatch by decide),
    dif_pos (show (0 : Fin S256x64.rank) ∈ dot_S1x64_S256x64_S1x256_1_1_0_0_n_n.rhsNonContracting by decide)]
  rfl
/-- Its column is the contraction position. -/
theorem dotC_rhs1 (j : S1x256.Idx) (q : dot_S1x64_S256x64_S1x256_1_1_0_0_n_n.contr.Idx) :
    (dot_S1x64_S256x64_S1x256_1_1_0_0_n_n.rhsIdx j q 1).val = (q ⟨0, by decide⟩).val :=
  dot_S1x64_S256x64_S1x256_1_1_0_0_n_n.rhsIdx_val_of_single rfl j q

/-! ## The three products at an entry, as sums over the contracted coordinate -/

/-- Entry (r, o) of a [256,128] by [128,32] product into the zero block: ∑ₖ a(r,k) · b(k,o). -/
theorem prodA_apply (a : FVec Ideal S256x128 .bf16) (b : FVec Ideal S128x32 .bf16) (r : Fin 256) (o : Fin 32) :
    matmul dot_S256x128_S128x32_S256x32_1_0_0_1_n_n none a b (constant S256x32 .f32 0x00000000#32) (ix2 r o)
      = ∑ k : Fin 128, a (ix2 r k) * b (ix2 k o) := by
  simp only [matmul]
  rw [Ideal.matmul_constant_zero_apply,
    ← Equiv.sum_comp (contrEquiv1 dot_S256x128_S128x32_S256x32_1_0_0_1_n_n 128 rfl rfl).symm]
  refine Finset.sum_congr rfl fun k _ => ?_
  have hk := contrEquiv1_symm_val dot_S256x128_S128x32_S256x32_1_0_0_1_n_n 128 rfl rfl k
  have el : dot_S256x128_S128x32_S256x32_1_0_0_1_n_n.lhsIdx (ix2 r o)
      ((contrEquiv1 dot_S256x128_S128x32_S256x32_1_0_0_1_n_n 128 rfl rfl).symm k) = ix2 r k :=
    funext fun c => Fin.ext (by
      match c with
      | ⟨0, _⟩ => exact dotA_lhs0 _ _
      | ⟨1, _⟩ => exact (dotA_lhs1 _ _).trans hk)
  have er : dot_S256x128_S128x32_S256x32_1_0_0_1_n_n.rhsIdx (ix2 r o)
      ((contrEquiv1 dot_S256x128_S128x32_S256x32_1_0_0_1_n_n 128 rfl rfl).symm k) = ix2 k o :=
    funext fun c => Fin.ext (by
      match c with
      | ⟨0, _⟩ => exact (dotA_rhs0 _ _).trans hk
      | ⟨1, _⟩ => exact dotA_rhs1 _ _)
  rw [el, er]

/-- Entry (r, o) of a [256,64] by [64,32] product into the zero block: ∑ₖ a(r,k) · b(k,o). -/
theorem prodB_apply (a : FVec Ideal S256x64 .bf16) (b : FVec Ideal S64x32 .bf16) (r : Fin 256) (o : Fin 32) :
    matmul dot_S256x64_S64x32_S256x32_1_0_0_1_n_n none a b (constant S256x32 .f32 0x00000000#32) (ix2 r o)
      = ∑ k : Fin 64, a (ix2 r k) * b (ix2 k o) := by
  simp only [matmul]
  rw [Ideal.matmul_constant_zero_apply,
    ← Equiv.sum_comp (contrEquiv1 dot_S256x64_S64x32_S256x32_1_0_0_1_n_n 64 rfl rfl).symm]
  refine Finset.sum_congr rfl fun k _ => ?_
  have hk := contrEquiv1_symm_val dot_S256x64_S64x32_S256x32_1_0_0_1_n_n 64 rfl rfl k
  have el : dot_S256x64_S64x32_S256x32_1_0_0_1_n_n.lhsIdx (ix2 r o)
      ((contrEquiv1 dot_S256x64_S64x32_S256x32_1_0_0_1_n_n 64 rfl rfl).symm k) = ix2 r k :=
    funext fun c => Fin.ext (by
      match c with
      | ⟨0, _⟩ => exact dotB_lhs0 _ _
      | ⟨1, _⟩ => exact (dotB_lhs1 _ _).trans hk)
  have er : dot_S256x64_S64x32_S256x32_1_0_0_1_n_n.rhsIdx (ix2 r o)
      ((contrEquiv1 dot_S256x64_S64x32_S256x32_1_0_0_1_n_n 64 rfl rfl).symm k) = ix2 k o :=
    funext fun c => Fin.ext (by
      match c with
      | ⟨0, _⟩ => exact (dotB_rhs0 _ _).trans hk
      | ⟨1, _⟩ => exact dotB_rhs1 _ _)
  rw [el, er]

/-- Entry (u, r) of a [1,64] by [256,64] product contracted along both second axes, into the zero block:
    ∑ₖ a(u,k) · b(r,k). -/
theorem prodC_apply (a : FVec Ideal S1x64 .bf16) (b : FVec Ideal S256x64 .bf16) (u : Fin 1) (r : Fin 256) :
    matmul dot_S1x64_S256x64_S1x256_1_1_0_0_n_n none a b (constant S1x256 .f32 0x00000000#32) (ix2 u r)
      = ∑ k : Fin 64, a (ix2 u k) * b (ix2 r k) := by
  simp only [matmul]
  rw [Ideal.matmul_constant_zero_apply,
    ← Equiv.sum_comp (contrEquiv1 dot_S1x64_S256x64_S1x256_1_1_0_0_n_n 64 rfl rfl).symm]
  refine Finset.sum_congr rfl fun k _ => ?_
  have hk := contrEquiv1_symm_val dot_S1x64_S256x64_S1x256_1_1_0_0_n_n 64 rfl rfl k
  have el : dot_S1x64_S256x64_S1x256_1_1_0_0_n_n.lhsIdx (ix2 u r)
      ((contrEquiv1 dot_S1x64_S256x64_S1x256_1_1_0_0_n_n 64 rfl rfl).symm k) = ix2 u k :=
    funext fun c => Fin.ext (by
      match c with
      | ⟨0, _⟩ => exact dotC_lhs0 _ _
      | ⟨1, _⟩ => exact (dotC_lhs1 _ _).trans hk)
  have er : dot_S1x64_S256x64_S1x256_1_1_0_0_n_n.rhsIdx (ix2 u r)
      ((contrEquiv1 dot_S1x64_S256x64_S1x256_1_1_0_0_n_n 64 rfl rfl).symm k) = ix2 r k :=
    funext fun c => Fin.ext (by
      match c with
      | ⟨0, _⟩ => exact dotC_rhs0 _ _
      | ⟨1, _⟩ => exact (dotC_rhs1 _ _).trans hk)
  rw [el, er]

/-! ## The network's pieces as block operations -/

/-- A block clipped below at zero: the entrywise maximum with the zero splat. -/
def reluV {s : Shape} (a : FVec Ideal s .f32) : FVec Ideal s .f32 :=
  maximumf a (broadcast s (Scalar.ofBits (F := Ideal) .f32 0x00000000#32))

/-- The width-doubling step on a [256,32] block g: relu of (g, 0 − g) side by side. -/
def pmV (g : FVec Ideal S256x32 .f32) : FVec Ideal S256x64 .f32 :=
  reluV (concatenate S256x64 1
    [⟨S256x32, g⟩, ⟨S256x32, subf (broadcast S256x32 (Scalar.ofBits (F := Ideal) .f32 0x00000000#32)) g⟩]
    concatenates_S256x32_S256x32_S256x64_d1)

/-- A bias vector as a [256,32] block: every row is the vector. -/
def biasV (b : Vec Ideal S32 .f32) : FVec Ideal S256x32 .f32 :=
  broadcastTo S256x32 (shapeCast S1x32 b shapeCasts_S32_S1x32) broadcasts_S1x32_S256x32

/-- The first affine layer on a [256,128] block: the block times the transposed [32,128] weights, plus the bias. -/
def linAV (a : FVec Ideal S256x128 .f32) (w : Vec Ideal S32x128 .f32) (b : Vec Ideal S32 .f32) : FVec Ideal S256x32 .f32 :=
  addf (matmul dot_S256x128_S128x32_S256x32_1_0_0_1_n_n none (truncf .bf16 a bitsLt_bf16_f32)
      (transpose S128x32 [1, 0] (truncf .bf16 w bitsLt_bf16_f32) transposes_S32x128_p1_0_S128x32)
      (constant S256x32 .f32 0x00000000#32))
    (biasV b)

/-- The second affine layer on a [256,64] block: the block times the transposed [32,64] weights, plus the bias. -/
def linBV (a : FVec Ideal S256x64 .f32) (w : Vec Ideal S32x64 .f32) (b : Vec Ideal S32 .f32) : FVec Ideal S256x32 .f32 :=
  addf (matmul dot_S256x64_S64x32_S256x32_1_0_0_1_n_n none (truncf .bf16 a bitsLt_bf16_f32)
      (transpose S64x32 [1, 0] (truncf .bf16 w bitsLt_bf16_f32) transposes_S32x64_p1_0_S64x32)
      (constant S256x32 .f32 0x00000000#32))
    (biasV b)

/-- The hidden block the kernel hands to its last product is the two layers, each followed by the doubling step,
    on the clipped accumulator. -/
theorem pay40_eq (h : FVec Ideal S256x128 .f32) (x3 : Vec Ideal S32x128 .f32) (x4 : Vec Ideal S32 .f32)
    (x5 : Vec Ideal S32x64 .f32) (x6 : Vec Ideal S32 .f32) :
    k0_pay40 (F := Ideal) h x3 x4 x5 x6 = pmV (linBV (pmV (linAV (reluV h) x3 x4)) x5 x6) := rfl

/-- The stored row is the last weight row times the transposed hidden block. -/
theorem pay1_eq (v : FVec Ideal S256x64 .f32) (x7 : Vec Ideal S1x64 .f32) :
    k0_pay1 (F := Ideal) v x7
      = matmul dot_S1x64_S256x64_S1x256_1_1_0_0_n_n none (truncf .bf16 x7 bitsLt_bf16_f32)
          (truncf .bf16 v bitsLt_bf16_f32) (constant S1x256 .f32 0x00000000#32) := rfl

/-! ## The pieces read at an entry -/

/-- Clipping reads entrywise. -/
theorem reluV_apply {s : Shape} (a : FVec Ideal s .f32) (i : s.Idx) : reluV a i = Cert.Spec.relu (a i) := by
  unfold reluV Cert.Spec.relu
  rw [maximumf_apply, broadcast_apply]
  show max (a i) (Ideal.ofBits .f32 0x00000000#32) = _
  rw [Ideal.ofBits_zero_f32]

/-- The bias block at (r, o) is the bias at o. -/
theorem biasV_apply (b : Vec Ideal S32 .f32) (r : Fin 256) (o : Fin 32) : biasV b (ix2 r o) = b (ix1 o) := by
  unfold biasV
  rw [broadcastTo_1b_ab_apply, shapeCast_a_1a_apply]

/-- The doubling step at (r, q) is the specification's, on row r of the block. -/
theorem pmV_apply (g : FVec Ideal S256x32 .f32) (r : Fin 256) (q : Fin 64) :
    pmV g (ix2 r q) = Cert.Spec.pm32 (fun o => g (ix2 r o)) q := by
  unfold pmV Cert.Spec.pm32
  rw [reluV_apply]
  by_cases hq : q.val < 32
  · rw [dif_pos hq]
    congr 1
    exact concatenate_pair_apply_left 1 g _ concatenates_S256x32_S256x32_S256x64_d1 (ix2 r q) rfl (ix2 r ⟨q.val, hq⟩)
      (fun c => match c with | ⟨0, _⟩ => rfl | ⟨1, _⟩ => rfl)
  · rw [dif_neg hq]
    congr 1
    refine (concatenate_pair_apply_right 1 g _ concatenates_S256x32_S256x32_S256x64_d1 (ix2 r q) rfl rfl
      (ix2 r ⟨q.val - 32, by omega⟩)
      (fun c hc => match c, hc with | ⟨0, _⟩, _ => rfl | ⟨1, _⟩, hc => absurd rfl hc) ?_).trans ?_
    · show (q.val - 32) + 32 = q.val
      omega
    · rw [subf_apply, broadcast_apply]
      show Ideal.ofBits .f32 0x00000000#32 - _ = _
      rw [Ideal.ofBits_zero_f32, sub_eq_add_neg, zero_add]

/-- The first affine layer at (r, o) is the specification's, on row r of the block. -/
theorem linAV_apply (a : FVec Ideal S256x128 .f32) (w : Vec Ideal S32x128 .f32) (b : Vec Ideal S32 .f32)
    (r : Fin 256) (o : Fin 32) :
    linAV a w b (ix2 r o)
      = Cert.Spec.lin (fun d => a (ix2 r d)) (fun o d => w (ix2 o d)) (fun o => b (ix1 o)) o := by
  unfold linAV Cert.Spec.lin
  rw [addf_apply, prodA_apply, biasV_apply]
  congr 1
  refine Finset.sum_congr rfl fun k _ => ?_
  rw [truncf_apply, transpose_ix2_apply, truncf_apply]

/-- The second affine layer at (r, o) is the specification's, on row r of the block. -/
theorem linBV_apply (a : FVec Ideal S256x64 .f32) (w : Vec Ideal S32x64 .f32) (b : Vec Ideal S32 .f32)
    (r : Fin 256) (o : Fin 32) :
    linBV a w b (ix2 r o)
      = Cert.Spec.lin (fun d => a (ix2 r d)) (fun o d => w (ix2 o d)) (fun o => b (ix1 o)) o := by
  unfold linBV Cert.Spec.lin
  rw [addf_apply, prodB_apply, biasV_apply]
  congr 1
  refine Finset.sum_congr rfl fun k _ => ?_
  rw [truncf_apply, transpose_ix2_apply, truncf_apply]

/-- Entry (0, r) of the stored row is the network after the lookup applied to row r of the accumulated block. -/
theorem mlp_apply (h : FVec Ideal S256x128 .f32) (x3 : Vec Ideal S32x128 .f32) (x4 : Vec Ideal S32 .f32)
    (x5 : Vec Ideal S32x64 .f32) (x6 : Vec Ideal S32 .f32) (x7 : Vec Ideal S1x64 .f32) (r : Fin 256) :
    k0_pay1 (F := Ideal) (k0_pay40 h x3 x4 x5 x6) x7 (ix2 (0 : Fin 1) r)
      = Cert.Spec.tail (fun d => h (ix2 r d)) (fun o d => x3 (ix2 o d)) (fun o => x4 (ix1 o))
          (fun o d => x5 (ix2 o d)) (fun o => x6 (ix1 o)) (fun d => x7 (ix2 (0 : Fin 1) d)) := by
  rw [pay1_eq, pay40_eq, prodC_apply]
  unfold Cert.Spec.tail
  refine Finset.sum_congr rfl fun d _ => ?_
  rw [truncf_apply, truncf_apply, mul_comm, pmV_apply]
  congr 2
  funext o
  rw [linBV_apply]
  congr 1
  funext q
  rw [pmV_apply]
  congr 1
  funext o'
  rw [linAV_apply]
  congr 1
  funext d'
  rw [reluV_apply]

end Cert.KernelIdeal.Hand

end
-- ==== Proof.BlockValue.lean ====
/-
  What grid point t leaves in the output block: at entry (0, r) the network after the lookup, applied to the sum
  of the 29 table rows that batch row 256·t + r selects — given that the table's entries are real numbers and the
  row's 29 index words are row numbers of the table. The kernel's count-weighted sum over all table rows collapses
  to the sum over the selected rows; the remainder table contributes nothing because it is zero.
-/
import proofs.«420469_j76742475645269_2_alg».proof.Proof.Blocks
import proofs.«420469_j76742475645269_2_alg».proof.Proof.Trip
import proofs.«420469_j76742475645269_2_alg».proof.Proof.AccValue
import proofs.«420469_j76742475645269_2_alg».proof.Proof.Mlp
import proofs.«420469_j76742475645269_2_alg».proof.Proof.Algebra

set_option maxRecDepth 16384

noncomputable section

namespace Cert.KernelIdeal.Hand

open Idealize.ShloMosaic Idealize.ShloMosaic.ValueIdx Idealize.ShloMosaic.TcCoe Idealize.SL.Sem
open Cert.KernelIdeal Cert.KernelIdeal.Gen
open scoped BigOperators

variable (m : (ℓ : Loc nD τ sig) → Buf (Elt Ideal) ℓ)

/-- Batch row 256·t + r of the whole index array. -/
abbrev rowOf (t : Fin cfg0.N) (r : Fin 256) : Fin 65536 :=
  ⟨256 * t.val + r.val, by have := t.isLt; have h : cfg0.N = 256 := N_0; omega⟩

/-- The table rows batch row b selects, by the reference's reading of its 29 index words. -/
abbrev rowsOf (c : Dev nD) (b : Fin 65536) : Fin 29 → Fin 14848 :=
  fun j => Cert.Spec.refIdx (xarr m c (ix2 b ⟨j.val, by have := j.isLt; omega⟩))

/-- The result for batch row b as the specification states it. -/
abbrev rowResult (c : Dev nD) (b : Fin 65536) : EReal :=
  Cert.Spec.tail (Cert.Spec.embSum (fun v d => embarr m c (ix2 v d)) (rowsOf m c b))
    (fun o d => w2arr m c (ix2 o d)) (fun o => b2arr m c (ix1 o)) (fun o d => w3arr m c (ix2 o d))
    (fun o => b3arr m c (ix1 o)) (fun d => w4arr m c (ix2 (0 : Fin 1) d))

/-- Row r of the accumulator after all 29 trips at point t is the sum of the selected table rows. -/
theorem acc_row (c : Dev nD) (t : Fin cfg0.N)
    (hreal : ∀ i : S14848x128.Idx, ∃ x : ℝ, embarr m c i = ((x : ℝ) : EReal))
    (hx : ∀ (b : Fin 65536) (j : Fin 29),
      0 ≤ (xarr m c (ix2 b ⟨j.val, by have := j.isLt; omega⟩)).toInt
      ∧ (xarr m c (ix2 b ⟨j.val, by have := j.isLt; omega⟩)).toInt < 14848)
    (r : Fin 256) (d : Fin 128) :
    accAfter (F := Ideal) (xblk m c t) (hiblk m c t) (loblk m c t) k0_t1_loop.trips (ix2 r d)
      = Cert.Spec.embSum (fun v d => embarr m c (ix2 v d)) (rowsOf m c (rowOf t r)) d := by
  choose e he using hreal
  rw [trips_eq, accAfter_apply (xblk m c t) (hiblk m c t) (loblk m c t) 29 le_rfl r d]
  -- the two tables' columns over the naturals
  have hhi : tabCol (hiblk m c t) d
      = fun v => (((if h : v < 14848 then e (ix2 ⟨v, h⟩ d) else 0 : ℝ) : ℝ) : EReal) := by
    funext v
    unfold tabCol
    by_cases h : v < 14848
    · rw [dif_pos h, dif_pos h, hiblk_apply, he]
    · rw [dif_neg h, dif_neg h]; rfl
  have hlo : tabCol (loblk m c t) d = fun _ => 0 := by
    funext v
    unfold tabCol
    by_cases h : v < 14848
    · rw [dif_pos h, loblk_apply, he, ← EReal.coe_sub, sub_self]; rfl
    · rw [dif_neg h]
  -- the row's words are row numbers of the table
  have hw : ∀ j : Fin 29, rowWords (xblk m c t) r j = xarr m c (ix2 (rowOf t r) ⟨j.val, by have := j.isLt; omega⟩) :=
    fun j => xblk_apply m c t r ⟨j.val, by have := j.isLt; omega⟩
  have hξ : ∀ j : Fin 29, (rowWords (xblk m c t) r j).toNat < 14848 := fun j => by
    rw [hw j]; exact (Cert.Spec.refIdx_of_range _ (hx (rowOf t r) j).1 (hx (rowOf t r) j).2).2
  rw [hhi, hlo, Cert.Spec.sum_chunkTerm (rowWords (xblk m c t) r) hξ]
  unfold Cert.Spec.embSum
  refine Finset.sum_congr rfl fun j _ => ?_
  have hj := hξ j
  rw [dif_pos hj, ← he]
  refine congrArg (embarr m c) ?_
  have hr := (Cert.Spec.refIdx_of_range _ (hx (rowOf t r) j).1 (hx (rowOf t r) j).2).1
  have hidx : (⟨(rowWords (xblk m c t) r j).toNat, hj⟩ : Fin 14848) = rowsOf m c (rowOf t r) j := by
    apply Fin.ext
    show (rowWords (xblk m c t) r j).toNat = (Cert.Spec.refIdx (xarr m c (ix2 (rowOf t r) ⟨j.val, _⟩))).val
    rw [hr, hw j]
  rw [hidx]

/-- WHAT POINT t LEAVES in the output block, entry (0, r): the specification's result for batch row 256·t + r. -/
theorem block_value (c : Dev nD) (t : Fin cfg0.N)
    (hreal : ∀ i : S14848x128.Idx, ∃ x : ℝ, embarr m c i = ((x : ℝ) : EReal))
    (hx : ∀ (b : Fin 65536) (j : Fin 29),
      0 ≤ (xarr m c (ix2 b ⟨j.val, by have := j.isLt; omega⟩)).toInt
      ∧ (xarr m c (ix2 b ⟨j.val, by have := j.isLt; omega⟩)).toInt < 14848)
    (r : Fin 256) :
    outsAt0 m c t (ix2 (0 : Fin 1) r) = rowResult m c (rowOf t r) := by
  have h1 : outsAt0 m c t
      = k0_pay1 (F := Ideal) (k0_pay40 (accAfter (xblk m c t) (hiblk m c t) (loblk m c t) k0_t1_loop.trips)
          (w2blk m c t) (b2blk m c t) (w3blk m c t) (b3blk m c t)) (w4blk m c t) :=
    out_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (xblk m c t) (hiblk m c t) (loblk m c t) (w2blk m c t) (b2blk m c t) (w3blk m c t) (b3blk m c t) (w4blk m c t)
  have e3 : w2blk m c t = w2arr m c := (w2blk_eq m c t).trans (V_main_arg2 m c)
  have e4 : b2blk m c t = b2arr m c := (b2blk_eq m c t).trans (V_main_arg3 m c)
  have e5 : w3blk m c t = w3arr m c := (w3blk_eq m c t).trans (V_main_arg4 m c)
  have e6 : b3blk m c t = b3arr m c := (b3blk_eq m c t).trans (V_main_arg5 m c)
  have e7 : w4blk m c t = w4arr m c := (w4blk_eq m c t).trans (V_main_arg6 m c)
  rw [h1, mlp_apply, e3, e4, e5, e6, e7]
  have hrow : (fun d => accAfter (F := Ideal) (xblk m c t) (hiblk m c t) (loblk m c t) k0_t1_loop.trips (ix2 r d))
      = Cert.Spec.embSum (fun v d => embarr m c (ix2 v d)) (rowsOf m c (rowOf t r)) :=
    funext fun d => acc_row m c t hreal hx r d
  rw [hrow]

end Cert.KernelIdeal.Hand

end
-- ==== Proof.Final.lean ====
/-
  From the blocks to the whole result. Grid point t writes columns 256·t … 256·t + 255 of a [1 × 65536] row; the
  256 points tile the row, so after the run the row holds, at column b, the specification's result for batch
  row b. The host then re-lays the row as a [65536 × 1] column, which is the program's result.
-/
import proofs.«420469_j76742475645269_2_alg».proof.Proof.BlockValue
import Idealize.ShloMosaic.Lib.Pipeline.Value
import Idealize.ShloMosaic.Lib.StableHlo.Run

set_option maxRecDepth 16384

noncomputable section

namespace Cert.KernelIdeal.Hand

open Idealize.ShloMosaic Idealize.ShloMosaic.ValueIdx Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- What the table and the indices are assumed to be on core c: real entries, and row numbers of the table in the
    first 29 columns of every batch row. -/
def Domain (c : Dev nD) : Prop :=
  (∀ i : S14848x128.Idx, ∃ x : ℝ, embarr m c i = ((x : ℝ) : EReal))
  ∧ ∀ (b : Fin 65536) (j : Fin 29),
      0 ≤ (xarr m c (ix2 b ⟨j.val, by have := j.isLt; omega⟩)).toInt
      ∧ (xarr m c (ix2 b ⟨j.val, by have := j.isLt; omega⟩)).toInt < 14848

/-- The [1 × 65536] row the region's output array ends holding: column b is batch row b's result. -/
def outRow (c : Dev nD) : Vec Ideal S1x65536 .f32 :=
  fun i => rowResult m c ⟨(i 1).val, idx2_lt1 i⟩

/-- What point t writes back is block t of that row. -/
theorem flushed_eq (c : Dev nD) (hD : Domain m c) (t : Fin cfg0.N) :
    (dats m 0 c).flushed 8 t = ((cfg0.win 8).blk t).view.read (Elt Ideal) (outRow m c) := by
  show (cfg0.win 8).cut (grid0.coords t) ((dats m 0 c).after 8 t) = _
  rw [after0_8]
  obtain ⟨-, -, -, -, -, -, -, -, -, -, -, -, -, -, e0, e1⟩ := idx_facts t
  funext y
  show outsAt0 m c t y = outRow m c (((cfg0.win 8).blk t).view.emb y)
  obtain ⟨p, q, rfl⟩ : ∃ (p : Fin 1) (q : Fin 256), y = ix2 p q := ⟨y 0, y 1, eq_ix2 y⟩
  obtain rfl : p = 0 := Subsingleton.elim _ _
  rw [block_value m c t hD.1 hD.2 q]
  unfold outRow
  refine congrArg (rowResult m c) (Fin.ext ?_)
  show 256 * t.val + q.val = win0_8.index t (1 : Fin 2) * 256 + 1 * q.val
  omega

/-- A column of the row is in point t's block iff it lies in the block's range. -/
theorem mem_blk8 (t : Fin cfg0.N) (i : S1x65536.Idx) :
    i ∈ ((cfg0.win 8).blk t).view.set ↔ ∀ a : Fin 2, win0_8.index t a * S1x256.size a ≤ (i a).val ∧ (i a).val < win0_8.index t a * S1x256.size a + S1x256.size a := by
  show i ∈ ((View.whole main_v4).slice (win0_8.rect t)).set ↔ _
  rw [View.set_slice_whole, Rect.mem_set_unit]
  exact Iff.rfl

/-- Every column is in the block of the point its number divided by 256 names. -/
theorem cover8 (i : S1x65536.Idx) : ∃ t : Fin cfg0.N, (cfg0.win 8).flush t = true ∧ i ∈ ((cfg0.win 8).blk t).view.set := by
  have h0 : (i 0).val < 1 := idx2_lt0 i
  have h1 : (i 1).val < 65536 := idx2_lt1 i
  have hN : cfg0.N = 256 := N_0
  refine ⟨⟨(i 1).val / 256, by omega⟩, flush0_8 _, ?_⟩
  obtain ⟨-, -, -, -, -, -, -, -, -, -, -, -, -, -, e0, e1⟩ := idx_facts ⟨(i 1).val / 256, by omega⟩
  rw [mem_blk8]
  intro a
  match a with
  | ⟨0, _⟩ => show win0_8.index _ (0 : Fin 2) * 1 ≤ (i 0).val ∧ (i 0).val < win0_8.index _ (0 : Fin 2) * 1 + 1; rw [e0]; omega
  | ⟨1, _⟩ => show win0_8.index _ (1 : Fin 2) * 256 ≤ (i 1).val ∧ (i 1).val < win0_8.index _ (1 : Fin 2) * 256 + 256; rw [e1]; show (i 1).val / 256 * 256 ≤ (i 1).val ∧ (i 1).val < (i 1).val / 256 * 256 + 256; omega

/-- THE OUTPUT ARRAY after the run is the row of results. -/
theorem final8 (c : Dev nD) (hD : Domain m c) : (dats m 0 c).arrAt 8 cfg0.N = outRow m c :=
  (dats m 0 c).arrAt_eq_of_cover 8 (outRow m c) (fun t _ => flushed_eq m c hD t) cover8

/-- The program's result: a [65536 × 1] column whose entry b is batch row b's result. -/
def result (c : Dev nD) : Vec Ideal S65536x1 .f32 :=
  fun i => rowResult m c ⟨(i 0).val, idx2_lt0 i⟩

/-- The host's re-laying of the finished row as a column: entry (b, 0) of the column is column b of the row. -/
theorem tail_value (c : Dev nD) (hD : Domain m c) :
    Pipeline.afterTail₀ cfgs (dats m) 0 (V0 m) [hostOps1] c main_v5 = result m c := by
  unfold Pipeline.afterTail₀
  show StableHlo.after hostOps1 _ (Proc.devRef .tc main_v5) = _
  after_results
  have hA : Pipeline.withArrays (cfgs 0).spec c (V0 m c) (fun w => (dats m 0 c).arrAt w (cfgs 0).N) (Proc.tc.devRef main_v4)
      = outRow m c :=
    (Pipeline.withArrays_arr spec0 launch0.win.arr_inj c _ _ 8).trans (final8 m c hD)
  rw [hA]
  funext i
  show shapeCast S65536x1 (outRow m c) shapeCasts_S1x65536_S65536x1 i = result m c i
  have h0 : (i 0).val < 65536 := idx2_lt0 i
  have h1 : (i 1).val < 1 := idx2_lt1 i
  rw [shapeCast_apply (outRow m c) shapeCasts_S1x65536_S65536x1 i (ix2 (0 : Fin 1) ⟨(i 0).val, h0⟩)
    (by rw [Shape.rowMajor_val_two, Shape.rowMajor_val_two]; show 0 * 65536 + (i 0).val = (i 0).val * 1 + (i 1).val; omega)]
  rfl

/-- THE KERNEL PROGRAM'S RUN, read: on every core the result column holds each batch row's result and the argument
    arrays end unchanged — for a table of real entries and index words that are row numbers of the table. -/
theorem kernel_run (hD : ∀ c, Domain m c) :
    θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v5 (Pipeline.mem_restRefs_of main_v5 (by decide) (by decide))).trans (tail_value m c (hD c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c)))⟩)
    (run_main m ρ)

end Cert.KernelIdeal.Hand

end
-- ==== Proof.RefGen.lean ====
/-
  The reference program's run and its read-at-an-index lemmas, gathered for the modules that read the reference.
-/
import proofs.«420469_j76742475645269_2_alg».proof.Proof.RefRun
import proofs.«420469_j76742475645269_2_alg».proof.Proof.RefRead
-- ==== Proof.RefEmb.lean ====
/-
  The reference's lookup-and-sum stage, read at an entry: the sum of the 29 table rows its normalized, clamped
  indices select.
-/
import proofs.«420469_j76742475645269_2_alg».proof.Proof.RefGen
import proofs.«420469_j76742475645269_2_alg».proof.Proof.Spec

noncomputable section

namespace Cert.ReferenceIdeal.Hand

open Idealize.ShloMosaic Idealize.ShloMosaic.ValueIdx Cert.ReferenceIdeal Cert.ReferenceIdeal.Gen Cert.ReferenceIdeal.ReadP
open scoped BigOperators

/-! ## A gather of whole rows of a matrix, read at an entry

For an operand [N, D] and start indices [R, C, 1], with the row axis collapsed, the column axis the one offset axis
(full slice D) and the start index naming the row axis only: result entry (b, j, d) is the operand's entry (r, d),
where r is the start index word at (b, j, 0) read as a signed integer and clamped into [0, N − 1]. -/

section GatherRows
variable {α : Type}

/-- The dimension numbers of such a row gather; their side conditions are decided on literal shapes. -/
abbrev gatherRowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The row gather at (b, j, d). On the row axis the operand coordinate is the clamped start index alone (the axis is
    collapsed, so it carries no offset, and nothing is batched); on the column axis the start is zero (the start index
    does not name it) and the offset is the result's last coordinate d. -/
theorem gatherRows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (b : Fin R) (j : Fin C) (d : Fin D) :
    Host.gather (gatherRowsDims N D R C wf) x idx (ix3 b j d)
      = x (ix2 ⟨min (idx (ix3 b j ⟨0, Nat.one_pos⟩)).toInt.toNat (N - 1), by omega⟩ d) := by
  unfold Host.gather
  congr 1
  funext a
  refine Fin.ext ?_
  show (gatherRowsDims N D R C wf).start (ix3 b j d) idx a + (gatherRowsDims N D R C wf).batchCoord (ix3 b j d) a
      + (gatherRowsDims N D R C wf).offCoord (ix3 b j d) a = _
  rw [GatherDims.batchCoord_eq_zero _ _ _ List.not_mem_nil]
  match a with
  | ⟨0, h0⟩ =>
    -- the row axis: named by the start index, collapsed
    have hmem : (⟨0, h0⟩ : Fin (⟨2, ![N, D]⟩ : Shape).rank) ∈ (gatherRowsDims N D R C wf).startIndexMap :=
      List.mem_singleton.mpr rfl
    rw [GatherDims.offCoord_eq_zero _ _ _
      (fun h => ((GatherDims.mem_sKept _ _).mp h).1 (List.mem_singleton.mpr rfl))]
    simp only [Nat.add_zero]
    unfold GatherDims.start
    rw [dif_pos hmem]
    have hsi : (gatherRowsDims N D R C wf).siIdx (ix3 b j d)
        ⟨List.idxOf (⟨0, h0⟩ : Fin (⟨2, ![N, D]⟩ : Shape).rank) (gatherRowsDims N D R C wf).startIndexMap,
          List.idxOf_lt_length_iff.2 hmem⟩ = ix3 b j ⟨0, Nat.one_pos⟩ := by
      funext c; refine Fin.ext ?_
      match c with
      | ⟨0, _⟩ => rfl
      | ⟨1, _⟩ => rfl
      | ⟨2, _⟩ => rfl
    rw [hsi]
    rfl
  | ⟨1, h1⟩ =>
    -- the column axis: not named by the start index, kept, read at the result's offset coordinate
    have hnot : (⟨1, h1⟩ : Fin (⟨2, ![N, D]⟩ : Shape).rank) ∉ (gatherRowsDims N D R C wf).startIndexMap :=
      fun h => absurd (congrArg Fin.val (List.mem_singleton.mp h)) (by show ¬ (1 : ℕ) = 0; exact Nat.one_ne_zero)
    have hk : (⟨1, h1⟩ : Fin (⟨2, ![N, D]⟩ : Shape).rank) ∈ (gatherRowsDims N D R C wf).sKept :=
      (GatherDims.mem_sKept _ _).mpr
        ⟨fun h => absurd (congrArg Fin.val (List.mem_singleton.mp h)) (by show ¬ (1 : ℕ) = 0; exact Nat.one_ne_zero),
          List.not_mem_nil⟩
    unfold GatherDims.start GatherDims.offCoord
    rw [dif_neg hnot, dif_pos hk]
    simp only [Nat.zero_add]
    rfl

end GatherRows

/-! ## The reference's start-index word and its lookup-and-sum -/

/-- The word the reference hands the gather for index j of batch row b: the input word, shifted up by the table's
    height when it is negative. -/
theorem ref_startWord (x0 : (⟨S65536x32, .i32⟩ : BufTy).Contents (Elt Ideal)) (b : Fin 65536) (j : Fin 29) :
    val_main_v6 (F := Ideal) x0 (ix3 b j ⟨0, Nat.one_pos⟩)
      = (if IntOp.cmpi .slt (x0 (ix2 b ⟨j.val, by have := j.isLt; omega⟩)) 0#32 = 1#1
          then x0 (ix2 b ⟨j.val, by have := j.isLt; omega⟩) + 14848#32
          else x0 (ix2 b ⟨j.val, by have := j.isLt; omega⟩)) := by
  have h6 : idx_main_v6 (ix3 b j ⟨0, Nat.one_pos⟩) = ix2 b j := by
    funext a; match a with | ⟨0, _⟩ => rfl | ⟨1, _⟩ => rfl
  have h0 : idx_main_v0 (ix2 b j) = ix2 b ⟨j.val, by have := j.isLt; omega⟩ := by
    funext a; match a with | ⟨0, _⟩ => rfl | ⟨1, _⟩ => rfl
  rw [val_main_v6_apply, h6, val_main_v5_apply, val_main_v2_apply, val_main_v4_apply, val_main_v1_apply,
    val_main_v3_apply, val_main_c_apply, val_main_c_0_apply, val_main_v0_apply, h0]
  rfl

/-- Entry (b, d) of the summed lookup is the sum over the 29 indices of batch row b of the selected table rows' column d. -/
theorem ref_embsum (x0 : (⟨S65536x32, .i32⟩ : BufTy).Contents (Elt Ideal)) (x1 : (⟨S14848x128, .f32⟩ : BufTy).Contents (Elt Ideal))
    (b : Fin 65536) (d : Fin 128) :
    val_main_v8 (F := Ideal) x0 x1 (ix2 b d)
      = Cert.Spec.embSum (fun v d => x1 (ix2 v d))
          (fun j => Cert.Spec.refIdx (x0 (ix2 b ⟨j.val, by have := j.isLt; omega⟩))) d := by
  rw [val_main_v8_apply, val_main_cst_apply]
  have hz : (FloatOps.ofBits (F := Ideal) .f32 0x00000000#32) = (0 : EReal) := Ideal.ofBits_zero_f32
  rw [hz, zero_add]
  unfold Cert.Spec.embSum
  refine Finset.sum_congr rfl fun k _ => ?_
  have h8 : idx_main_v8 (ix2 b d) k = ix3 b k d := by
    funext a; match a with | ⟨0, _⟩ => rfl | ⟨1, _⟩ => rfl | ⟨2, _⟩ => rfl
  rw [h8]
  unfold val_main_v7
  refine (gatherRows_apply (N := 14848) (D := 128) (R := 65536) (C := 29) (by decide)
    gather_S14848x128_S65536x29x1_S65536x29x128_2_0_n_n_0_2_1128.wf x1 (val_main_v6 (F := Ideal) x0) b k d).trans ?_
  unfold Cert.Spec.refIdx
  simp only [ref_startWord]

end Cert.ReferenceIdeal.Hand

end
-- ==== Proof.RefTail.lean ====
/-
  The reference's layers after the summed lookup, read at an entry: the specification's network applied to the
  batch row's summed table rows.
-/
import proofs.«420469_j76742475645269_2_alg».proof.Proof.RefGen
import proofs.«420469_j76742475645269_2_alg».proof.Proof.Spec

noncomputable section

namespace Cert.ReferenceIdeal.Hand

open Idealize.ShloMosaic Idealize.ShloMosaic.ValueIdx Cert.ReferenceIdeal Cert.ReferenceIdeal.Gen Cert.ReferenceIdeal.ReadP
open scoped BigOperators

/-- Two arrays of 32 columns joined along the columns, read at column q: the first array's column q when q < 32,
    else the second array's column q − 32. -/
theorem concat_cols_apply {α : Type} (A B : S65536x32.Idx → α) (b : Fin 65536) (q : Fin 64) :
    concatenate S65536x64 1 [⟨S65536x32, A⟩, ⟨S65536x32, B⟩] concatenates_S65536x32_S65536x32_S65536x64_d1 (ix2 b q)
      = if h : q.val < 32 then A (ix2 b ⟨q.val, h⟩) else B (ix2 b ⟨q.val - 32, by omega⟩) := by
  by_cases h : q.val < 32
  · rw [dif_pos h]
    exact concatenate_pair_apply_left 1 A B concatenates_S65536x32_S65536x32_S65536x64_d1 (ix2 b q) rfl (ix2 b ⟨q.val, h⟩)
      (fun a => match a with | ⟨0, _⟩ => rfl | ⟨1, _⟩ => rfl)
  · rw [dif_neg h]
    refine concatenate_pair_apply_right 1 A B concatenates_S65536x32_S65536x32_S65536x64_d1 (ix2 b q) rfl rfl
      (ix2 b ⟨q.val - 32, by omega⟩) (fun a => match a with | ⟨0, _⟩ => fun _ => rfl | ⟨1, _⟩ => fun hne => absurd rfl hne) ?_
    show (q.val - 32) + 32 = q.val
    omega

/-- First affine layer: entry (b, o) is the specification's affine layer applied to the clipped summed rows. -/
theorem ref_lin1 (x0 : (⟨S65536x32, .i32⟩ : BufTy).Contents (Elt Ideal)) (x1 : (⟨S14848x128, .f32⟩ : BufTy).Contents (Elt Ideal))
    (x2 : (⟨S32x128, .f32⟩ : BufTy).Contents (Elt Ideal)) (x3 : (⟨S32, .f32⟩ : BufTy).Contents (Elt Ideal))
    (b : Fin 65536) (o : Fin 32) :
    val_main_v14 (F := Ideal) x0 x1 x2 x3 (ix2 b o)
      = Cert.Spec.lin (fun d => Cert.Spec.relu (val_main_v8 (F := Ideal) x0 x1 (ix2 b d))) (fun o d => x2 (ix2 o d)) (fun o => x3 (ix1 o)) o := by
  rw [val_main_v14_apply, val_main_v11_apply, val_main_v13_apply, val_main_v12_apply]
  have e12 : idx_main_v12 (idx_main_v13 (ix2 b o)) = ix1 o :=
    funext fun a => Fin.ext (by match a with | ⟨0, _⟩ => rfl)
  have el : ∀ k : Fin 128, lidx_main_v11 (ix2 b o) k = ix2 b k := fun k =>
    funext fun a => Fin.ext (by match a with | ⟨0, _⟩ => rfl | ⟨1, _⟩ => rfl)
  have er : ∀ k : Fin 128, idx_main_v10 (ridx_main_v11 (ix2 b o) k) = ix2 o k := fun k =>
    funext fun a => Fin.ext (by match a with | ⟨0, _⟩ => rfl | ⟨1, _⟩ => rfl)
  simp only [val_main_v9_apply, val_main_v10_apply, val_main_call0_v0_apply, val_main_call0_cst_apply, e12, el, er,
    Ideal.addf_def, Ideal.maximumf_def, Ideal.ofBits_def, Ideal.ofBits_zero_f32]
  rfl

/-- The first width doubling: entry (b, q) of the clipped join of the first layer with its negation. -/
theorem ref_pm1 (x0 : (⟨S65536x32, .i32⟩ : BufTy).Contents (Elt Ideal)) (x1 : (⟨S14848x128, .f32⟩ : BufTy).Contents (Elt Ideal))
    (x2 : (⟨S32x128, .f32⟩ : BufTy).Contents (Elt Ideal)) (x3 : (⟨S32, .f32⟩ : BufTy).Contents (Elt Ideal))
    (b : Fin 65536) (q : Fin 64) :
    val_main_v17 (F := Ideal) x0 x1 x2 x3 (ix2 b q)
      = Cert.Spec.pm32 (fun o => val_main_v14 (F := Ideal) x0 x1 x2 x3 (ix2 b o)) q := by
  rw [val_main_v17_apply, val_main_call1_v0_apply, val_main_call1_cst_apply]
  unfold val_main_v16
  rw [concat_cols_apply]
  unfold Cert.Spec.pm32 Cert.Spec.relu
  by_cases h : q.val < 32
  · simp only [dif_pos h, Ideal.maximumf_def, Ideal.ofBits_def, Ideal.ofBits_zero_f32]
  · simp only [dif_neg h, val_main_v15_apply, Ideal.maximumf_def, Ideal.ofBits_def, Ideal.ofBits_zero_f32,
      Ideal.hostNegf_def, Ideal.negf_def]

/-- Second affine layer: entry (b, o) is the specification's affine layer applied to row b of the doubled first layer. -/
theorem ref_lin2 (x0 : (⟨S65536x32, .i32⟩ : BufTy).Contents (Elt Ideal)) (x1 : (⟨S14848x128, .f32⟩ : BufTy).Contents (Elt Ideal))
    (x2 : (⟨S32x128, .f32⟩ : BufTy).Contents (Elt Ideal)) (x3 : (⟨S32, .f32⟩ : BufTy).Contents (Elt Ideal))
    (x4 : (⟨S32x64, .f32⟩ : BufTy).Contents (Elt Ideal)) (x5 : (⟨S32, .f32⟩ : BufTy).Contents (Elt Ideal))
    (b : Fin 65536) (o : Fin 32) :
    val_main_v22 (F := Ideal) x0 x1 x2 x3 x4 x5 (ix2 b o)
      = Cert.Spec.lin (fun q => val_main_v17 (F := Ideal) x0 x1 x2 x3 (ix2 b q)) (fun o d => x4 (ix2 o d)) (fun o => x5 (ix1 o)) o := by
  rw [val_main_v22_apply, val_main_v19_apply, val_main_v21_apply, val_main_v20_apply]
  have e20 : idx_main_v20 (idx_main_v21 (ix2 b o)) = ix1 o :=
    funext fun a => Fin.ext (by match a with | ⟨0, _⟩ => rfl)
  have el : ∀ k : Fin 64, lidx_main_v19 (ix2 b o) k = ix2 b k := fun k =>
    funext fun a => Fin.ext (by match a with | ⟨0, _⟩ => rfl | ⟨1, _⟩ => rfl)
  have er : ∀ k : Fin 64, idx_main_v18 (ridx_main_v19 (ix2 b o) k) = ix2 o k := fun k =>
    funext fun a => Fin.ext (by match a with | ⟨0, _⟩ => rfl | ⟨1, _⟩ => rfl)
  simp only [val_main_v18_apply, e20, el, er, Ideal.addf_def]
  rfl

/-- The second width doubling: entry (b, q) of the clipped join of the second layer with its negation. -/
theorem ref_pm2 (x0 : (⟨S65536x32, .i32⟩ : BufTy).Contents (Elt Ideal)) (x1 : (⟨S14848x128, .f32⟩ : BufTy).Contents (Elt Ideal))
    (x2 : (⟨S32x128, .f32⟩ : BufTy).Contents (Elt Ideal)) (x3 : (⟨S32, .f32⟩ : BufTy).Contents (Elt Ideal))
    (x4 : (⟨S32x64, .f32⟩ : BufTy).Contents (Elt Ideal)) (x5 : (⟨S32, .f32⟩ : BufTy).Contents (Elt Ideal))
    (b : Fin 65536) (q : Fin 64) :
    val_main_v25 (F := Ideal) x0 x1 x2 x3 x4 x5 (ix2 b q)
      = Cert.Spec.pm32 (fun o => val_main_v22 (F := Ideal) x0 x1 x2 x3 x4 x5 (ix2 b o)) q := by
  rw [val_main_v25_apply, val_main_call2_v0_apply, val_main_call2_cst_apply]
  unfold val_main_v24
  rw [concat_cols_apply]
  unfold Cert.Spec.pm32 Cert.Spec.relu
  by_cases h : q.val < 32
  · simp only [dif_pos h, Ideal.maximumf_def, Ideal.ofBits_def, Ideal.ofBits_zero_f32]
  · simp only [dif_neg h, val_main_v23_apply, Ideal.maximumf_def, Ideal.ofBits_def, Ideal.ofBits_zero_f32,
      Ideal.hostNegf_def, Ideal.negf_def]

/-- The last pairing: entry (b, 0) is the inner product of row b of the doubled second layer with the weight row. -/
theorem ref_out (x0 : (⟨S65536x32, .i32⟩ : BufTy).Contents (Elt Ideal)) (x1 : (⟨S14848x128, .f32⟩ : BufTy).Contents (Elt Ideal))
    (x2 : (⟨S32x128, .f32⟩ : BufTy).Contents (Elt Ideal)) (x3 : (⟨S32, .f32⟩ : BufTy).Contents (Elt Ideal))
    (x4 : (⟨S32x64, .f32⟩ : BufTy).Contents (Elt Ideal)) (x5 : (⟨S32, .f32⟩ : BufTy).Contents (Elt Ideal))
    (x6 : (⟨S1x64, .f32⟩ : BufTy).Contents (Elt Ideal)) (b : Fin 65536) :
    val_main_v27 (F := Ideal) x0 x1 x2 x3 x4 x5 x6 (ix2 b (0 : Fin 1))
      = ∑ d : Fin 64, val_main_v25 (F := Ideal) x0 x1 x2 x3 x4 x5 (ix2 b d) * x6 (ix2 (0 : Fin 1) d) := by
  rw [val_main_v27_apply]
  have el : ∀ k : Fin 64, lidx_main_v27 (ix2 b (0 : Fin 1)) k = ix2 b k := fun k =>
    funext fun a => Fin.ext (by match a with | ⟨0, _⟩ => rfl | ⟨1, _⟩ => rfl)
  have er : ∀ k : Fin 64, idx_main_v26 (ridx_main_v27 (ix2 b (0 : Fin 1)) k) = ix2 (0 : Fin 1) k := fun k =>
    funext fun a => Fin.ext (by match a with | ⟨0, _⟩ => rfl | ⟨1, _⟩ => rfl)
  simp only [val_main_v26_apply, el, er]

/-- Entry (b, 0) of the reference's result is the network after the lookup applied to row b of the summed lookup. -/
theorem ref_tail (x0 : (⟨S65536x32, .i32⟩ : BufTy).Contents (Elt Ideal)) (x1 : (⟨S14848x128, .f32⟩ : BufTy).Contents (Elt Ideal))
    (x2 : (⟨S32x128, .f32⟩ : BufTy).Contents (Elt Ideal)) (x3 : (⟨S32, .f32⟩ : BufTy).Contents (Elt Ideal))
    (x4 : (⟨S32x64, .f32⟩ : BufTy).Contents (Elt Ideal)) (x5 : (⟨S32, .f32⟩ : BufTy).Contents (Elt Ideal))
    (x6 : (⟨S1x64, .f32⟩ : BufTy).Contents (Elt Ideal)) (b : Fin 65536) :
    val_main_v27 (F := Ideal) x0 x1 x2 x3 x4 x5 x6 (ix2 b (0 : Fin 1))
      = Cert.Spec.tail (fun d => val_main_v8 (F := Ideal) x0 x1 (ix2 b d)) (fun o d => x2 (ix2 o d)) (fun o => x3 (ix1 o))
          (fun o d => x4 (ix2 o d)) (fun o => x5 (ix1 o)) (fun d => x6 (ix2 (0 : Fin 1) d)) := by
  rw [ref_out]
  unfold Cert.Spec.tail
  refine Finset.sum_congr rfl fun d _ => ?_
  rw [ref_pm2]
  simp only [ref_lin2, ref_pm1, ref_lin1]

end Cert.ReferenceIdeal.Hand

end
-- ==== Proof.PreFacts.lean ====
/-
  What the precondition says, decoded: every entry of the table is a real number, and each of the first 29 index
  words of every batch row is a row number of the table.
-/
import proofs.«420469_j76742475645269_2_alg».proof.Pre_finite_inputs
import proofs.«420469_j76742475645269_2_alg».proof.Proof.Gen.Pre_finite_inputs
import Idealize.ShloMosaic.PureOps.Ideal
import Idealize.ShloMosaic.Lib.ValueIdx
import Idealize.ShloMosaic.Lib.ValueLayout
import Idealize.ShloMosaic.Lib.ReduceAll
import Idealize.ShloMosaic.Lib.StableHlo.Predicate

noncomputable section

namespace Cert.PreFacts

open Idealize.ShloMosaic Idealize.ShloMosaic.ValueIdx Cert.Pre_finite_inputs

variable [Cert.Pre_finite_inputs.Facts]

/-- The shape of a scalar has exactly one index. -/
instance scalarIdxSubsingleton : Subsingleton S_.Idx := ⟨fun a b => funext fun d => d.elim0⟩

/-- The word 0x7F800000 is the float +∞. -/
theorem inf_word : Ideal.ofBits .f32 0x7F800000#32 = (⊤ : EReal) := by simp [Ideal.ofBits, Ideal.ieee]

/-- An extended real whose absolute value max x (−x) tests below +∞ is a real number: at either infinity the
    maximum is +∞ itself, which is not below +∞. -/
theorem real_of_abs_lt_inf (x : EReal)
    (hx : Ideal.cmp .olt (max x (-x)) (Ideal.ofBits .f32 0x7F800000#32) = 1#1) : ∃ r : ℝ, x = ((r : ℝ) : EReal) := by
  rw [inf_word] at hx
  induction x using EReal.rec with
  | bot => simp [Ideal.cmp] at hx
  | top => simp [Ideal.cmp] at hx
  | coe r => exact ⟨r, rfl⟩

/-- Under the precondition every table entry is a real number. -/
theorem emb_real (a0 : IVec S65536x32 32) (a1 : FVec Ideal S14848x128 .f32) (a2 : FVec Ideal S32x128 .f32)
    (a3 : FVec Ideal S32 .f32) (a4 : FVec Ideal S32x64 .f32) (a5 : FVec Ideal S32 .f32) (a6 : FVec Ideal S1x64 .f32)
    (h : Cert.Pre_finite_inputs.fn (F := Ideal) a0 a1 a2 a3 a4 a5 a6 = fun _ => 1#1) :
    ∀ i : S14848x128.Idx, ∃ r : ℝ, a1 i = ((r : ℝ) : EReal) := by
  intro i
  -- the predicate's one word is 1; it is the "and" of eight words, so each of them is 1
  have e := congrFun h ValueIdx.ix0
  unfold Cert.Pre_finite_inputs.fn Cert.Pre_finite_inputs.fn_part1 Cert.Pre_finite_inputs.fn_part2 at e
  dsimp only at e
  simp only [andi, IntOp.andi_eq_one] at e
  obtain ⟨⟨⟨⟨⟨⟨⟨h1, -⟩, -⟩, -⟩, -⟩, -⟩, -⟩, -⟩ := e
  -- the first word is "all entries of |a1| are below +∞": so it holds at entry i, and a1 i is a real
  exact real_of_abs_lt_inf (a1 i) (Host.reduce_andi_all _ _ _ _ _ h1 i)

/-- Under the precondition each of the first 29 index words of every batch row lies in [0, 14848). -/
theorem x_range (a0 : IVec S65536x32 32) (a1 : FVec Ideal S14848x128 .f32) (a2 : FVec Ideal S32x128 .f32)
    (a3 : FVec Ideal S32 .f32) (a4 : FVec Ideal S32x64 .f32) (a5 : FVec Ideal S32 .f32) (a6 : FVec Ideal S1x64 .f32)
    (h : Cert.Pre_finite_inputs.fn (F := Ideal) a0 a1 a2 a3 a4 a5 a6 = fun _ => 1#1)
    (b : Fin 65536) (j : Fin 29) :
    0 ≤ (a0 (ix2 b ⟨j.val, by have := j.isLt; omega⟩)).toInt ∧ (a0 (ix2 b ⟨j.val, by have := j.isLt; omega⟩)).toInt < 14848 := by
  have e := congrFun h ValueIdx.ix0
  unfold Cert.Pre_finite_inputs.fn Cert.Pre_finite_inputs.fn_part1 Cert.Pre_finite_inputs.fn_part2 at e
  dsimp only at e
  simp only [andi, IntOp.andi_eq_one] at e
  -- the last two of the eight words: "all of the first 29 columns are ≥ 0" and "... are < 14848"
  obtain ⟨⟨-, hge⟩, hlt⟩ := e
  have h0 := Host.reduce_andi_all _ _ _ _ _ hge (ix2 b j)
  have h1 := Host.reduce_andi_all _ _ _ _ _ hlt (ix2 b j)
  -- entry (b, j) of the slice of the first 29 columns is entry (b, j) of the whole index array
  have es := slice2_axis1_apply 0 a0 Facts.slices_S65536x32_S65536x29_0_0 b j
    ⟨j.val, by have := j.isLt; omega⟩ (Nat.zero_add _).symm
  -- a comparison of arrays is the comparison entry by entry, and the broadcast scalar reads the constant
  change IntOp.cmpi .sge (extractStridedSlice S65536x29 ![0, 0] a0 _ (ix2 b j)) (0#32) = 1#1 at h0
  change IntOp.cmpi .slt (extractStridedSlice S65536x29 ![0, 0] a0 _ (ix2 b j)) (14848#32) = 1#1 at h1
  -- a signed comparison that came out 1 is the order of the words read as integers
  rw [es, IntOp.cmpi_sge] at h0
  rw [es, IntOp.cmpi_slt] at h1
  exact ⟨h0, h1⟩

end Cert.PreFacts

end
-- ==== Proof.lean ====
/-
  The certificate of the lookup-and-sum network kernel against its plain reference, over the extended reals.

  Both programs compute, for every batch row b, the same function of the argument arrays: the 29 index words of
  the row select 29 rows of the [14848 × 128] table; their sum, clipped at zero, goes through two affine layers,
  each followed by g ↦ relu (g, −g), and a final weight row. The reference gathers the rows and adds them. The kernel
  never gathers: chunk by chunk it counts, for each of the table's row numbers, how many of the row's indices equal
  it, and multiplies the counts with the table — split by the host into the table itself and the table minus itself,
  which on the extended reals is the table and zero once the entries are real numbers. A count-weighted sum over all
  table rows is the sum over the selected rows exactly when every index is a row number of the table; outside that
  range the reference clamps and the kernel counts nothing, so the statement carries the range of the 29 index
  columns as a precondition, next to the finiteness of the float inputs.

  The frames of the two kernel programs are the generated ones; the reference's frame is its run with the result
  dropped; the ideal pass rewrote nothing, so the preservation claim is trivial.
-/
import proofs.«420469_j76742475645269_2_alg».proof.Defs
import proofs.«420469_j76742475645269_2_alg».proof.Proof.Gen.Kernel
import proofs.«420469_j76742475645269_2_alg».proof.Proof.Gen.Kernel.Frame
import proofs.«420469_j76742475645269_2_alg».proof.Proof.Gen.KernelIdeal
import proofs.«420469_j76742475645269_2_alg».proof.Proof.Gen.KernelIdeal.Frame
import proofs.«420469_j76742475645269_2_alg».proof.Proof.Gen.ReferenceIdeal
import proofs.«420469_j76742475645269_2_alg».proof.Proof.Gen.Pre_finite_inputs
import proofs.«420469_j76742475645269_2_alg».proof.Proof.Final
import proofs.«420469_j76742475645269_2_alg».proof.Proof.RefEmb
import proofs.«420469_j76742475645269_2_alg».proof.Proof.RefTail
import proofs.«420469_j76742475645269_2_alg».proof.Proof.PreFacts
import Idealize.ShloMosaic.Adequacy
import Idealize.ShloMosaic.Init

set_option maxRecDepth 16384

noncomputable section

namespace Cert.Proof

open Idealize.ShloMosaic Idealize.ShloMosaic.ValueIdx Idealize.ShloMosaic.TcCoe Idealize.SL.Sem

/-- The word-level kernel program runs and keeps its arguments: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- The reference's result term, on arguments that agree with the kernel's, is the kernel's result column: entry
    (b, 0) of both is the network applied to the sum of the table rows batch row b selects. -/
theorem ref_is_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.ValueP.res_main_v27 m' c = Cert.KernelIdeal.Hand.result m c := by
  rw [Cert.ReferenceIdeal.ReadP.val_main_v27_eq, h0, h1, h2, h3, h4, h5, h6]
  funext i
  obtain ⟨b, z, rfl⟩ : ∃ (b : Fin 65536) (z : Fin 1), i = ix2 b z := ⟨i 0, i 1, eq_ix2 i⟩
  obtain rfl : z = 0 := Subsingleton.elim _ _
  rw [Cert.ReferenceIdeal.Hand.ref_tail]
  have hemb : (fun d => Cert.ReferenceIdeal.ReadP.val_main_v8 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (ix2 b d))
      = Cert.Spec.embSum (fun v d => Cert.KernelIdeal.Hand.embarr m c (ix2 v d)) (Cert.KernelIdeal.Hand.rowsOf m c b) :=
    funext fun d => Cert.ReferenceIdeal.Hand.ref_embsum _ _ b d
  rw [hemb]
  rfl

/-- THE VALUE CLAIM: from memories that agree on the arguments, with a finite table and in-range indices, both
    idealized programs run and end with the same result column. -/
theorem algebraic : Cert.algebraic_KernelIdeal_ReferenceIdeal := by
  intro m ρ m' ρ' hpre hagree
  have hD : ∀ c, Cert.KernelIdeal.Hand.Domain m c := fun c =>
    ⟨Cert.PreFacts.emb_real _ _ _ _ _ _ _ (hpre c), fun b j => Cert.PreFacts.x_range _ _ _ _ _ _ _ (hpre c) b j⟩
  refine ⟨fun c => Cert.KernelIdeal.Hand.result m c, Cert.KernelIdeal.Hand.kernel_run m ρ hD, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  exact ref_is_result m m' c h0 h1 h2 h3 h4 h5 h6

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
